-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x4096 .f32) (main_arg1 : IVec S8192 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 1 := constantI S_ 1 1#1
  let main_v6 : IVec S_ 1 := (fun x v => Host.reduce IntOp.andi x v reducesTo_S8192_S_d0 h_S_) main_v5 main_c_1
  let main_v7 : IVec S_ 1 := andi main_v3 main_v6
  let main_c_2 : IVec S_ 32 := constantI S_ 32 4096#32
  let main_v8 : IVec S8192 32 := broadcastInDim S8192 ![] bcast_S_S8192 main_c_2
  let main_v9 : IVec S8192 1 := cmpi .slt main_arg1 main_v8
  let main_c_3 : IVec S_ 1 := constantI S_ 1 1#1
  let main_v10 : IVec S_ 1 := (fun x v => Host.reduce IntOp.andi x v reducesTo_S8192_S_d0 h_S_) main_v9 main_c_3
  let main_v11 : IVec S_ 1 := andi main_v7 main_v10
  main_v11
-- ==== Kernel.lean ====
abbrev S8192x4096 : Shape := ⟨2, ![8192, 4096]⟩
abbrev S8192 : Shape := ⟨1, ![8192]⟩
abbrev S1x8192 : Shape := ⟨2, ![1, 8192]⟩
abbrev S8192x1 : Shape := ⟨2, ![8192, 1]⟩
abbrev S4096x4096 : Shape := ⟨2, ![4096, 4096]⟩
abbrev S1024x1024 : Shape := ⟨2, ![1024, 1024]⟩
abbrev S1x1024 : Shape := ⟨2, ![1, 1024]⟩
abbrev S1024x1 : Shape := ⟨2, ![1024, 1]⟩
abbrev S_ : Shape := ⟨0, ![]⟩
abbrev S4096 : Shape := ⟨1, ![4096]⟩
abbrev S4096x1 : Shape := ⟨2, ![4096, 1]⟩
abbrev S512x4096 : Shape := ⟨2, ![512, 4096]⟩
abbrev S256x1 : Shape := ⟨2, ![256, 1]⟩
abbrev S256x4096 : Shape := ⟨2, ![256, 4096]⟩
abbrev S1x512 : Shape := ⟨2, ![1, 512]⟩
abbrev S256x512 : Shape := ⟨2, ![256, 512]⟩
abbrev S256 : Shape := ⟨1, ![256]⟩

abbrev nBuf : Space → Nat
  | .hbm => 28
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S8192, .i32⟩
  | .hbm, ⟨2, _⟩ => ⟨S1x8192, .i32⟩
  | .hbm, ⟨3, _⟩ => ⟨S8192x1, .i32⟩
  | .hbm, ⟨4, _⟩ => ⟨S4096x4096, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S4096, .f32⟩
  | .hbm, ⟨9, _⟩ => ⟨S8192x1, .i32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .i1⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S4096x1, .f32⟩
  | .hbm, ⟨18, _⟩ => ⟨S4096x4096, .f32⟩
  | .hbm, ⟨19, _⟩ => ⟨S4096x4096, .f32⟩
  | .hbm, ⟨20, _⟩ => ⟨S4096x4096, .bf16⟩
  | .hbm, ⟨21, _⟩ => ⟨S8192x1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1x1024, .i32⟩
  | .local _ .vmem, ⟨3, _⟩ => ⟨S1x1024, .i32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S512x4096, .bf16⟩
  | .local _ .vmem, ⟨8, _⟩ => ⟨S512x4096, .bf16⟩
  | .local _ .vmem, ⟨9, _⟩ => ⟨S256x1, .i32⟩
  | .local _ .vmem, ⟨10, _⟩ => ⟨S256x1, .i32⟩
  | .local _ .vmem, ⟨11, _⟩ => ⟨S256x1, .f32⟩
  | .local _ .vmem, ⟨12, _⟩ => ⟨S256x1, .f32⟩
  | .local _ .vmem, ⟨13, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨2, ![32, 8], ![false, false]⟩

def k1_cond2 (i : grid1.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S256x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S8192_S1x8192 : S8192.ShapeCasts S1x8192
  shapeCasts_S8192_S8192x1 : S8192.ShapeCasts S8192x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  iota_S1024x1_d0_w32 : S1024x1.Iotas .tc 32 [0]
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  natLt_1_32 : 1 < 32
  bitsLt_bf16_f32 : FTy.bits .bf16 < FTy.bits .f32
  bcast_S_S8192 : S_.BroadcastsInDim S8192 (![] : Fin 0 → Fin S8192.rank)
  bcast_S_S4096 : S_.BroadcastsInDim S4096 (![] : Fin 0 → Fin S4096.rank)
  bcast_S8192_S8192x1_0 : S8192.BroadcastsInDim S8192x1 (![0] : Fin 1 → Fin S8192x1.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  iota_S1x512_d1_w32 : S1x512.Iotas .tc 32 [1]
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x512 : S256x1.Broadcasts S256x512
  broadcasts_S1x512_S256x512 : S1x512.Broadcasts S256x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  reduces_S256x4096_S256 : S256x4096.Reduces [1] S256
  shapeCasts_S256_S256x1 : S256.ShapeCasts S256x1
  broadcasts_S256x1_S256x4096 : S256x1.Broadcasts S256x4096
  iota_S256x4096_d1_w32 : S256x4096.Iotas .tc 32 [1]
  reducesTo_S8192x1_S_d0_1 : S8192x1.ReducesTo [0, 1] S_
  h_S_ : 0 < S_.numel
  dot_S1024x1024_S1024x1024_S1024x1024_1_0_0_1_n_n_wf : DotDims.WF S1024x1024 S1024x1024 S1024x1024 [1] [0] [0] [1] [] []
  scatter_S4096_S8192x1_S8192_n_0_0_1_wf : ScatterDims.WF S4096 S8192x1 S8192 [] [0] [0] 1
  dot_S256x512_S512x4096_S256x4096_1_0_0_1_n_n_wf : DotDims.WF S256x512 S512x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .i32 = 32 ∨ (Rect.block (s := S1x8192) S1x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .bf16 = 32 ∨ (Rect.block (s := S4096x4096) S512x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S8192x1.size a
  hwx1_1 : ∀ i : grid1.Coords, EltTy.bits .i32 = 32 ∨ (Rect.block (s := S8192x1) S256x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S8192x1.size a
  hwx1_2 : ∀ i : grid1.Coords, EltTy.bits .f32 = 32 ∨ (Rect.block (s := S8192x1) S256x1.size (cc1_transform_2 i) (hinb1_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def scatter_S4096_S8192x1_S8192_n_0_0_1 : ScatterDims S4096 S8192x1 S8192 where
  updateWindowDims := []
  insertedWindowDims := [0]
  scatterDimsToOperandDims := [0]
  indexVectorDim := 1
  wf := scatter_S4096_S8192x1_S8192_n_0_0_1_wf
def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v13) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S256x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S8192 : Shape := ⟨1, ![8192]⟩
abbrev S_ : Shape := ⟨0, ![]⟩
abbrev S4096x4096 : Shape := ⟨2, ![4096, 4096]⟩
abbrev S8192x1 : Shape := ⟨2, ![8192, 1]⟩
abbrev S4096 : Shape := ⟨1, ![4096]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 79
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192, .i32⟩
  | .hbm, ⟨2, _⟩ => ⟨S_, .f32⟩
  | .hbm, ⟨3, _⟩ => ⟨S4096x4096, .f32⟩
  | .hbm, ⟨4, _⟩ => ⟨S8192x1, .i32⟩
  | .hbm, ⟨5, _⟩ => ⟨S4096x4096, .f32⟩
  | .hbm, ⟨6, _⟩ => ⟨S_, .f32⟩
  | .hbm, ⟨7, _⟩ => ⟨S8192, .f32⟩
  | .hbm, ⟨8, _⟩ => ⟨S_, .f32⟩
  | .hbm, ⟨9, _⟩ => ⟨S4096, .f32⟩
  | .hbm, ⟨10, _⟩ => ⟨S8192x1, .i32⟩
  | .hbm, ⟨11, _⟩ => ⟨S4096, .f32⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S8192x1, .i32⟩
  | .hbm, ⟨20, _⟩ => ⟨S8192x4096, .f32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .i32⟩
  | .hbm, ⟨28, _⟩ => ⟨S8192x1, .i32⟩
  | .hbm, ⟨29, _⟩ => ⟨S8192, .f32⟩
  | .hbm, ⟨30, _⟩ => ⟨S8192x1, .f32⟩
  | .hbm, ⟨31, _⟩ => ⟨S8192x4096, .f32⟩
  | .hbm, ⟨32, _⟩ => ⟨S8192x4096, .f32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S8192x1, .f32⟩
  | .hbm, ⟨39, _⟩ => ⟨S8192x4096, .f32⟩
  | .hbm, ⟨40, _⟩ => ⟨S8192x4096, .f32⟩
  | .hbm, ⟨41, _⟩ => ⟨S8192x4096, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1, .f32⟩
  | .hbm, ⟨46, _⟩ => ⟨S8192x4096, .f32⟩
  | .hbm, ⟨47, _⟩ => ⟨S8192x4096, .f32⟩
  | .hbm, ⟨48, _⟩ => ⟨S8192x1, .i32⟩
  | .hbm, ⟨49, _⟩ => ⟨S_, .i32⟩
  | .hbm, ⟨50, _⟩ => ⟨S8192x1, .i32⟩
  | .hbm, ⟨51, _⟩ => ⟨S8192x1, .i1⟩
  | .hbm, ⟨52, _⟩ => ⟨S_, .i32⟩
  | .hbm, ⟨53, _⟩ => ⟨S8192x1, .i32⟩
  | .hbm, ⟨54, _⟩ => ⟨S8192x1, .i32⟩
  | .hbm, ⟨55, _⟩ => ⟨S8192x1, .i32⟩
  | .hbm, ⟨56, _⟩ => ⟨S8192x1x1, .i32⟩
  | .hbm, ⟨57, _⟩ => ⟨S1, .i32⟩
  | .hbm, ⟨58, _⟩ => ⟨S_, .i32⟩
  | .hbm, ⟨59, _⟩ => ⟨S8192x1x1, .i32⟩
  | .hbm, ⟨60, _⟩ => ⟨S8192x1x1, .i1⟩
  | .hbm, ⟨61, _⟩ => ⟨S1x1x1, .i32⟩
  | .hbm, ⟨62, _⟩ => ⟨S8192x1x1, .i32⟩
  | .hbm, ⟨63, _⟩ => ⟨S8192x1x1, .i1⟩
  | .hbm, ⟨64, _⟩ => ⟨S8192x1x1, .i1⟩
  | .hbm, ⟨65, _⟩ => ⟨S_, .i1⟩
  | .hbm, ⟨66, _⟩ => ⟨S8192x1, .i1⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S8192, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_c_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_cst : Ref sig .tc := ⟨.hbm, 33, rfl⟩
abbrev main_call0_v0 : Ref sig .tc := ⟨.hbm, 34, rfl⟩
abbrev main_call0_cst_0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_cst_1 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_v24 : Ref sig .tc := ⟨.hbm, 47, rfl⟩
abbrev main_v25 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_cst : Ref sig .tc := ⟨.hbm, 68, rfl⟩
abbrev main_call1_v14 : Ref sig .tc := ⟨.hbm, 69, rfl⟩
abbrev main_v26 : Ref sig .tc := ⟨.hbm, 70, rfl⟩
abbrev main_v27 : Ref sig .tc := ⟨.hbm, 71, rfl⟩
abbrev main_cst_5 : Ref sig .tc := ⟨.hbm, 72, rfl⟩
abbrev main_v28 : Ref sig .tc := ⟨.hbm, 73, rfl⟩
abbrev main_cst_6 : Ref sig .tc := ⟨.hbm, 74, rfl⟩
abbrev main_v29 : Ref sig .tc := ⟨.hbm, 75, rfl⟩
abbrev main_v30 : Ref sig .tc := ⟨.hbm, 76, rfl⟩
abbrev main_cst_7 : Ref sig .tc := ⟨.hbm, 77, rfl⟩
abbrev main_v31 : Ref sig .tc := ⟨.hbm, 78, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S8192_S8192x1_0 : S8192.BroadcastsInDim S8192x1 (![0] : Fin 1 → Fin S8192x1.rank)
  bcast_S_S8192 : S_.BroadcastsInDim S8192 (![] : Fin 0 → Fin S8192.rank)
  bcast_S_S4096 : S_.BroadcastsInDim S4096 (![] : Fin 0 → Fin S4096.rank)
  bcast_S8192x1_S8192x4096_0_1 : S8192x1.BroadcastsInDim S8192x4096 (![0, 1] : Fin 2 → Fin S8192x4096.rank)
  reducesTo_S8192x4096_S8192_d1 : S8192x4096.ReducesTo [1] S8192
  h_S_ : 0 < S_.numel
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  scatter_S4096x4096_S8192x1_S8192x4096_1_0_0_1_wf : ScatterDims.WF S4096x4096 S8192x1 S8192x4096 [1] [0] [0] 1
  scatter_S4096_S8192x1_S8192_n_0_0_1_wf : ScatterDims.WF S4096 S8192x1 S8192 [] [0] [0] 1
  gather_S4096x4096_S8192x1_S8192x4096_1_0_n_n_0_1_14096_wf : GatherDims.WF S4096x4096 S8192x1 S8192x4096 [1] [0] [] [0] [] 1 ![1, 4096]
  gather_S4096_S8192x1_S8192_n_0_n_n_0_1_1_wf : GatherDims.WF S4096 S8192x1 S8192 [] [0] [] [0] [] 1 ![1]
  gather_S8192x4096_S8192x1x1_S8192x1_n_1_0_0_1_2_11_wf : GatherDims.WF S8192x4096 S8192x1x1 S8192x1 [] [1] [0] [1] [0] 2 ![1, 1]

variable [Facts₀]

def scatter_S4096x4096_S8192x1_S8192x4096_1_0_0_1 : ScatterDims S4096x4096 S8192x1 S8192x4096 where
  updateWindowDims := [1]
  insertedWindowDims := [0]
  scatterDimsToOperandDims := [0]
  indexVectorDim := 1
  wf := scatter_S4096x4096_S8192x1_S8192x4096_1_0_0_1_wf
def scatter_S4096_S8192x1_S8192_n_0_0_1 : ScatterDims S4096 S8192x1 S8192 where
  updateWindowDims := []
  insertedWindowDims := [0]
  scatterDimsToOperandDims := [0]
  indexVectorDim := 1
  wf := scatter_S4096_S8192x1_S8192_n_0_0_1_wf
def gather_S4096x4096_S8192x1_S8192x4096_1_0_n_n_0_1_14096 : GatherDims S4096x4096 S8192x1 S8192x4096 where
  offsetDims := [1]
  collapsedSliceDims := [0]
  operandBatchingDims := []
  startIndicesBatchingDims := []
  startIndexMap := [0]
  indexVectorDim := 1
  sliceSizes := ![1, 4096]
  wf := gather_S4096x4096_S8192x1_S8192x4096_1_0_n_n_0_1_14096_wf
def gather_S4096_S8192x1_S8192_n_0_n_n_0_1_1 : GatherDims S4096 S8192x1 S8192 where
  offsetDims := []
  collapsedSliceDims := [0]
  operandBatchingDims := []
  startIndicesBatchingDims := []
  startIndexMap := [0]
  indexVectorDim := 1
  sliceSizes := ![1]
  wf := gather_S4096_S8192x1_S8192_n_0_n_n_0_1_1_wf
def gather_S8192x4096_S8192x1x1_S8192x1_n_1_0_0_1_2_11 : GatherDims S8192x4096 S8192x1x1 S8192x1 where
  offsetDims := []
  collapsedSliceDims := [1]
  operandBatchingDims := [0]
  startIndicesBatchingDims := [0]
  startIndexMap := [1]
  indexVectorDim := 2
  sliceSizes := ![1, 1]
  wf := gather_S8192x4096_S8192x1x1_S8192x1_n_1_0_0_1_2_11_wf

class Facts : Prop extends Facts₀ where

variable [Facts]
-- ==== Proof.BR0Defs.lean ====
/- Region 0 (the class-sum kernel), its data: each window's block at a grid point, the accumulator the kernel keeps in
   its scratch from one grid point to the next, the invariant that carries it, and the pipeline's proof data.
   The grid is 4 x 4 x 8 with the last axis fastest: point t has k = t % 8. At k = 0 the scratch is reset to zero before the
   update; at every point it becomes  acc + onehot(block of class ids, label block) · feat block ; at k = 7 it is copied
   to the output block. -/
import proofs.«418073_j77309412134_1_alg».proof.Proof.Gen.Kernel.Launch
import proofs.«418073_j77309412134_1_alg».proof.Proof.Gen.Kernel.Skeleton
import proofs.«418073_j77309412134_1_alg».proof.Proof.Gen.Kernel.Points
import Idealize.ShloMosaic.Lib.Pipeline.FrameBody
import Idealize.ShloMosaic.Lib.Pipeline.Frame

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature block and the label block of point `t`, at their literal types. -/
abbrev xblk0 (c : Dev nD) (t : Fin cfg0.N) : Vec F S1024x1024 .f32 := iblk0 V c 0 t
abbrev lblk0 (c : Dev nD) (t : Fin cfg0.N) : Vec F S1x1024 .i32 := iblk0 V c 1 t

/-- The scratch accumulator after the body at point `n`: the update applied to zero at the first point of a run of 8
    (k = 0), else to what the point before left. -/
def accAt0 (c : Dev nD) : (n : ℕ) → n < cfg0.N → Vec F S1024x1024 .f32
  | 0, hn => k0_pay2 (grid0.coords ⟨0, hn⟩) (lblk0 V c ⟨0, hn⟩) (xblk0 V c ⟨0, hn⟩) (k0_pay1 (F := F))
  | n + 1, hn => k0_pay2 (grid0.coords ⟨n + 1, hn⟩) (lblk0 V c ⟨n + 1, hn⟩) (xblk0 V c ⟨n + 1, hn⟩)
      (if (n + 1) % 8 = 0 then k0_pay1 (F := F) else accAt0 c n (Nat.lt_of_succ_lt hn))

/-- The scratch buffer as a whole memref. -/
abbrev scM0 : Memref sig .tc .vmem S1024x1024 .f32 := Memref.whole cc0_scratch0

/-- The core's other scoped buffers that are no staging buffer of this call (the second call's staging buffers and
    scratch), each whole at some contents. -/
def restS0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_scratch0), ((c : Thread nD τ).loc cc1_scratch0) ↦{fullShare} f))

/-- The region invariant before position `n`: before the first point what the launch hands over (every scoped buffer at
    anything, the generator register); afterwards the scratch at the accumulator the point before left, the other scoped
    buffers at anything, the generator register at some state. -/
def PhiS0 (c : Dev nD) : (n : ℕ) → n ≤ cfg0.N → sProp 𝕄
  | 0, _ => Pipeline.ΦA spec0 c
  | n + 1, hn => iprop(owns (c : Thread nD τ) scM0 fullShare (accAt0 V c n hn) ∗ restS0 (F := F) c ∗ (∃ r, prngReg c r))

/-- The proof data of pipeline 0 on core `c`: the arrays as the region finds them; after the body each input's buffer at its
    block, the output's at the accumulator (what the body stores there at k = 7; at the other points the window is idle and
    this value is not consulted); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]

end Cert.Kernel.Hand

end
-- ==== Proof.BR1Defs.lean ====
/- Region 1 (the centre / cross-entropy kernel), its data. The grid is 32 x 8 with the last axis fastest: point t has
   k = t % 8. The scratch accumulates  onehot(label block, block k of class ids) · (block k of the class means)  over k, reset
   to zero at k = 0; at k = 7 the output block receives the row-wise cross-entropy of the accumulated rows. -/
import proofs.«418073_j77309412134_1_alg».proof.Proof.Gen.Kernel.Launch
import proofs.«418073_j77309412134_1_alg».proof.Proof.Gen.Kernel.Skeleton
import proofs.«418073_j77309412134_1_alg».proof.Proof.Gen.Kernel.Points
import Idealize.ShloMosaic.Lib.Pipeline.FrameBody
import Idealize.ShloMosaic.Lib.Pipeline.Frame

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The class-mean block and the label block of point `t`, at their literal types. -/
abbrev sblk1 (c : Dev nD) (t : Fin cfg1.N) : Vec F S512x4096 .bf16 := iblk1 V c 0 t
abbrev lblk1 (c : Dev nD) (t : Fin cfg1.N) : Vec F S256x1 .i32 := iblk1 V c 1 t

/-- The scratch accumulator after the body at point `n`. -/
def accAt1 (c : Dev nD) : (n : ℕ) → n < cfg1.N → Vec F S256x4096 .f32
  | 0, hn => k1_pay3 (grid1.coords ⟨0, hn⟩) (lblk1 V c ⟨0, hn⟩) (k1_pay1 (F := F)) (sblk1 V c ⟨0, hn⟩)
  | n + 1, hn => k1_pay3 (grid1.coords ⟨n + 1, hn⟩) (lblk1 V c ⟨n + 1, hn⟩)
      (if (n + 1) % 8 = 0 then k1_pay1 (F := F) else accAt1 c n (Nat.lt_of_succ_lt hn)) (sblk1 V c ⟨n + 1, hn⟩)

/-- What the body stores in the output block at k = 7: the cross-entropy column of the accumulated rows. -/
def ceAt1 (c : Dev nD) (t : Fin cfg1.N) : Vec F S256x1 .f32 := k1_pay4 (lblk1 V c t) (accAt1 V c t.val t.isLt)

/-- The scratch buffer as a whole memref. -/
abbrev scM1 : Memref sig .tc .vmem S256x4096 .f32 := Memref.whole cc1_scratch0

/-- The core's other scoped buffers that are no staging buffer of this call, each whole at some contents. -/
def restS1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f))

/-- The region invariant before position `n`. -/
def PhiS1 (c : Dev nD) : (n : ℕ) → n ≤ cfg1.N → sProp 𝕄
  | 0, _ => Pipeline.ΦA spec1 c
  | n + 1, hn => iprop(owns (c : Thread nD τ) scM1 fullShare (accAt1 V c n hn) ∗ restS1 (F := F) c ∗ (∃ r, prngReg c r))

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => ceAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = ceAt1 V c t := by dsimp only [dat1]

end Cert.Kernel.Hand

end
-- ==== Proof.BRun.lean ====
/- The kernel program's run, from its two regions' frame facts: the contents the two pallas_calls leave, the proof data
   of both pipelines, each region as a segment of @main entered from and left at the buffer contents the host stretches
   fold, and the run: every weakly fair execution of @main terminates with every unscoped buffer at the last fold. -/
import proofs.«418073_j77309412134_1_alg».proof.Proof.Gen.Kernel.Regions
import proofs.«418073_j77309412134_1_alg».proof.Proof.BR0Defs
import proofs.«418073_j77309412134_1_alg».proof.Proof.BR1Defs
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel.Gen

variable {F : FTy → Type} [FloatOps F]

local notation "𝕄" => MT nD τ sig Unit (Elt F) ℕ (UR sig nD τ) ℕ

/-- What the two regions' frame halves prove, at every entry contents: the body obligation, and that the launch's
    hand-over is the invariant before the first point and the invariant after the last point gives it back. -/
structure RegionFacts (F : FTy → Type) [FloatOps F] : Prop where
  body0 : ∀ (V : (c : Dev nD) → (b : Ref sig .tc) → Buf (Elt F) ((c : Thread nD τ).loc b)) (c : Dev nD),
    BodyObligation (dat0 (F := F) V c) (defs₀ (F := F)) Variants.none () Set.univ
  in0 : ∀ (V : (c : Dev nD) → (b : Ref sig .tc) → Buf (Elt F) ((c : Thread nD τ).loc b)) (c : Dev nD),
    Pipeline.ΦA spec0 c ⊢ (dat0 (F := F) V c).Φ 0
  out0 : ∀ (V : (c : Dev nD) → (b : Ref sig .tc) → Buf (Elt F) ((c : Thread nD τ).loc b)) (c : Dev nD),
    (dat0 (F := F) V c).Φ (Fin.last cfg0.N) ⊢ Pipeline.ΦA spec0 c
  body1 : ∀ (V : (c : Dev nD) → (b : Ref sig .tc) → Buf (Elt F) ((c : Thread nD τ).loc b)) (c : Dev nD),
    BodyObligation (dat1 (F := F) V c) (defs₀ (F := F)) Variants.none () Set.univ
  in1 : ∀ (V : (c : Dev nD) → (b : Ref sig .tc) → Buf (Elt F) ((c : Thread nD τ).loc b)) (c : Dev nD),
    Pipeline.ΦA spec1 c ⊢ (dat1 (F := F) V c).Φ 0
  out1 : ∀ (V : (c : Dev nD) → (b : Ref sig .tc) → Buf (Elt F) ((c : Thread nD τ).loc b)) (c : Dev nD),
    (dat1 (F := F) V c).Φ (Fin.last cfg1.N) ⊢ Pipeline.ΦA spec1 c

variable (m : (ℓ : Loc nD τ sig) → Buf (Elt F) ℓ) (ρ : Dev nD → PrngReg)

/-! ## What the regions leave -/

/-- The buffers as region 0 finds them: the launch contents after the first host stretch. -/
abbrev E1 : (c : Dev nD) → (b : Ref sig .tc) → Buf (Elt F) ((c : Thread nD τ).loc b) := fun c b => V1 m c b

/-- What region 0 leaves in its output array: the write-backs folded. -/
def o2 (c : Dev nD) : Buf (Elt F) ((c : Thread nD τ).loc main_v2) := (dat0 (E1 m) c).arrAt 2 cfg0.N

/-- The regions' leavings with only region 0's named. -/
def outs2 : Outs (F := F) := fun _ r c => if h : r = main_v2 then h ▸ o2 m c else V1 m c r

/-- The buffers as region 1 finds them. -/
abbrev E5 : (c : Dev nD) → (b : Ref sig .tc) → Buf (Elt F) ((c : Thread nD τ).loc b) := fun c b => V5 m (outs2 m) c b

/-- What region 1 leaves in its output array. -/
def o6 (c : Dev nD) : Buf (Elt F) ((c : Thread nD τ).loc main_v14) := (dat1 (E5 m) c).arrAt 2 cfg1.N

/-- The regions' leavings. -/
def outsH : Outs (F := F) := fun _ r c =>
  if h : r = main_v2 then h ▸ o2 m c else if h' : r = main_v14 then h' ▸ o6 m c else V1 m c r

theorem outs2_2 (c : Dev nD) : outs2 m 2 main_v2 c = o2 m c := by
  unfold outs2; rw [dif_pos rfl]
theorem outsH_2 (c : Dev nD) : outsH m 2 main_v2 c = o2 m c := by
  unfold outsH; rw [dif_pos rfl]
theorem outsH_6 (c : Dev nD) : outsH m 6 main_v14 c = o6 m c := by
  unfold outsH; rw [dif_neg (by decide), dif_pos rfl]

/-- Region 1 is entered from the same contents whichever of the two families names region 0's leavings. -/
theorem V5_outsH (c : Dev nD) : V5 m (outsH m) c = V5 m (outs2 m) c := by
  show StableHlo.after hostOps1_2 (StableHlo.after hostOps1_1 (StableHlo.after hostOps1 (V2 m (outsH m) c)))
     = StableHlo.after hostOps1_2 (StableHlo.after hostOps1_1 (StableHlo.after hostOps1 (V2 m (outs2 m) c)))
  have : V2 m (outsH m) c = V2 m (outs2 m) c := by
    show Function.update (V1 m c) main_v2 (outsH m 2 main_v2 c) = Function.update (V1 m c) main_v2 (outs2 m 2 main_v2 c)
    rw [outsH_2, outs2_2]
  rw [this]

/-! ## The proof data family and the regions as segments -/

/-- Every pipeline's proof data, each at its region's entry contents: a literal match on the pipeline. -/
def pdats : (p : Fin 2) → (c : Dev nD) → Dat τ (Elt F) Unit ℕ (UR sig nD τ) ℕ (cfgs p) c
  | ⟨0, _⟩ => fun c => dat0 (E1 m) c
  | ⟨1, _⟩ => fun c => dat1 (E5 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the generator register at some state and the core's dues, none. -/
abbrev R (c : Dev nD) : sProp 𝕄 := iprop((∃ r, prngReg c r) ∗ ∃ W, owes (c : Thread nD τ) (0 : CellTallies nD τ sig Unit) W)

/-- At region 0's exit each of its arrays holds what the pipeline leaves, -/
theorem hF0 (c : Dev nD) (w : Fin cfg0.W) :
    (dat0 (E1 m) c).arrAt w cfg0.N = V2 m (outsH m) c (Pipeline.arrRef spec0 w) := by
  match w with
  | ⟨0, _⟩ => exact ((dat0 (E1 m) c).arrAt_in 0 rfl _).trans ((A_eq0 (E1 m) c 0).trans (V2_of m (outsH m) c main_arg0 (by decide)).symm)
  | ⟨1, _⟩ => exact ((dat0 (E1 m) c).arrAt_in 1 rfl _).trans ((A_eq0 (E1 m) c 1).trans (V2_of m (outsH m) c main_v0 (by decide)).symm)
  | ⟨2, _⟩ =>
    show o2 m c = Function.update (V1 m c) main_v2 (outsH m 2 main_v2 c) main_v2
    rw [Function.update_self, outsH_2]
/-- and every other buffer what it held at entry. -/
theorem hrest0 (c : Dev nD) : ∀ b, b ∉ Finset.univ.image (Pipeline.arrRef spec0) → V2 m (outsH m) c b = V1 m c b :=
  fun b hb => V2_of m (outsH m) c b (by
    intro h; rw [List.mem_singleton] at h; subst h
    exact hb (Finset.mem_image.mpr ⟨2, Finset.mem_univ _, rfl⟩))

theorem hF1 (c : Dev nD) (w : Fin cfg1.W) :
    (dat1 (E5 m) c).arrAt w cfg1.N = V6 m (outsH m) c (Pipeline.arrRef spec1 w) := by
  match w with
  | ⟨0, _⟩ => exact ((dat1 (E5 m) c).arrAt_in 0 rfl _).trans ((A_eq1 (E5 m) c 0).trans
      ((congrFun (V5_outsH m c) main_v13).symm.trans (V6_of m (outsH m) c main_v13 (by decide)).symm))
  | ⟨1, _⟩ => exact ((dat1 (E5 m) c).arrAt_in 1 rfl _).trans ((A_eq1 (E5 m) c 1).trans
      ((congrFun (V5_outsH m c) main_v1).symm.trans (V6_of m (outsH m) c main_v1 (by decide)).symm))
  | ⟨2, _⟩ =>
    show o6 m c = Function.update (V5 m (outsH m) c) main_v14 (outsH m 6 main_v14 c) main_v14
    rw [Function.update_self, outsH_6]
theorem hrest1 (c : Dev nD) : ∀ b, b ∉ Finset.univ.image (Pipeline.arrRef spec1) → V6 m (outsH m) c b = E5 m c b :=
  fun b hb => (V6_of m (outsH m) c b (by
    intro h; rw [List.mem_singleton] at h; subst h
    exact hb (Finset.mem_image.mpr ⟨2, Finset.mem_univ _, rfl⟩))).trans (congrFun (V5_outsH m c) b)

variable (hR : RegionFacts F)

-- a library lemma stated over the pinned configuration unifies with the printed one only when unification may unfold
-- plain definitions in a metavariable's type
set_option backward.isDefEq.respectTransparency.types false in
/-- Region 0 over the thread state: entered from every unscoped buffer at the first fold, left at the second. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hR.body0 (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outsH m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hR.in0 (E1 m) c)
    unfold Pipeline.ΦA
    iintro ⟨Hp, -, Hr⟩
    isplitl [Hr]; · iexact Hr
    iexact Hp
  hout c := by
    refine BIBase.Entails.trans (hR.out0 (E1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b => V2 m (outsH m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the fifth fold, left at the sixth. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hR.body1 (E5 m) c).loose
  hwaits := Pipeline.hwaits_of_owed_zero _ _ _ _ L lv 1 fun _ _ => rfl
  pre c := iprop(StableHlo.held (c : Thread nD τ) (Pipeline.ucRefs τ sig) (V5 m (outsH m) c) ∗ R c)
  post c := iprop(StableHlo.held (c : Thread nD τ) (Pipeline.ucRefs τ sig) (V6 m (outsH m) c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none, V5_outsH m c]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hR.in1 (E5 m) c)
    unfold Pipeline.ΦA
    iintro ⟨Hp, -, Hr⟩
    isplitl [Hr]; · iexact Hr
    iexact Hp
  hout c := by
    refine BIBase.Entails.trans (hR.out1 (E5 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (fun b => V6 m (outsH m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

-- the launch theorem's implicit arguments are found by unifying its conclusion with this one, which takes unfolding plain
-- definitions in a metavariable's type
include hR in
set_option backward.isDefEq.respectTransparency.types false in
/-- From any memory with zero counters every weakly fair execution of @main on the TensorCores terminates, nothing faulting,
    and every final memory holds each unscoped buffer at the last fold: the launch contents, then each host stretch applied,
    each region's output array at what its write-backs leave. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V7 m (outsH m) c b) := by
  refine Pipeline.θ_run_regions_kit_dev (pcfgs (F := F)) adm (pdats m) () cellOf_inj emb₁ defs₀ 𝒱₀ L lv m ρ main
    (segs m (outsH m) 𝒱₀ L lv (fun _ c => R c) () (pdats m) (reg0 m hR) (reg1 m hR))
    (fun c Q => by
      rewrite [main_chain c, Seg.run_eq_chain,
        show (segs m (outsH m) 𝒱₀ L lv (fun _ c => R c) () (pdats m) (reg0 m hR) (reg1 m hR) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V7 m (outsH m) c))
    (hch := fun c => ⟨.rfl, .rfl, .rfl, .rfl, .rfl, .rfl, .rfl, sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V7 m (outsH m) c b)
    (hfin := fun c s' => by
      iintro ⟨Hh, HSI⟩
      unfold StableHlo.held
      imodintro
      iapply (pointsTo_read_all (Pipeline.ucRefs τ sig) (fun b => (((c : Thread nD τ)).1, b)) (V7 m (outsH m) c) s')
      isplitl [Hh] <;> iassumption)
    (hQ := fun _ h => h)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

include hR in
/-- The frame: the arguments end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (V7_main_arg0 m (outsH m) c),
     (h c _ (mem_uc main_arg1 (by decide))).trans (V7_main_arg1 m (outsH m) c)⟩) (run_all m ρ hR)

include hR in
/-- The run with the result named: the result buffer at the last fold's value, the arguments as launched. -/
theorem run_value : θ_run defs (onTc (τ := τ) (main (F := F))) ⟨m, fun _ => 0, ρ⟩ (fun r => ∀ c : Dev nD,
      r.2.mem ((c.tc : Thread nD τ).loc main_v17) = V7 m (outsH m) c main_v17
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v17 (by decide)),
     (h c _ (mem_uc main_arg0 (by decide))).trans (V7_main_arg0 m (outsH m) c),
     (h c _ (mem_uc main_arg1 (by decide))).trans (V7_main_arg1 m (outsH m) c)⟩) (run_all m ρ hR)

end Cert.Kernel.Hand

end
-- ==== Proof.BR0Body.lean ====
/- Region 0 (the class-sum kernel), its frame half: the body of the pipeline's loop keeps the invariant of R0Defs.lean at every
   grid point, and the invariant meets what the launch hands the region at both ends. The body has three control cases by
   the last grid coordinate k = t % 8: k = 0 resets the scratch accumulator to zero before updating it, 0 < k < 7 only
   updates it, k = 7 updates it and copies it to the output window's buffer — the only points whose output block the
   pipeline writes back; at the others the output window is idle and its buffer is returned as it was found. Generic in the
   float family: nothing here is about values. -/
import proofs.«418073_j77309412134_1_alg».proof.Proof.BR0Defs
import Idealize.ShloMosaic.Lib.Tactic
import Idealize.ShloMosaic.Lib.Ring
import Idealize.ShloMosaic.Lib.Pipeline.FrameBody
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The two conditionals of the body, in closed form over the grid

The grid is 4 x 4 x 8 with the last axis fastest, so the last coordinate of point `t` is `t % 8`: the body resets its
accumulator where that is 0 and copies it out where that is 7. -/

/-- The first conditional's test, as the body computes it from the last grid coordinate: "is it 0?". -/
abbrev isFirst0 (i : grid0.Coords) : Prop :=
  (Scalar.cmpi .ne (Scalar.extui (Scalar.cmpi .eq (BitVec.ofNat 32 (i 2).val) 0#32)) 0#32) = 1#1

/-- The second conditional's test: "is the last grid coordinate 7?". -/
abbrev isLast0 (i : grid0.Coords) : Prop := k0_cond2 i = 1#1

theorem isFirst0_iff : ∀ t : Fin cfg0.N, isFirst0 (grid0.coords t) ↔ t.val % 8 = 0 :=
  (by decide +kernel : ∀ t : Fin grid0.N, isFirst0 (grid0.coords t) ↔ t.val % 8 = 0)

theorem isLast0_iff : ∀ t : Fin cfg0.N, isLast0 (grid0.coords t) ↔ t.val % 8 = 7 :=
  (by decide +kernel : ∀ t : Fin grid0.N, isLast0 (grid0.coords t) ↔ t.val % 8 = 7)

/-! ## Where the windows are idle

The two inputs never are. The output window is idle exactly where the body does not copy the accumulator out, and those
are exactly the points whose block is not written back. -/

theorem live0_0 (t : Fin cfg0.N) : cfg0.idle 0 (grid0.coords t) = false := rfl
theorem live0_1 (t : Fin cfg0.N) : cfg0.idle 1 (grid0.coords t) = false := rfl
theorem idle0_2 : ∀ t : Fin cfg0.N, ¬t.val % 8 = 7 → cfg0.idle 2 (grid0.coords t) = true :=
  (by decide +kernel : ∀ t : Fin grid0.N, ¬t.val % 8 = 7 → idle0 2 (grid0.coords t) = true)
theorem live0_2 : ∀ t : Fin cfg0.N, t.val % 8 = 7 → cfg0.idle 2 (grid0.coords t) = false :=
  (by decide +kernel : ∀ t : Fin grid0.N, t.val % 8 = 7 → idle0 2 (grid0.coords t) = false)
theorem noFlush0_2 (t : Fin cfg0.N) (h : ¬t.val % 8 = 7) : (cfg0.win 2).flush t = false := by
  cases hf : (cfg0.win 2).flush t with
  | false => rfl
  | true => exact absurd ((flush0_2 t).mp hf) h

/-! ## Whole-buffer loads and stores

Every access of the body is through the rectangle at offset zero of the buffer's own sizes: a load through it reads the
contents, a store through it leaves its payload whatever was there, and a load after such a store reads the payload. All
stated over an abstract view and shape. -/

section Whole

variable {S : Shape} {e : EltTy} {κ : Kind} {sp : Space}

theorem zeros2 : (![0, 0] : Fin 2 → ℕ) = fun _ => 0 := by funext a; fin_cases a <;> rfl

theorem readAt_zero (v : View sig κ sp S e) {off : Fin S.rank → ℕ} (h : off = fun _ => 0)
    (inb : ∀ a, off a + S.size a ≤ S.size a) (f : v.ty.Contents (Elt F)) :
    v.readAt (Elt F) (Rect.unit off S.size inb).toLoadRect f = v.read (Elt F) f :=
  (View.readAt_eq_ld v f _).trans (View.ld_unit_zero h inb _)

theorem covers_zero {off : Fin S.rank → ℕ} (h : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons_self, View.mem_set_unit_zero h inb y⟩

theorem read_writes_zero (v : View sig κ sp S e) {off : Fin S.rank → ℕ} (h : off = fun _ => 0)
    (inb : ∀ a, off a + S.size a ≤ S.size a) (f : v.ty.Contents (Elt F)) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (covers_zero h inb w L)).trans (View.canon_cons_unit_zero h inb w L)

theorem readCov_zero (v : View sig κ sp S e) {off : Fin S.rank → ℕ} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w :=
  View.readCov_cons_toLoadRect v (Rect.unit off S.size inb) w L

end Whole

/-! ## The body on whole memrefs, one triple per control case

The inputs' buffers are owned at contents `x` (features) and `l` (labels) and come back unchanged; the scratch goes from
what it held (anything, where the body first resets it) to the update of that; where the body copies out, the output's
buffer goes from anything to the same update. Where it does not, the body never touches the output's buffer, which is
therefore no part of the triple. -/

set_option maxHeartbeats 1000000 in
/-- Last coordinate 0: reset, then update. -/
theorem kernel0_first (c : Dev nD) (E : Set ℕ) (i : grid0.Coords)
    (arg3 : Memref sig .tc .vmem S1024x1024 .f32) (harg3 : arg3.IsWhole)
    (arg4 : Memref sig .tc .vmem S1x1024 .i32) (harg4 : arg4.IsWhole)
    (arg5 : Memref sig .tc .vmem S1024x1024 .f32) (harg5 : arg5.IsWhole)
    (arg6 : Memref sig .tc .vmem S1024x1024 .f32) (harg6 : arg6.IsWhole)
    (hc1 : isFirst0 i) (hc2 : ¬isLast0 i)
    (x : Vec F S1024x1024 .f32) (l : Vec F S1x1024 .i32)
    (K : PUnit → sProp 𝕄) :
    iprop(owns (c : Thread nD τ) arg3 fullShare x ∗ owns (c : Thread nD τ) arg4 fullShare l
        ∗ (∃ a, owns (c : Thread nD τ) arg6 fullShare a)
        ∗ (iprop(owns (c : Thread nD τ) arg3 fullShare x ∗ owns (c : Thread nD τ) arg4 fullShare l
            ∗ owns (c : Thread nD τ) arg6 fullShare (k0_pay2 i l x (k0_pay1 (F := F)))) -∗ K ⟨⟩))
      ⊢ wp frame (wpE (defs₀ (F := F)) Variants.none c none) E
          (cc0__sums_kernel i arg3 harg3 arg4 harg4 arg5 harg5 arg6 harg6) K := by
  simp only [cc0__sums_kernel_eq_skeleton]; unfold cc0__sums_kernel_skel
  unfold owns
  iintro ⟨⟨%f3, %hf3, H3⟩, ⟨%f4, %hf4, H4⟩, ⟨%a, %f6, -, H6⟩, Hk⟩
  subst hf3; subst hf4
  sl_exec (disch := first | exact hc1 | exact hc2)
  sl_step
  sl_unfold_run_names
  iapply Hk
  isplitl [H3]
  · iexists f3; isplitr; · ipureintro; rfl
    iexact H3
  isplitl [H4]
  · iexists f4; isplitr; · ipureintro; rfl
    iexact H4
  iexists _; isplitr
  swap; · iexact H6
  ipureintro
  rw [read_writes_zero _ zeros2, readCov_zero _ zeros2, readAt_zero _ zeros2, readAt_zero _ zeros2]

set_option maxHeartbeats 1000000 in
/-- Last coordinate strictly between 0 and 7: update only. -/
theorem kernel0_mid (c : Dev nD) (E : Set ℕ) (i : grid0.Coords)
    (arg3 : Memref sig .tc .vmem S1024x1024 .f32) (harg3 : arg3.IsWhole)
    (arg4 : Memref sig .tc .vmem S1x1024 .i32) (harg4 : arg4.IsWhole)
    (arg5 : Memref sig .tc .vmem S1024x1024 .f32) (harg5 : arg5.IsWhole)
    (arg6 : Memref sig .tc .vmem S1024x1024 .f32) (harg6 : arg6.IsWhole)
    (hc1 : ¬isFirst0 i) (hc2 : ¬isLast0 i)
    (x : Vec F S1024x1024 .f32) (l : Vec F S1x1024 .i32) (a : Vec F S1024x1024 .f32)
    (K : PUnit → sProp 𝕄) :
    iprop(owns (c : Thread nD τ) arg3 fullShare x ∗ owns (c : Thread nD τ) arg4 fullShare l
        ∗ owns (c : Thread nD τ) arg6 fullShare a
        ∗ (iprop(owns (c : Thread nD τ) arg3 fullShare x ∗ owns (c : Thread nD τ) arg4 fullShare l
            ∗ owns (c : Thread nD τ) arg6 fullShare (k0_pay2 i l x a)) -∗ K ⟨⟩))
      ⊢ wp frame (wpE (defs₀ (F := F)) Variants.none c none) E
          (cc0__sums_kernel i arg3 harg3 arg4 harg4 arg5 harg5 arg6 harg6) K := by
  simp only [cc0__sums_kernel_eq_skeleton]; unfold cc0__sums_kernel_skel
  unfold owns
  iintro ⟨⟨%f3, %hf3, H3⟩, ⟨%f4, %hf4, H4⟩, ⟨%f6, %hf6, H6⟩, Hk⟩
  subst hf3; subst hf4; subst hf6
  sl_exec (disch := first | exact hc1 | exact hc2)
  sl_step
  sl_unfold_run_names
  iapply Hk
  isplitl [H3]
  · iexists f3; isplitr; · ipureintro; rfl
    iexact H3
  isplitl [H4]
  · iexists f4; isplitr; · ipureintro; rfl
    iexact H4
  iexists _; isplitr
  swap; · iexact H6
  ipureintro
  rw [read_writes_zero _ zeros2, readAt_zero _ zeros2, readAt_zero _ zeros2, readAt_zero _ zeros2]

set_option maxHeartbeats 1000000 in
/-- Last coordinate 7: update, then copy the accumulator to the output's buffer. -/
theorem kernel0_last (c : Dev nD) (E : Set ℕ) (i : grid0.Coords)
    (arg3 : Memref sig .tc .vmem S1024x1024 .f32) (harg3 : arg3.IsWhole)
    (arg4 : Memref sig .tc .vmem S1x1024 .i32) (harg4 : arg4.IsWhole)
    (arg5 : Memref sig .tc .vmem S1024x1024 .f32) (harg5 : arg5.IsWhole)
    (arg6 : Memref sig .tc .vmem S1024x1024 .f32) (harg6 : arg6.IsWhole)
    (hc1 : ¬isFirst0 i) (hc2 : isLast0 i)
    (x : Vec F S1024x1024 .f32) (l : Vec F S1x1024 .i32) (a : Vec F S1024x1024 .f32)
    (K : PUnit → sProp 𝕄) :
    iprop(owns (c : Thread nD τ) arg3 fullShare x ∗ owns (c : Thread nD τ) arg4 fullShare l
        ∗ (∃ o, owns (c : Thread nD τ) arg5 fullShare o) ∗ owns (c : Thread nD τ) arg6 fullShare a
        ∗ (iprop(owns (c : Thread nD τ) arg3 fullShare x ∗ owns (c : Thread nD τ) arg4 fullShare l
            ∗ owns (c : Thread nD τ) arg5 fullShare (k0_pay2 i l x a)
            ∗ owns (c : Thread nD τ) arg6 fullShare (k0_pay2 i l x a)) -∗ K ⟨⟩))
      ⊢ wp frame (wpE (defs₀ (F := F)) Variants.none c none) E
          (cc0__sums_kernel i arg3 harg3 arg4 harg4 arg5 harg5 arg6 harg6) K := by
  simp only [cc0__sums_kernel_eq_skeleton]; unfold cc0__sums_kernel_skel
  unfold owns
  iintro ⟨⟨%f3, %hf3, H3⟩, ⟨%f4, %hf4, H4⟩, ⟨%o, %f5, -, H5⟩, ⟨%f6, %hf6, H6⟩, Hk⟩
  subst hf3; subst hf4; subst hf6
  sl_exec (disch := first | exact hc1 | exact hc2)
  sl_step
  sl_unfold_run_names
  iapply Hk
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [read_writes_zero _ zeros2, readCov_zero _ zeros2, readAt_zero _ zeros2, readAt_zero _ zeros2,
      readAt_zero _ zeros2]
  iexists _; isplitr
  swap; · iexact H6
  ipureintro
  rw [read_writes_zero _ zeros2, readAt_zero _ zeros2, readAt_zero _ zeros2, readAt_zero _ zeros2]

/-! ## The accumulator, point by point -/

/-- At the first point of a run of 8 the accumulator is the update of zero. -/
theorem accAt0_first (c : Dev nD) (t : Fin cfg0.N) (h0 : t.val % 8 = 0) :
    accAt0 V c t.val t.isLt = k0_pay2 (grid0.coords t) (lblk0 V c t) (xblk0 V c t) (k0_pay1 (F := F)) := by
  obtain ⟨n, hn⟩ := t
  cases n with
  | zero => rfl
  | succ n =>
    have h0' : (n + 1) % 8 = 0 := h0
    show k0_pay2 _ _ _ (if (n + 1) % 8 = 0 then k0_pay1 (F := F) else accAt0 V c n _) = _
    rw [if_pos h0']

/-- At any other point it is the update of what the point before left. -/
theorem accAt0_next (c : Dev nD) (t : Fin cfg0.N) (h0 : ¬t.val % 8 = 0) :
    accAt0 V c t.val t.isLt = k0_pay2 (grid0.coords t) (lblk0 V c t) (xblk0 V c t)
      (accAt0 V c (t.val - 1) (Nat.lt_of_le_of_lt (Nat.sub_le _ _) t.isLt)) := by
  obtain ⟨n, hn⟩ := t
  cases n with
  | zero => exact absurd (Nat.zero_mod 8) h0
  | succ n =>
    have h0' : ¬(n + 1) % 8 = 0 := h0
    show k0_pay2 _ _ _ (if (n + 1) % 8 = 0 then k0_pay1 (F := F) else accAt0 V c n _) = _
    rw [if_neg h0']
    rfl

/-! ## The invariant, position by position -/

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn
      = iprop(owns (c : Thread nD τ) scM0 fullShare (accAt0 V c n hn) ∗ restS0 (F := F) c ∗ (∃ r, prngReg c r)) := rfl

theorem PhiS0_pos (c : Dev nD) (n : ℕ) (h : n ≤ cfg0.N) (hz : n ≠ 0) :
    PhiS0 V c n h
      = iprop(owns (c : Thread nD τ) scM0 fullShare (accAt0 V c (n - 1) (by omega)) ∗ restS0 (F := F) c ∗ (∃ r, prngReg c r)) := by
  cases n with
  | zero => exact absurd rfl hz
  | succ n => rfl

/-- What the launch hands over, with the scratch set apart as a memref owned at some contents. -/
theorem PhiA0_eq (c : Dev nD) :
    (Pipeline.ΦA spec0 c : sProp 𝕄)
      = iprop(((∃ d, owns (c : Thread nD τ) scM0 fullShare d) ∗ restS0 (F := F) c) ∗ (∃ r, prngReg c r)) := by
  unfold Pipeline.ΦA restS0; rw [scopedRest0_eq]; simp only [scM0, owns_whole]; rfl

theorem Phi0_castSucc (c : Dev nD) (t : Fin cfg0.N) :
    (dat0 V c).Φ t.castSucc = PhiS0 V c t.val (Nat.le_of_lt t.isLt) := by
  dsimp only [dat0]; simp only [Fin.coe_castSucc]

theorem Phi0_succ (c : Dev nD) (t : Fin cfg0.N) :
    (dat0 V c).Φ t.succ = PhiS0 V c (t.val + 1) t.isLt := by
  dsimp only [dat0]; simp only [Fin.val_succ]

/-! ## What the body finds in the input windows' buffers: their blocks -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- An input window's buffer is handed back at its block. -/
theorem leaves0_0 (c : Dev nD) (t : Fin cfg0.N) :
    (dat0 V c).leavesExact 0 t = owns (c : Thread nD τ) (st0_0 t) fullShare (iblk0 V c 0 t) := by
  unfold Dat.leavesExact; rw [live0_0 t, after0_0]

theorem leaves0_1 (c : Dev nD) (t : Fin cfg0.N) :
    (dat0 V c).leavesExact 1 t = owns (c : Thread nD τ) (st0_1 t) fullShare (iblk0 V c 1 t) := by
  unfold Dat.leavesExact; rw [live0_1 t, after0_1]

/-- Where the output block is written back its buffer is handed back at the accumulator; -/
theorem leaves0_2_last (c : Dev nD) (t : Fin cfg0.N) (h7 : t.val % 8 = 7) :
    (dat0 V c).leavesExact 2 t = owns (c : Thread nD τ) (st0_2 t) fullShare (accAt0 V c t.val t.isLt) := by
  unfold Dat.leavesExact; rw [live0_2 t h7, after0_2]

/-- elsewhere as the body found it. -/
theorem leaves0_2_idle (c : Dev nD) (t : Fin cfg0.N) (h7 : ¬t.val % 8 = 7) :
    (dat0 V c).leavesExact 2 t = iprop(∃ d, owns (c : Thread nD τ) (st0_2 t) fullShare ((dat0 V c).before 2 t d)) :=
  Dat.leavesExact_idle (dat0 V c) 2 t (idle0_2 t h7) (noFlush0_2 t h7)

/-! ## The body obligation, at a generic point -/

/-- What the body is called with at point `t`: the invariant, nothing owed, each window's current buffer at what the
    pipeline left there; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point. The inputs' buffers hold their blocks; the last coordinate `t % 8` says which of the three
    triples applies; the invariant lends the scratch — at anything before the very first point, else at what the point
    before left — and takes it back at this point's accumulator; the output's buffer is either untouched (and handed
    back as found) or receives the accumulator (at the points whose block is written back). -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [Phi0_succ, PhiS0_succ, Phi0_castSucc, leaves0_0, leaves0_1]
  have hN : t.val < 128 := lt_of_lt_of_eq t.isLt (show cfg0.N = 128 from N_0)
  by_cases h0 : t.val % 8 = 0
  · -- first point of a run of 8
    have h7 : ¬t.val % 8 = 7 := by omega
    rw [leaves0_2_idle V c t h7, accAt0_first V c t h0]
    by_cases hz : t.val = 0
    · -- the very first point: the scratch comes from the launch, at anything
      rw [PhiS0_zero V c _ _ hz, PhiA0_eq]
      iintro ⟨⟨⟨HS, HR⟩, Hg⟩, Ho, ⟨%d0, H0⟩, ⟨%d1, H1⟩, ⟨%d2, H2⟩⟩
      iapply (kernel0_first c Set.univ (grid0.coords t) _ _ _ _ _ _ _ _ ((isFirst0_iff t).mpr h0)
        (fun h => h7 ((isLast0_iff t).mp h)) (xblk0 V c t) (lblk0 V c t) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexists d2; iexact H2
    · -- a later run's first point: the scratch holds the previous run's sum, which the reset discards
      rw [PhiS0_pos V c _ _ hz]
      iintro ⟨⟨HS, HR, Hg⟩, Ho, ⟨%d0, H0⟩, ⟨%d1, H1⟩, ⟨%d2, H2⟩⟩
      iapply (kernel0_first c Set.univ (grid0.coords t) _ _ _ _ _ _ _ _ ((isFirst0_iff t).mpr h0)
        (fun h => h7 ((isLast0_iff t).mp h)) (xblk0 V c t) (lblk0 V c t) _)
      isplitl [H0]; · iexact H0
      isplitl [H1]; · iexact H1
      isplitl [HS]; · iexists _; iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexists d2; iexact H2
  · have hz : t.val ≠ 0 := fun e => h0 (by rw [e])
    rw [PhiS0_pos V c _ _ hz, accAt0_next V c t h0]
    by_cases h7 : t.val % 8 = 7
    · -- last point of a run of 8: the accumulator is copied out
      rw [leaves0_2_last V c t h7, accAt0_next V c t h0]
      iintro ⟨⟨HS, HR, Hg⟩, Ho, ⟨%d0, H0⟩, ⟨%d1, H1⟩, ⟨%d2, H2⟩⟩
      iapply (kernel0_last c Set.univ (grid0.coords t) _ _ _ _ _ _ _ _ (fun h => h0 ((isFirst0_iff t).mp h))
        ((isLast0_iff t).mpr h7) (xblk0 V c t) (lblk0 V c t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · -- a middle point
      rw [leaves0_2_idle V c t h7]
      iintro ⟨⟨HS, HR, Hg⟩, Ho, ⟨%d0, H0⟩, ⟨%d1, H1⟩, ⟨%d2, H2⟩⟩
      iapply (kernel0_mid c Set.univ (grid0.coords t) _ _ _ _ _ _ _ _ (fun h => h0 ((isFirst0_iff t).mp h))
        (fun h => h7 ((isLast0_iff t).mp h)) (xblk0 V c t) (lblk0 V c t) _ _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexists d2; iexact H2

/-- The pipeline's obligation on its body, at every point. -/
theorem body_obligation0 (c : Dev nD) :
    BodyObligation (dat0 (F := F) V c) (defs₀ (F := F)) Variants.none () Set.univ := fun t => by
  rw [bigSep_W0, bigSep_W0]
  exact sound_body0 V c t

/-! ## Into the region and out of it -/

/-- What the launch hands the region is the invariant before the first point. -/
theorem hin0 (c : Dev nD) : Pipeline.ΦA spec0 c ⊢ (dat0 V c).Φ 0 :=
  Entails.of_eq (show Pipeline.ΦA spec0 c = (dat0 V c).Φ 0 from rfl)

/-- After the last point the invariant gives that back: the scratch's sum is forgotten. -/
theorem hout0 (c : Dev nD) : (dat0 V c).Φ (Fin.last cfg0.N) ⊢ Pipeline.ΦA spec0 c := by
  have hN : cfg0.N = 128 := N_0
  have hz : (Fin.last cfg0.N).val ≠ 0 := by rw [Fin.val_last]; omega
  rw [show (dat0 V c).Φ (Fin.last cfg0.N)
      = PhiS0 V c (Fin.last cfg0.N).val (Nat.le_of_lt_succ (Fin.last cfg0.N).isLt) from rfl,
    PhiS0_pos V c _ _ hz, PhiA0_eq]
  iintro ⟨HS, HR, Hg⟩
  isplitl [HS HR]
  · isplitl [HS]; · iexists _; iexact HS
    iexact HR
  iexact Hg

end Cert.Kernel.Hand

end
-- ==== Proof.BR1Body.lean ====
/- Region 1 (the centre / cross-entropy kernel), the body obligation of its pipeline at the proof data of R1Defs.

   The grid is 32 x 8 with the last axis fastest, so point t has reduction coordinate k = t % 8. At k = 0 the body zeroes
   the scratch; at every point it adds onehot(label block, block k of class ids) · (block k of the class means) to it; at
   k = 7 it stores the row-wise cross-entropy of the accumulated rows in the output block. Hence three control cases
   (k = 0, 0 < k < 7, k = 7), each a triple for the kernel function on whole memrefs; the invariant carries the scratch
   at the accumulator of the point before; the output window is idle, and handed back as found, off k = 7.
   Generic in the float family: nothing is said about values. -/
import proofs.«418073_j77309412134_1_alg».proof.Proof.BR1Defs
import Idealize.ShloMosaic.Lib.Tactic
import Idealize.ShloMosaic.Lib.Ring
import Idealize.ShloMosaic.Lib.Pipeline.FrameBody
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## Whole-buffer accesses

Every load and store of the body goes through the rectangle at zero offsets of the buffer's own sizes: a load
through it reads the contents, and a store through it leaves its payload. -/

/-- The zero offsets of a rank-2 rectangle, as a constant function. -/
theorem off00 : (![0, 0] : Fin 2 → ℕ) = fun _ => 0 := by
  funext a; fin_cases a <;> rfl

/-! ## The two conditionals, over the grid

The grid is 32 x 8 with the last axis fastest, so point t has reduction coordinate t % 8. -/

/-- The first conditional's test: the reduction coordinate is zero (the accumulator is reset). -/
abbrev isFirst1 (i : grid1.Coords) : Prop :=
  (Scalar.cmpi .ne (Scalar.extui (Scalar.cmpi .eq (BitVec.ofNat 32 (i 1).val) 0#32)) 0#32) = 1#1
/-- The second conditional's test: the reduction coordinate is the last one (the output block is written). -/
abbrev isLast1 (i : grid1.Coords) : Prop := k1_cond2 i = 1#1

theorem isFirst1_iff : ∀ t : Fin cfg1.N, isFirst1 (grid1.coords t) ↔ t.val % 8 = 0 :=
  (by decide +kernel : ∀ t : Fin grid1.N, isFirst1 (grid1.coords t) ↔ t.val % 8 = 0)
theorem isLast1_iff : ∀ t : Fin cfg1.N, isLast1 (grid1.coords t) ↔ t.val % 8 = 7 :=
  (by decide +kernel : ∀ t : Fin grid1.N, isLast1 (grid1.coords t) ↔ t.val % 8 = 7)

/-- The output window is idle exactly off the last reduction step, and is not written back there. -/
theorem idle1_2_of : ∀ t : Fin cfg1.N, ¬ t.val % 8 = 7 → cfg1.idle 2 (grid1.coords t) = true :=
  (by decide +kernel : ∀ t : Fin grid1.N, ¬ t.val % 8 = 7 → idle1 2 (grid1.coords t) = true)
theorem live1_2_of : ∀ t : Fin cfg1.N, t.val % 8 = 7 → cfg1.idle 2 (grid1.coords t) = false :=
  (by decide +kernel : ∀ t : Fin grid1.N, t.val % 8 = 7 → idle1 2 (grid1.coords t) = false)
theorem noflush1_2_of (t : Fin cfg1.N) (h : ¬ t.val % 8 = 7) : (cfg1.win 2).flush t = false :=
  Bool.eq_false_iff.mpr fun hf => h ((flush1_2 t).mp hf)

/-! ## The body on whole memrefs, case by case

In each case the class-mean block xs and the label block xl are read and handed back unchanged. With acc the
accumulator the body starts from (zeros at the first reduction step, else what the scratch holds), the scratch ends at
k1_pay3 i xl acc xs; at the last reduction step the output buffer ends at k1_pay4 xl of that. The output buffer is not
touched in the other two cases and so does not appear in their statements. -/

set_option maxHeartbeats 1000000 in
/-- First reduction step: the scratch, held at anything, is zeroed and then accumulated into. -/
theorem kernel1_first (c : Dev nD) (E : Set ℕ) (i : grid1.Coords)
    (arg2 : Memref sig .tc .vmem S512x4096 .bf16) (harg2 : arg2.IsWhole)
    (arg3 : Memref sig .tc .vmem S256x1 .i32) (harg3 : arg3.IsWhole)
    (arg4 : Memref sig .tc .vmem S256x1 .f32) (harg4 : arg4.IsWhole)
    (arg5 : Memref sig .tc .vmem S256x4096 .f32) (harg5 : arg5.IsWhole)
    (h0 : isFirst1 i) (h7 : ¬ isLast1 i)
    (xs : Vec F S512x4096 .bf16) (xl : Vec F S256x1 .i32) (K : PUnit → sProp 𝕄) :
    iprop(owns (c : Thread nD τ) arg2 fullShare xs ∗ owns (c : Thread nD τ) arg3 fullShare xl
        ∗ (∃ a, owns (c : Thread nD τ) arg5 fullShare a)
        ∗ (iprop(owns (c : Thread nD τ) arg2 fullShare xs ∗ owns (c : Thread nD τ) arg3 fullShare xl
            ∗ owns (c : Thread nD τ) arg5 fullShare (k1_pay3 i xl (k1_pay1 (F := F)) xs)) -∗ K ⟨⟩))
      ⊢ wp frame (wpE (defs₀ (F := F)) Variants.none c none) E
          (cc1__center_ce_kernel i arg2 harg2 arg3 harg3 arg4 harg4 arg5 harg5) K := by
  simp only [cc1__center_ce_kernel_eq_skeleton]; unfold cc1__center_ce_kernel_skel
  unfold owns
  iintro ⟨⟨%f2, %hf2, H2⟩, ⟨%f3, %hf3, H3⟩, ⟨%a, %f5, -, H5⟩, Hk⟩
  subst hf2; subst hf3
  sl_exec (disch := first | exact h0 | exact h7)
  sl_step
  iapply Hk
  sl_unfold_run_names
  isplitl [H2]
  · iexists f2; isplitr; · ipureintro; rfl
    iexact H2
  isplitl [H3]
  · iexists f3; isplitr; · ipureintro; rfl
    iexact H3
  iexists _; isplitr
  swap; · iexact H5
  ipureintro
  rw [View.read_writes_eq_canon _ _ _ (fun y => ⟨_, List.Mem.head _,
      View.mem_set_unit_zero off00 inb_S256x4096_S256x4096_0_0 y⟩),
    View.canon_cons_unit_zero off00, View.readCov_unit_zero _ off00,
    View.readAt_eq_ld, View.readAt_eq_ld, View.ld_unit_zero off00, View.ld_unit_zero off00]

set_option maxHeartbeats 1000000 in
/-- A middle reduction step: the scratch, held at a, is accumulated into. -/
theorem kernel1_mid (c : Dev nD) (E : Set ℕ) (i : grid1.Coords)
    (arg2 : Memref sig .tc .vmem S512x4096 .bf16) (harg2 : arg2.IsWhole)
    (arg3 : Memref sig .tc .vmem S256x1 .i32) (harg3 : arg3.IsWhole)
    (arg4 : Memref sig .tc .vmem S256x1 .f32) (harg4 : arg4.IsWhole)
    (arg5 : Memref sig .tc .vmem S256x4096 .f32) (harg5 : arg5.IsWhole)
    (h0 : ¬ isFirst1 i) (h7 : ¬ isLast1 i)
    (xs : Vec F S512x4096 .bf16) (xl : Vec F S256x1 .i32) (a : Vec F S256x4096 .f32) (K : PUnit → sProp 𝕄) :
    iprop(owns (c : Thread nD τ) arg2 fullShare xs ∗ owns (c : Thread nD τ) arg3 fullShare xl
        ∗ owns (c : Thread nD τ) arg5 fullShare a
        ∗ (iprop(owns (c : Thread nD τ) arg2 fullShare xs ∗ owns (c : Thread nD τ) arg3 fullShare xl
            ∗ owns (c : Thread nD τ) arg5 fullShare (k1_pay3 i xl a xs)) -∗ K ⟨⟩))
      ⊢ wp frame (wpE (defs₀ (F := F)) Variants.none c none) E
          (cc1__center_ce_kernel i arg2 harg2 arg3 harg3 arg4 harg4 arg5 harg5) K := by
  simp only [cc1__center_ce_kernel_eq_skeleton]; unfold cc1__center_ce_kernel_skel
  unfold owns
  iintro ⟨⟨%f2, %hf2, H2⟩, ⟨%f3, %hf3, H3⟩, ⟨%f5, %hf5, H5⟩, Hk⟩
  subst hf2; subst hf3; subst hf5
  sl_exec (disch := first | exact h0 | exact h7)
  sl_step
  iapply Hk
  sl_unfold_run_names
  isplitl [H2]
  · iexists f2; isplitr; · ipureintro; rfl
    iexact H2
  isplitl [H3]
  · iexists f3; isplitr; · ipureintro; rfl
    iexact H3
  iexists _; isplitr
  swap; · iexact H5
  ipureintro
  rw [View.read_writes_eq_canon _ _ _ (fun y => ⟨_, List.Mem.head _,
      View.mem_set_unit_zero off00 inb_S256x4096_S256x4096_0_0 y⟩),
    View.canon_cons_unit_zero off00,
    View.readAt_eq_ld, View.readAt_eq_ld, View.readAt_eq_ld,
    View.ld_unit_zero off00, View.ld_unit_zero off00, View.ld_unit_zero off00]

set_option maxHeartbeats 1000000 in
/-- The last reduction step: the scratch, held at a, is accumulated into, and the output buffer, held at anything,
    receives the cross-entropy column of the accumulated rows. -/
theorem kernel1_last (c : Dev nD) (E : Set ℕ) (i : grid1.Coords)
    (arg2 : Memref sig .tc .vmem S512x4096 .bf16) (harg2 : arg2.IsWhole)
    (arg3 : Memref sig .tc .vmem S256x1 .i32) (harg3 : arg3.IsWhole)
    (arg4 : Memref sig .tc .vmem S256x1 .f32) (harg4 : arg4.IsWhole)
    (arg5 : Memref sig .tc .vmem S256x4096 .f32) (harg5 : arg5.IsWhole)
    (h0 : ¬ isFirst1 i) (h7 : isLast1 i)
    (xs : Vec F S512x4096 .bf16) (xl : Vec F S256x1 .i32) (a : Vec F S256x4096 .f32) (K : PUnit → sProp 𝕄) :
    iprop(owns (c : Thread nD τ) arg2 fullShare xs ∗ owns (c : Thread nD τ) arg3 fullShare xl
        ∗ (∃ d, owns (c : Thread nD τ) arg4 fullShare d) ∗ owns (c : Thread nD τ) arg5 fullShare a
        ∗ (iprop(owns (c : Thread nD τ) arg2 fullShare xs ∗ owns (c : Thread nD τ) arg3 fullShare xl
            ∗ owns (c : Thread nD τ) arg4 fullShare (k1_pay4 xl (k1_pay3 i xl a xs))
            ∗ owns (c : Thread nD τ) arg5 fullShare (k1_pay3 i xl a xs)) -∗ K ⟨⟩))
      ⊢ wp frame (wpE (defs₀ (F := F)) Variants.none c none) E
          (cc1__center_ce_kernel i arg2 harg2 arg3 harg3 arg4 harg4 arg5 harg5) K := by
  simp only [cc1__center_ce_kernel_eq_skeleton]; unfold cc1__center_ce_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := first | exact h0 | exact h7)
  sl_step
  iapply Hk
  sl_unfold_run_names
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.Mem.head _,
        View.mem_set_unit_zero off00 inb_S256x1_S256x1_0_0 y⟩),
      View.canon_cons_unit_zero off00, View.readCov_unit_zero _ off00,
      View.readAt_eq_ld, View.readAt_eq_ld, View.readAt_eq_ld,
      View.ld_unit_zero off00, View.ld_unit_zero off00, View.ld_unit_zero off00]
  iexists _; isplitr
  swap; · iexact H5
  ipureintro
  rw [View.read_writes_eq_canon _ _ _ (fun y => ⟨_, List.Mem.head _,
      View.mem_set_unit_zero off00 inb_S256x4096_S256x4096_0_0 y⟩),
    View.canon_cons_unit_zero off00,
    View.readAt_eq_ld, View.readAt_eq_ld, View.readAt_eq_ld,
    View.ld_unit_zero off00, View.ld_unit_zero off00, View.ld_unit_zero off00]

-- the TensorCore's buffer contents when the region is entered
variable (V : (c : Dev nD) → (b : Ref sig .tc) → Buf (Elt F) ((c : Thread nD τ).loc b))

/-! ## The accumulator, point by point -/

/-- At a first reduction step the accumulator restarts from zeros. -/
theorem accAt1_first (c : Dev nD) (t : Fin cfg1.N) (h : t.val % 8 = 0) :
    accAt1 V c t.val t.isLt = k1_pay3 (grid1.coords t) (lblk1 V c t) (k1_pay1 (F := F)) (sblk1 V c t) := by
  obtain ⟨n, hn⟩ := t
  cases n with
  | zero => rfl
  | succ n =>
    have h' : (n + 1) % 8 = 0 := h
    show k1_pay3 _ _ (if (n + 1) % 8 = 0 then _ else _) _ = _
    rw [if_pos h']

/-- At any other step it continues from what the point before left. -/
theorem accAt1_next (c : Dev nD) (t : Fin cfg1.N) (h : ¬ t.val % 8 = 0) :
    accAt1 V c t.val t.isLt = k1_pay3 (grid1.coords t) (lblk1 V c t)
      (accAt1 V c (t.val - 1) (Nat.lt_of_le_of_lt (Nat.sub_le _ _) t.isLt)) (sblk1 V c t) := by
  obtain ⟨n, hn⟩ := t
  cases n with
  | zero => exact absurd (Nat.zero_mod _) h
  | succ n =>
    have h' : ¬ (n + 1) % 8 = 0 := h
    show k1_pay3 _ _ (if (n + 1) % 8 = 0 then _ else _) _ = _
    rw [if_neg h']; rfl

/-! ## The invariant -/

theorem PhiS1_zero (c : Dev nD) (n : ℕ) (h : n ≤ cfg1.N) (hz : n = 0) : PhiS1 V c n h = Pipeline.ΦA spec1 c := by
  subst hz; rfl

/-- After point n: the scratch at that point's accumulator. -/
theorem PhiS1_succ (c : Dev nD) (n : ℕ) (hn : n < cfg1.N) :
    PhiS1 V c (n + 1) hn = iprop(owns (c : Thread nD τ) scM1 fullShare (accAt1 V c n hn) ∗ restS1 (F := F) c ∗ (∃ r, prngReg c r)) := rfl

/-- Before a point that is not the first: the scratch at what the point before left. -/
theorem PhiS1_pos (c : Dev nD) (n : ℕ) (h : n ≤ cfg1.N) (hz : n ≠ 0) :
    PhiS1 V c n h = iprop(owns (c : Thread nD τ) scM1 fullShare (accAt1 V c (n - 1) (by omega)) ∗ restS1 (F := F) c ∗ (∃ r, prngReg c r)) := by
  cases n with
  | zero => exact absurd rfl hz
  | succ n => rfl

/-- What the launch hands the region, with the scratch split off the core's other scoped buffers: the scoped rest lists
    the seven other buffers first and the scratch last. -/
theorem PhiA1_split (c : Dev nD) :
    (Pipeline.ΦA spec1 c : sProp 𝕄)
      ⊢ iprop((∃ a, owns (c : Thread nD τ) scM1 fullShare a) ∗ restS1 (F := F) c ∗ (∃ r, prngReg c r)) := by
  unfold Pipeline.ΦA restS1; rw [scopedRest1_eq]; simp only [scM1, owns_whole]
  iintro ⟨⟨H1, H2, H3, H4, H5, H6, H7, H8⟩, Hg⟩
  isplitl [H8]; · iexact H8
  isplitr [Hg]
  · isplitl [H1]; · iexact H1
    isplitl [H2]; · iexact H2
    isplitl [H3]; · iexact H3
    isplitl [H4]; · iexact H4
    isplitl [H5]; · iexact H5
    isplitl [H6]; · iexact H6
    iexact H7
  iexact Hg

/-- And put back. -/
theorem PhiA1_join (c : Dev nD) :
    iprop((∃ a, owns (c : Thread nD τ) scM1 fullShare a) ∗ restS1 (F := F) c ∗ (∃ r, prngReg c r))
      ⊢ (Pipeline.ΦA spec1 c : sProp 𝕄) := by
  unfold Pipeline.ΦA restS1; rw [scopedRest1_eq]; simp only [scM1, owns_whole]
  iintro ⟨H8, ⟨H1, H2, H3, H4, H5, H6, H7⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

/-- The invariant at a point's start, restated at t.val. -/
theorem Phi1_castSucc (c : Dev nD) (t : Fin cfg1.N) :
    (dat1 V c).Φ t.castSucc = PhiS1 V c t.val (Nat.le_of_lt t.isLt) := by
  dsimp only [dat1]; simp only [Fin.coe_castSucc]

/-! ## The input windows' buffers

Each input window is uncut and never idle, and the body leaves its block in place: so its current buffer holds its
block at every point, fetched there or not (the label block is fetched only where the row-block coordinate moves). -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The inputs' buffers hold their blocks; the reduction coordinate t % 8 selects the case. The
    invariant hands the body the scratch (at anything before the first point, else at the accumulator of the point
    before) and takes it back at this point's accumulator; off the last reduction step the output buffer goes back as
    found, at the last one it holds the cross-entropy column; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from rfl, after1_0]
  rw [show (dat1 V c).leavesExact 1 t = owns (c : Thread nD τ) (st1_1 t) fullShare ((dat1 V c).after 1 t) from rfl, after1_1]
  rw [Phi1_castSucc V c t]
  by_cases h0 : t.val % 8 = 0
  · -- first reduction step
    have h7 : ¬ t.val % 8 = 7 := by omega
    rw [Dat.leavesExact_idle (dat1 V c) 2 t (idle1_2_of t h7) (noflush1_2_of t h7)]
    rw [accAt1_first V c t h0]
    have hpre : PhiS1 V c t.val (Nat.le_of_lt t.isLt)
        ⊢ iprop((∃ a, owns (c : Thread nD τ) scM1 fullShare a) ∗ restS1 (F := F) c ∗ (∃ r, prngReg c r)) := by
      by_cases hz : t.val = 0
      · rw [PhiS1_zero V c _ _ hz]; exact PhiA1_split c
      · rw [PhiS1_pos V c _ _ hz]
        iintro ⟨HS, Hr, Hg⟩
        isplitl [HS]; · iexists _; iexact HS
        isplitl [Hr]; · iexact Hr
        iexact Hg
    iintro ⟨HΦ, Ho, ⟨%d0, H0⟩, ⟨%d1, H1⟩, ⟨%d2, H2⟩⟩
    ihave HΦ' := hpre $$ HΦ
    icases HΦ' with ⟨HS, Hr, Hg⟩
    iapply (kernel1_first c Set.univ (grid1.coords t) _ _ _ _ _ _ _ _
      ((isFirst1_iff t).mpr h0) (fun h => h7 ((isLast1_iff t).mp h)) (sblk1 V c t) (lblk1 V c t) _)
    isplitl [H0]; · iexact H0
    isplitl [H1]; · iexact H1
    isplitl [HS]; · iexact HS
    iintro ⟨H0, H1, HS⟩
    isplitl [HS Hr Hg]
    · isplitl [HS]; · iexact HS
      isplitl [Hr]; · iexact Hr
      iexact Hg
    isplitl [Ho]; · iexact Ho
    isplitl [H0]; · iexact H0
    isplitl [H1]; · iexact H1
    iexists _; iexact H2
  · have hz : t.val ≠ 0 := fun e => h0 (by rw [e])
    rw [PhiS1_pos V c _ _ hz, accAt1_next V c t h0]
    by_cases h7 : t.val % 8 = 7
    · -- the last reduction step
      rw [show (dat1 V c).leavesExact 2 t = owns (c : Thread nD τ) (st1_2 t) fullShare ((dat1 V c).after 2 t) from by
        unfold Dat.leavesExact; rw [live1_2_of t h7], after1_2]
      unfold ceAt1
      rw [accAt1_next V c t h0]
      iintro ⟨⟨HS, Hr, Hg⟩, Ho, ⟨%d0, H0⟩, ⟨%d1, H1⟩, ⟨%d2, H2⟩⟩
      iapply (kernel1_last c Set.univ (grid1.coords t) _ _ _ _ _ _ _ _
        (fun h => h0 ((isFirst1_iff t).mp h)) ((isLast1_iff t).mpr h7) (sblk1 V c t) (lblk1 V c t) _ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
    · -- a middle reduction step
      rw [Dat.leavesExact_idle (dat1 V c) 2 t (idle1_2_of t h7) (noflush1_2_of t h7)]
      iintro ⟨⟨HS, Hr, Hg⟩, Ho, ⟨%d0, H0⟩, ⟨%d1, H1⟩, ⟨%d2, H2⟩⟩
      iapply (kernel1_mid c Set.univ (grid1.coords t) _ _ _ _ _ _ _ _
        (fun h => h0 ((isFirst1_iff t).mp h)) (fun h => h7 ((isLast1_iff t).mp h)) (sblk1 V c t) (lblk1 V c t) _ _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives it back: the scratch's named contents are forgotten. -/
theorem hout1 (c : Dev nD) : (dat1 V c).Φ (Fin.last cfg1.N) ⊢ Pipeline.ΦA spec1 c := by
  have hz : (Fin.last cfg1.N).val ≠ 0 := by
    rw [Fin.val_last]; have : cfg1.N = 256 := N_1; omega
  rw [show (dat1 V c).Φ (Fin.last cfg1.N) = PhiS1 V c (Fin.last cfg1.N).val (Nat.le_of_lt_succ (Fin.last cfg1.N).isLt) from rfl,
    PhiS1_pos V c _ _ hz]
  iintro ⟨HS, Hr, Hg⟩
  iapply (PhiA1_join c)
  isplitl [HS]; · iexists _; iexact HS
  isplitl [Hr]; · iexact Hr
  iexact Hg

end Cert.Kernel.Hand

end
-- ==== Proof.R0Defs.lean ====
/- Region 0 (the class-sum kernel), its data: each window's block at a grid point, the accumulator the kernel keeps in
   its scratch from one grid point to the next, the invariant that carries it, and the pipeline's proof data.
   The grid is 4 x 4 x 8 with the last axis fastest: point t has k = t % 8. At k = 0 the scratch is reset to zero before the
   update; at every point it becomes  acc + onehot(block of class ids, label block) · feat block ; at k = 7 it is copied
   to the output block. -/
import proofs.«418073_j77309412134_1_alg».proof.Proof.Gen.KernelIdeal.Launch
import proofs.«418073_j77309412134_1_alg».proof.Proof.Gen.KernelIdeal.Skeleton
import proofs.«418073_j77309412134_1_alg».proof.Proof.Gen.KernelIdeal.Points
import Idealize.ShloMosaic.Lib.Pipeline.FrameBody
import Idealize.ShloMosaic.Lib.Pipeline.Frame

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature block and the label block of point `t`, at their literal types. -/
abbrev xblk0 (c : Dev nD) (t : Fin cfg0.N) : Vec F S1024x1024 .f32 := iblk0 V c 0 t
abbrev lblk0 (c : Dev nD) (t : Fin cfg0.N) : Vec F S1x1024 .i32 := iblk0 V c 1 t

/-- The scratch accumulator after the body at point `n`: the update applied to zero at the first point of a run of 8
    (k = 0), else to what the point before left. -/
def accAt0 (c : Dev nD) : (n : ℕ) → n < cfg0.N → Vec F S1024x1024 .f32
  | 0, hn => k0_pay2 (grid0.coords ⟨0, hn⟩) (lblk0 V c ⟨0, hn⟩) (xblk0 V c ⟨0, hn⟩) (k0_pay1 (F := F))
  | n + 1, hn => k0_pay2 (grid0.coords ⟨n + 1, hn⟩) (lblk0 V c ⟨n + 1, hn⟩) (xblk0 V c ⟨n + 1, hn⟩)
      (if (n + 1) % 8 = 0 then k0_pay1 (F := F) else accAt0 c n (Nat.lt_of_succ_lt hn))

/-- The scratch buffer as a whole memref. -/
abbrev scM0 : Memref sig .tc .vmem S1024x1024 .f32 := Memref.whole cc0_scratch0

/-- The core's other scoped buffers that are no staging buffer of this call (the second call's staging buffers and
    scratch), each whole at some contents. -/
def restS0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_scratch0), ((c : Thread nD τ).loc cc1_scratch0) ↦{fullShare} f))

/-- The region invariant before position `n`: before the first point what the launch hands over (every scoped buffer at
    anything, the generator register); afterwards the scratch at the accumulator the point before left, the other scoped
    buffers at anything, the generator register at some state. -/
def PhiS0 (c : Dev nD) : (n : ℕ) → n ≤ cfg0.N → sProp 𝕄
  | 0, _ => Pipeline.ΦA spec0 c
  | n + 1, hn => iprop(owns (c : Thread nD τ) scM0 fullShare (accAt0 V c n hn) ∗ restS0 (F := F) c ∗ (∃ r, prngReg c r))

/-- The proof data of pipeline 0 on core `c`: the arrays as the region finds them; after the body each input's buffer at its
    block, the output's at the accumulator (what the body stores there at k = 7; at the other points the window is idle and
    this value is not consulted); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]

end Cert.KernelIdeal.Hand

end
-- ==== Proof.R1Defs.lean ====
/- Region 1 (the centre / cross-entropy kernel), its data. The grid is 32 x 8 with the last axis fastest: point t has
   k = t % 8. The scratch accumulates  onehot(label block, block k of class ids) · (block k of the class means)  over k, reset
   to zero at k = 0; at k = 7 the output block receives the row-wise cross-entropy of the accumulated rows. -/
import proofs.«418073_j77309412134_1_alg».proof.Proof.Gen.KernelIdeal.Launch
import proofs.«418073_j77309412134_1_alg».proof.Proof.Gen.KernelIdeal.Skeleton
import proofs.«418073_j77309412134_1_alg».proof.Proof.Gen.KernelIdeal.Points
import Idealize.ShloMosaic.Lib.Pipeline.FrameBody
import Idealize.ShloMosaic.Lib.Pipeline.Frame

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The class-mean block and the label block of point `t`, at their literal types. -/
abbrev sblk1 (c : Dev nD) (t : Fin cfg1.N) : Vec F S512x4096 .bf16 := iblk1 V c 0 t
abbrev lblk1 (c : Dev nD) (t : Fin cfg1.N) : Vec F S256x1 .i32 := iblk1 V c 1 t

/-- The scratch accumulator after the body at point `n`. -/
def accAt1 (c : Dev nD) : (n : ℕ) → n < cfg1.N → Vec F S256x4096 .f32
  | 0, hn => k1_pay3 (grid1.coords ⟨0, hn⟩) (lblk1 V c ⟨0, hn⟩) (k1_pay1 (F := F)) (sblk1 V c ⟨0, hn⟩)
  | n + 1, hn => k1_pay3 (grid1.coords ⟨n + 1, hn⟩) (lblk1 V c ⟨n + 1, hn⟩)
      (if (n + 1) % 8 = 0 then k1_pay1 (F := F) else accAt1 c n (Nat.lt_of_succ_lt hn)) (sblk1 V c ⟨n + 1, hn⟩)

/-- What the body stores in the output block at k = 7: the cross-entropy column of the accumulated rows. -/
def ceAt1 (c : Dev nD) (t : Fin cfg1.N) : Vec F S256x1 .f32 := k1_pay4 (lblk1 V c t) (accAt1 V c t.val t.isLt)

/-- The scratch buffer as a whole memref. -/
abbrev scM1 : Memref sig .tc .vmem S256x4096 .f32 := Memref.whole cc1_scratch0

/-- The core's other scoped buffers that are no staging buffer of this call, each whole at some contents. -/
def restS1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f))

/-- The region invariant before position `n`. -/
def PhiS1 (c : Dev nD) : (n : ℕ) → n ≤ cfg1.N → sProp 𝕄
  | 0, _ => Pipeline.ΦA spec1 c
  | n + 1, hn => iprop(owns (c : Thread nD τ) scM1 fullShare (accAt1 V c n hn) ∗ restS1 (F := F) c ∗ (∃ r, prngReg c r))

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => ceAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = ceAt1 V c t := by dsimp only [dat1]

end Cert.KernelIdeal.Hand

end
-- ==== Proof.Run.lean ====
/- The kernel program's run, from its two regions' frame facts: the contents the two pallas_calls leave, the proof data
   of both pipelines, each region as a segment of @main entered from and left at the buffer contents the host stretches
   fold, and the run: every weakly fair execution of @main terminates with every unscoped buffer at the last fold. -/
import proofs.«418073_j77309412134_1_alg».proof.Proof.Gen.KernelIdeal.Regions
import proofs.«418073_j77309412134_1_alg».proof.Proof.R0Defs
import proofs.«418073_j77309412134_1_alg».proof.Proof.R1Defs
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal.Gen

variable {F : FTy → Type} [FloatOps F]

local notation "𝕄" => MT nD τ sig Unit (Elt F) ℕ (UR sig nD τ) ℕ

/-- What the two regions' frame halves prove, at every entry contents: the body obligation, and that the launch's
    hand-over is the invariant before the first point and the invariant after the last point gives it back. -/
structure RegionFacts (F : FTy → Type) [FloatOps F] : Prop where
  body0 : ∀ (V : (c : Dev nD) → (b : Ref sig .tc) → Buf (Elt F) ((c : Thread nD τ).loc b)) (c : Dev nD),
    BodyObligation (dat0 (F := F) V c) (defs₀ (F := F)) Variants.none () Set.univ
  in0 : ∀ (V : (c : Dev nD) → (b : Ref sig .tc) → Buf (Elt F) ((c : Thread nD τ).loc b)) (c : Dev nD),
    Pipeline.ΦA spec0 c ⊢ (dat0 (F := F) V c).Φ 0
  out0 : ∀ (V : (c : Dev nD) → (b : Ref sig .tc) → Buf (Elt F) ((c : Thread nD τ).loc b)) (c : Dev nD),
    (dat0 (F := F) V c).Φ (Fin.last cfg0.N) ⊢ Pipeline.ΦA spec0 c
  body1 : ∀ (V : (c : Dev nD) → (b : Ref sig .tc) → Buf (Elt F) ((c : Thread nD τ).loc b)) (c : Dev nD),
    BodyObligation (dat1 (F := F) V c) (defs₀ (F := F)) Variants.none () Set.univ
  in1 : ∀ (V : (c : Dev nD) → (b : Ref sig .tc) → Buf (Elt F) ((c : Thread nD τ).loc b)) (c : Dev nD),
    Pipeline.ΦA spec1 c ⊢ (dat1 (F := F) V c).Φ 0
  out1 : ∀ (V : (c : Dev nD) → (b : Ref sig .tc) → Buf (Elt F) ((c : Thread nD τ).loc b)) (c : Dev nD),
    (dat1 (F := F) V c).Φ (Fin.last cfg1.N) ⊢ Pipeline.ΦA spec1 c

variable (m : (ℓ : Loc nD τ sig) → Buf (Elt F) ℓ) (ρ : Dev nD → PrngReg)

/-! ## What the regions leave -/

/-- The buffers as region 0 finds them: the launch contents after the first host stretch. -/
abbrev E1 : (c : Dev nD) → (b : Ref sig .tc) → Buf (Elt F) ((c : Thread nD τ).loc b) := fun c b => V1 m c b

/-- What region 0 leaves in its output array: the write-backs folded. -/
def o2 (c : Dev nD) : Buf (Elt F) ((c : Thread nD τ).loc main_v2) := (dat0 (E1 m) c).arrAt 2 cfg0.N

/-- The regions' leavings with only region 0's named. -/
def outs2 : Outs (F := F) := fun _ r c => if h : r = main_v2 then h ▸ o2 m c else V1 m c r

/-- The buffers as region 1 finds them. -/
abbrev E5 : (c : Dev nD) → (b : Ref sig .tc) → Buf (Elt F) ((c : Thread nD τ).loc b) := fun c b => V5 m (outs2 m) c b

/-- What region 1 leaves in its output array. -/
def o6 (c : Dev nD) : Buf (Elt F) ((c : Thread nD τ).loc main_v14) := (dat1 (E5 m) c).arrAt 2 cfg1.N

/-- The regions' leavings. -/
def outsH : Outs (F := F) := fun _ r c =>
  if h : r = main_v2 then h ▸ o2 m c else if h' : r = main_v14 then h' ▸ o6 m c else V1 m c r

theorem outs2_2 (c : Dev nD) : outs2 m 2 main_v2 c = o2 m c := by
  unfold outs2; rw [dif_pos rfl]
theorem outsH_2 (c : Dev nD) : outsH m 2 main_v2 c = o2 m c := by
  unfold outsH; rw [dif_pos rfl]
theorem outsH_6 (c : Dev nD) : outsH m 6 main_v14 c = o6 m c := by
  unfold outsH; rw [dif_neg (by decide), dif_pos rfl]

/-- Region 1 is entered from the same contents whichever of the two families names region 0's leavings. -/
theorem V5_outsH (c : Dev nD) : V5 m (outsH m) c = V5 m (outs2 m) c := by
  show StableHlo.after hostOps1_2 (StableHlo.after hostOps1_1 (StableHlo.after hostOps1 (V2 m (outsH m) c)))
     = StableHlo.after hostOps1_2 (StableHlo.after hostOps1_1 (StableHlo.after hostOps1 (V2 m (outs2 m) c)))
  have : V2 m (outsH m) c = V2 m (outs2 m) c := by
    show Function.update (V1 m c) main_v2 (outsH m 2 main_v2 c) = Function.update (V1 m c) main_v2 (outs2 m 2 main_v2 c)
    rw [outsH_2, outs2_2]
  rw [this]

/-! ## The proof data family and the regions as segments -/

/-- Every pipeline's proof data, each at its region's entry contents: a literal match on the pipeline. -/
def pdats : (p : Fin 2) → (c : Dev nD) → Dat τ (Elt F) Unit ℕ (UR sig nD τ) ℕ (cfgs p) c
  | ⟨0, _⟩ => fun c => dat0 (E1 m) c
  | ⟨1, _⟩ => fun c => dat1 (E5 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the generator register at some state and the core's dues, none. -/
abbrev R (c : Dev nD) : sProp 𝕄 := iprop((∃ r, prngReg c r) ∗ ∃ W, owes (c : Thread nD τ) (0 : CellTallies nD τ sig Unit) W)

/-- At region 0's exit each of its arrays holds what the pipeline leaves, -/
theorem hF0 (c : Dev nD) (w : Fin cfg0.W) :
    (dat0 (E1 m) c).arrAt w cfg0.N = V2 m (outsH m) c (Pipeline.arrRef spec0 w) := by
  match w with
  | ⟨0, _⟩ => exact ((dat0 (E1 m) c).arrAt_in 0 rfl _).trans ((A_eq0 (E1 m) c 0).trans (V2_of m (outsH m) c main_arg0 (by decide)).symm)
  | ⟨1, _⟩ => exact ((dat0 (E1 m) c).arrAt_in 1 rfl _).trans ((A_eq0 (E1 m) c 1).trans (V2_of m (outsH m) c main_v0 (by decide)).symm)
  | ⟨2, _⟩ =>
    show o2 m c = Function.update (V1 m c) main_v2 (outsH m 2 main_v2 c) main_v2
    rw [Function.update_self, outsH_2]
/-- and every other buffer what it held at entry. -/
theorem hrest0 (c : Dev nD) : ∀ b, b ∉ Finset.univ.image (Pipeline.arrRef spec0) → V2 m (outsH m) c b = V1 m c b :=
  fun b hb => V2_of m (outsH m) c b (by
    intro h; rw [List.mem_singleton] at h; subst h
    exact hb (Finset.mem_image.mpr ⟨2, Finset.mem_univ _, rfl⟩))

theorem hF1 (c : Dev nD) (w : Fin cfg1.W) :
    (dat1 (E5 m) c).arrAt w cfg1.N = V6 m (outsH m) c (Pipeline.arrRef spec1 w) := by
  match w with
  | ⟨0, _⟩ => exact ((dat1 (E5 m) c).arrAt_in 0 rfl _).trans ((A_eq1 (E5 m) c 0).trans
      ((congrFun (V5_outsH m c) main_v13).symm.trans (V6_of m (outsH m) c main_v13 (by decide)).symm))
  | ⟨1, _⟩ => exact ((dat1 (E5 m) c).arrAt_in 1 rfl _).trans ((A_eq1 (E5 m) c 1).trans
      ((congrFun (V5_outsH m c) main_v1).symm.trans (V6_of m (outsH m) c main_v1 (by decide)).symm))
  | ⟨2, _⟩ =>
    show o6 m c = Function.update (V5 m (outsH m) c) main_v14 (outsH m 6 main_v14 c) main_v14
    rw [Function.update_self, outsH_6]
theorem hrest1 (c : Dev nD) : ∀ b, b ∉ Finset.univ.image (Pipeline.arrRef spec1) → V6 m (outsH m) c b = E5 m c b :=
  fun b hb => (V6_of m (outsH m) c b (by
    intro h; rw [List.mem_singleton] at h; subst h
    exact hb (Finset.mem_image.mpr ⟨2, Finset.mem_univ _, rfl⟩))).trans (congrFun (V5_outsH m c) b)

variable (hR : RegionFacts F)

-- a library lemma stated over the pinned configuration unifies with the printed one only when unification may unfold
-- plain definitions in a metavariable's type
set_option backward.isDefEq.respectTransparency.types false in
/-- Region 0 over the thread state: entered from every unscoped buffer at the first fold, left at the second. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hR.body0 (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outsH m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hR.in0 (E1 m) c)
    unfold Pipeline.ΦA
    iintro ⟨Hp, -, Hr⟩
    isplitl [Hr]; · iexact Hr
    iexact Hp
  hout c := by
    refine BIBase.Entails.trans (hR.out0 (E1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b => V2 m (outsH m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the fifth fold, left at the sixth. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hR.body1 (E5 m) c).loose
  hwaits := Pipeline.hwaits_of_owed_zero _ _ _ _ L lv 1 fun _ _ => rfl
  pre c := iprop(StableHlo.held (c : Thread nD τ) (Pipeline.ucRefs τ sig) (V5 m (outsH m) c) ∗ R c)
  post c := iprop(StableHlo.held (c : Thread nD τ) (Pipeline.ucRefs τ sig) (V6 m (outsH m) c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none, V5_outsH m c]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hR.in1 (E5 m) c)
    unfold Pipeline.ΦA
    iintro ⟨Hp, -, Hr⟩
    isplitl [Hr]; · iexact Hr
    iexact Hp
  hout c := by
    refine BIBase.Entails.trans (hR.out1 (E5 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (fun b => V6 m (outsH m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

-- the launch theorem's implicit arguments are found by unifying its conclusion with this one, which takes unfolding plain
-- definitions in a metavariable's type
include hR in
set_option backward.isDefEq.respectTransparency.types false in
/-- From any memory with zero counters every weakly fair execution of @main on the TensorCores terminates, nothing faulting,
    and every final memory holds each unscoped buffer at the last fold: the launch contents, then each host stretch applied,
    each region's output array at what its write-backs leave. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V7 m (outsH m) c b) := by
  refine Pipeline.θ_run_regions_kit_dev (pcfgs (F := F)) adm (pdats m) () cellOf_inj emb₁ defs₀ 𝒱₀ L lv m ρ main
    (segs m (outsH m) 𝒱₀ L lv (fun _ c => R c) () (pdats m) (reg0 m hR) (reg1 m hR))
    (fun c Q => by
      rewrite [main_chain c, Seg.run_eq_chain,
        show (segs m (outsH m) 𝒱₀ L lv (fun _ c => R c) () (pdats m) (reg0 m hR) (reg1 m hR) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V7 m (outsH m) c))
    (hch := fun c => ⟨.rfl, .rfl, .rfl, .rfl, .rfl, .rfl, .rfl, sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V7 m (outsH m) c b)
    (hfin := fun c s' => by
      iintro ⟨Hh, HSI⟩
      unfold StableHlo.held
      imodintro
      iapply (pointsTo_read_all (Pipeline.ucRefs τ sig) (fun b => (((c : Thread nD τ)).1, b)) (V7 m (outsH m) c) s')
      isplitl [Hh] <;> iassumption)
    (hQ := fun _ h => h)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

include hR in
/-- The frame: the arguments end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (V7_main_arg0 m (outsH m) c),
     (h c _ (mem_uc main_arg1 (by decide))).trans (V7_main_arg1 m (outsH m) c)⟩) (run_all m ρ hR)

include hR in
/-- The run with the result named: the result buffer at the last fold's value, the arguments as launched. -/
theorem run_value : θ_run defs (onTc (τ := τ) (main (F := F))) ⟨m, fun _ => 0, ρ⟩ (fun r => ∀ c : Dev nD,
      r.2.mem ((c.tc : Thread nD τ).loc main_v17) = V7 m (outsH m) c main_v17
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v17 (by decide)),
     (h c _ (mem_uc main_arg0 (by decide))).trans (V7_main_arg0 m (outsH m) c),
     (h c _ (mem_uc main_arg1 (by decide))).trans (V7_main_arg1 m (outsH m) c)⟩) (run_all m ρ hR)

end Cert.KernelIdeal.Hand

end
-- ==== Proof.R0Body.lean ====
/- Region 0 (the class-sum kernel), its frame half: the body of the pipeline's loop keeps the invariant of R0Defs.lean at every
   grid point, and the invariant meets what the launch hands the region at both ends. The body has three control cases by
   the last grid coordinate k = t % 8: k = 0 resets the scratch accumulator to zero before updating it, 0 < k < 7 only
   updates it, k = 7 updates it and copies it to the output window's buffer — the only points whose output block the
   pipeline writes back; at the others the output window is idle and its buffer is returned as it was found. Generic in the
   float family: nothing here is about values. -/
import proofs.«418073_j77309412134_1_alg».proof.Proof.R0Defs
import Idealize.ShloMosaic.Lib.Tactic
import Idealize.ShloMosaic.Lib.Ring
import Idealize.ShloMosaic.Lib.Pipeline.FrameBody
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The two conditionals of the body, in closed form over the grid

The grid is 4 x 4 x 8 with the last axis fastest, so the last coordinate of point `t` is `t % 8`: the body resets its
accumulator where that is 0 and copies it out where that is 7. -/

/-- The first conditional's test, as the body computes it from the last grid coordinate: "is it 0?". -/
abbrev isFirst0 (i : grid0.Coords) : Prop :=
  (Scalar.cmpi .ne (Scalar.extui (Scalar.cmpi .eq (BitVec.ofNat 32 (i 2).val) 0#32)) 0#32) = 1#1

/-- The second conditional's test: "is the last grid coordinate 7?". -/
abbrev isLast0 (i : grid0.Coords) : Prop := k0_cond2 i = 1#1

theorem isFirst0_iff : ∀ t : Fin cfg0.N, isFirst0 (grid0.coords t) ↔ t.val % 8 = 0 :=
  (by decide +kernel : ∀ t : Fin grid0.N, isFirst0 (grid0.coords t) ↔ t.val % 8 = 0)

theorem isLast0_iff : ∀ t : Fin cfg0.N, isLast0 (grid0.coords t) ↔ t.val % 8 = 7 :=
  (by decide +kernel : ∀ t : Fin grid0.N, isLast0 (grid0.coords t) ↔ t.val % 8 = 7)

/-! ## Where the windows are idle

The two inputs never are. The output window is idle exactly where the body does not copy the accumulator out, and those
are exactly the points whose block is not written back. -/

theorem live0_0 (t : Fin cfg0.N) : cfg0.idle 0 (grid0.coords t) = false := rfl
theorem live0_1 (t : Fin cfg0.N) : cfg0.idle 1 (grid0.coords t) = false := rfl
theorem idle0_2 : ∀ t : Fin cfg0.N, ¬t.val % 8 = 7 → cfg0.idle 2 (grid0.coords t) = true :=
  (by decide +kernel : ∀ t : Fin grid0.N, ¬t.val % 8 = 7 → idle0 2 (grid0.coords t) = true)
theorem live0_2 : ∀ t : Fin cfg0.N, t.val % 8 = 7 → cfg0.idle 2 (grid0.coords t) = false :=
  (by decide +kernel : ∀ t : Fin grid0.N, t.val % 8 = 7 → idle0 2 (grid0.coords t) = false)
theorem noFlush0_2 (t : Fin cfg0.N) (h : ¬t.val % 8 = 7) : (cfg0.win 2).flush t = false := by
  cases hf : (cfg0.win 2).flush t with
  | false => rfl
  | true => exact absurd ((flush0_2 t).mp hf) h

/-! ## Whole-buffer loads and stores

Every access of the body is through the rectangle at offset zero of the buffer's own sizes: a load through it reads the
contents, a store through it leaves its payload whatever was there, and a load after such a store reads the payload. All
stated over an abstract view and shape. -/

section Whole

variable {S : Shape} {e : EltTy} {κ : Kind} {sp : Space}

theorem zeros2 : (![0, 0] : Fin 2 → ℕ) = fun _ => 0 := by funext a; fin_cases a <;> rfl

theorem readAt_zero (v : View sig κ sp S e) {off : Fin S.rank → ℕ} (h : off = fun _ => 0)
    (inb : ∀ a, off a + S.size a ≤ S.size a) (f : v.ty.Contents (Elt F)) :
    v.readAt (Elt F) (Rect.unit off S.size inb).toLoadRect f = v.read (Elt F) f :=
  (View.readAt_eq_ld v f _).trans (View.ld_unit_zero h inb _)

theorem covers_zero {off : Fin S.rank → ℕ} (h : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons_self, View.mem_set_unit_zero h inb y⟩

theorem read_writes_zero (v : View sig κ sp S e) {off : Fin S.rank → ℕ} (h : off = fun _ => 0)
    (inb : ∀ a, off a + S.size a ≤ S.size a) (f : v.ty.Contents (Elt F)) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (covers_zero h inb w L)).trans (View.canon_cons_unit_zero h inb w L)

theorem readCov_zero (v : View sig κ sp S e) {off : Fin S.rank → ℕ} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w :=
  View.readCov_cons_toLoadRect v (Rect.unit off S.size inb) w L

end Whole

/-! ## The body on whole memrefs, one triple per control case

The inputs' buffers are owned at contents `x` (features) and `l` (labels) and come back unchanged; the scratch goes from
what it held (anything, where the body first resets it) to the update of that; where the body copies out, the output's
buffer goes from anything to the same update. Where it does not, the body never touches the output's buffer, which is
therefore no part of the triple. -/

set_option maxHeartbeats 1000000 in
/-- Last coordinate 0: reset, then update. -/
theorem kernel0_first (c : Dev nD) (E : Set ℕ) (i : grid0.Coords)
    (arg3 : Memref sig .tc .vmem S1024x1024 .f32) (harg3 : arg3.IsWhole)
    (arg4 : Memref sig .tc .vmem S1x1024 .i32) (harg4 : arg4.IsWhole)
    (arg5 : Memref sig .tc .vmem S1024x1024 .f32) (harg5 : arg5.IsWhole)
    (arg6 : Memref sig .tc .vmem S1024x1024 .f32) (harg6 : arg6.IsWhole)
    (hc1 : isFirst0 i) (hc2 : ¬isLast0 i)
    (x : Vec F S1024x1024 .f32) (l : Vec F S1x1024 .i32)
    (K : PUnit → sProp 𝕄) :
    iprop(owns (c : Thread nD τ) arg3 fullShare x ∗ owns (c : Thread nD τ) arg4 fullShare l
        ∗ (∃ a, owns (c : Thread nD τ) arg6 fullShare a)
        ∗ (iprop(owns (c : Thread nD τ) arg3 fullShare x ∗ owns (c : Thread nD τ) arg4 fullShare l
            ∗ owns (c : Thread nD τ) arg6 fullShare (k0_pay2 i l x (k0_pay1 (F := F)))) -∗ K ⟨⟩))
      ⊢ wp frame (wpE (defs₀ (F := F)) Variants.none c none) E
          (cc0__sums_kernel i arg3 harg3 arg4 harg4 arg5 harg5 arg6 harg6) K := by
  simp only [cc0__sums_kernel_eq_skeleton]; unfold cc0__sums_kernel_skel
  unfold owns
  iintro ⟨⟨%f3, %hf3, H3⟩, ⟨%f4, %hf4, H4⟩, ⟨%a, %f6, -, H6⟩, Hk⟩
  subst hf3; subst hf4
  sl_exec (disch := first | exact hc1 | exact hc2)
  sl_step
  sl_unfold_run_names
  iapply Hk
  isplitl [H3]
  · iexists f3; isplitr; · ipureintro; rfl
    iexact H3
  isplitl [H4]
  · iexists f4; isplitr; · ipureintro; rfl
    iexact H4
  iexists _; isplitr
  swap; · iexact H6
  ipureintro
  rw [read_writes_zero _ zeros2, readCov_zero _ zeros2, readAt_zero _ zeros2, readAt_zero _ zeros2]

set_option maxHeartbeats 1000000 in
/-- Last coordinate strictly between 0 and 7: update only. -/
theorem kernel0_mid (c : Dev nD) (E : Set ℕ) (i : grid0.Coords)
    (arg3 : Memref sig .tc .vmem S1024x1024 .f32) (harg3 : arg3.IsWhole)
    (arg4 : Memref sig .tc .vmem S1x1024 .i32) (harg4 : arg4.IsWhole)
    (arg5 : Memref sig .tc .vmem S1024x1024 .f32) (harg5 : arg5.IsWhole)
    (arg6 : Memref sig .tc .vmem S1024x1024 .f32) (harg6 : arg6.IsWhole)
    (hc1 : ¬isFirst0 i) (hc2 : ¬isLast0 i)
    (x : Vec F S1024x1024 .f32) (l : Vec F S1x1024 .i32) (a : Vec F S1024x1024 .f32)
    (K : PUnit → sProp 𝕄) :
    iprop(owns (c : Thread nD τ) arg3 fullShare x ∗ owns (c : Thread nD τ) arg4 fullShare l
        ∗ owns (c : Thread nD τ) arg6 fullShare a
        ∗ (iprop(owns (c : Thread nD τ) arg3 fullShare x ∗ owns (c : Thread nD τ) arg4 fullShare l
            ∗ owns (c : Thread nD τ) arg6 fullShare (k0_pay2 i l x a)) -∗ K ⟨⟩))
      ⊢ wp frame (wpE (defs₀ (F := F)) Variants.none c none) E
          (cc0__sums_kernel i arg3 harg3 arg4 harg4 arg5 harg5 arg6 harg6) K := by
  simp only [cc0__sums_kernel_eq_skeleton]; unfold cc0__sums_kernel_skel
  unfold owns
  iintro ⟨⟨%f3, %hf3, H3⟩, ⟨%f4, %hf4, H4⟩, ⟨%f6, %hf6, H6⟩, Hk⟩
  subst hf3; subst hf4; subst hf6
  sl_exec (disch := first | exact hc1 | exact hc2)
  sl_step
  sl_unfold_run_names
  iapply Hk
  isplitl [H3]
  · iexists f3; isplitr; · ipureintro; rfl
    iexact H3
  isplitl [H4]
  · iexists f4; isplitr; · ipureintro; rfl
    iexact H4
  iexists _; isplitr
  swap; · iexact H6
  ipureintro
  rw [read_writes_zero _ zeros2, readAt_zero _ zeros2, readAt_zero _ zeros2, readAt_zero _ zeros2]

set_option maxHeartbeats 1000000 in
/-- Last coordinate 7: update, then copy the accumulator to the output's buffer. -/
theorem kernel0_last (c : Dev nD) (E : Set ℕ) (i : grid0.Coords)
    (arg3 : Memref sig .tc .vmem S1024x1024 .f32) (harg3 : arg3.IsWhole)
    (arg4 : Memref sig .tc .vmem S1x1024 .i32) (harg4 : arg4.IsWhole)
    (arg5 : Memref sig .tc .vmem S1024x1024 .f32) (harg5 : arg5.IsWhole)
    (arg6 : Memref sig .tc .vmem S1024x1024 .f32) (harg6 : arg6.IsWhole)
    (hc1 : ¬isFirst0 i) (hc2 : isLast0 i)
    (x : Vec F S1024x1024 .f32) (l : Vec F S1x1024 .i32) (a : Vec F S1024x1024 .f32)
    (K : PUnit → sProp 𝕄) :
    iprop(owns (c : Thread nD τ) arg3 fullShare x ∗ owns (c : Thread nD τ) arg4 fullShare l
        ∗ (∃ o, owns (c : Thread nD τ) arg5 fullShare o) ∗ owns (c : Thread nD τ) arg6 fullShare a
        ∗ (iprop(owns (c : Thread nD τ) arg3 fullShare x ∗ owns (c : Thread nD τ) arg4 fullShare l
            ∗ owns (c : Thread nD τ) arg5 fullShare (k0_pay2 i l x a)
            ∗ owns (c : Thread nD τ) arg6 fullShare (k0_pay2 i l x a)) -∗ K ⟨⟩))
      ⊢ wp frame (wpE (defs₀ (F := F)) Variants.none c none) E
          (cc0__sums_kernel i arg3 harg3 arg4 harg4 arg5 harg5 arg6 harg6) K := by
  simp only [cc0__sums_kernel_eq_skeleton]; unfold cc0__sums_kernel_skel
  unfold owns
  iintro ⟨⟨%f3, %hf3, H3⟩, ⟨%f4, %hf4, H4⟩, ⟨%o, %f5, -, H5⟩, ⟨%f6, %hf6, H6⟩, Hk⟩
  subst hf3; subst hf4; subst hf6
  sl_exec (disch := first | exact hc1 | exact hc2)
  sl_step
  sl_unfold_run_names
  iapply Hk
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [read_writes_zero _ zeros2, readCov_zero _ zeros2, readAt_zero _ zeros2, readAt_zero _ zeros2,
      readAt_zero _ zeros2]
  iexists _; isplitr
  swap; · iexact H6
  ipureintro
  rw [read_writes_zero _ zeros2, readAt_zero _ zeros2, readAt_zero _ zeros2, readAt_zero _ zeros2]

/-! ## The accumulator, point by point -/

/-- At the first point of a run of 8 the accumulator is the update of zero. -/
theorem accAt0_first (c : Dev nD) (t : Fin cfg0.N) (h0 : t.val % 8 = 0) :
    accAt0 V c t.val t.isLt = k0_pay2 (grid0.coords t) (lblk0 V c t) (xblk0 V c t) (k0_pay1 (F := F)) := by
  obtain ⟨n, hn⟩ := t
  cases n with
  | zero => rfl
  | succ n =>
    have h0' : (n + 1) % 8 = 0 := h0
    show k0_pay2 _ _ _ (if (n + 1) % 8 = 0 then k0_pay1 (F := F) else accAt0 V c n _) = _
    rw [if_pos h0']

/-- At any other point it is the update of what the point before left. -/
theorem accAt0_next (c : Dev nD) (t : Fin cfg0.N) (h0 : ¬t.val % 8 = 0) :
    accAt0 V c t.val t.isLt = k0_pay2 (grid0.coords t) (lblk0 V c t) (xblk0 V c t)
      (accAt0 V c (t.val - 1) (Nat.lt_of_le_of_lt (Nat.sub_le _ _) t.isLt)) := by
  obtain ⟨n, hn⟩ := t
  cases n with
  | zero => exact absurd (Nat.zero_mod 8) h0
  | succ n =>
    have h0' : ¬(n + 1) % 8 = 0 := h0
    show k0_pay2 _ _ _ (if (n + 1) % 8 = 0 then k0_pay1 (F := F) else accAt0 V c n _) = _
    rw [if_neg h0']
    rfl

/-! ## The invariant, position by position -/

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn
      = iprop(owns (c : Thread nD τ) scM0 fullShare (accAt0 V c n hn) ∗ restS0 (F := F) c ∗ (∃ r, prngReg c r)) := rfl

theorem PhiS0_pos (c : Dev nD) (n : ℕ) (h : n ≤ cfg0.N) (hz : n ≠ 0) :
    PhiS0 V c n h
      = iprop(owns (c : Thread nD τ) scM0 fullShare (accAt0 V c (n - 1) (by omega)) ∗ restS0 (F := F) c ∗ (∃ r, prngReg c r)) := by
  cases n with
  | zero => exact absurd rfl hz
  | succ n => rfl

/-- What the launch hands over, with the scratch set apart as a memref owned at some contents. -/
theorem PhiA0_eq (c : Dev nD) :
    (Pipeline.ΦA spec0 c : sProp 𝕄)
      = iprop(((∃ d, owns (c : Thread nD τ) scM0 fullShare d) ∗ restS0 (F := F) c) ∗ (∃ r, prngReg c r)) := by
  unfold Pipeline.ΦA restS0; rw [scopedRest0_eq]; simp only [scM0, owns_whole]; rfl

theorem Phi0_castSucc (c : Dev nD) (t : Fin cfg0.N) :
    (dat0 V c).Φ t.castSucc = PhiS0 V c t.val (Nat.le_of_lt t.isLt) := by
  dsimp only [dat0]; simp only [Fin.coe_castSucc]

theorem Phi0_succ (c : Dev nD) (t : Fin cfg0.N) :
    (dat0 V c).Φ t.succ = PhiS0 V c (t.val + 1) t.isLt := by
  dsimp only [dat0]; simp only [Fin.val_succ]

/-! ## What the body finds in the input windows' buffers: their blocks -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- An input window's buffer is handed back at its block. -/
theorem leaves0_0 (c : Dev nD) (t : Fin cfg0.N) :
    (dat0 V c).leavesExact 0 t = owns (c : Thread nD τ) (st0_0 t) fullShare (iblk0 V c 0 t) := by
  unfold Dat.leavesExact; rw [live0_0 t, after0_0]

theorem leaves0_1 (c : Dev nD) (t : Fin cfg0.N) :
    (dat0 V c).leavesExact 1 t = owns (c : Thread nD τ) (st0_1 t) fullShare (iblk0 V c 1 t) := by
  unfold Dat.leavesExact; rw [live0_1 t, after0_1]

/-- Where the output block is written back its buffer is handed back at the accumulator; -/
theorem leaves0_2_last (c : Dev nD) (t : Fin cfg0.N) (h7 : t.val % 8 = 7) :
    (dat0 V c).leavesExact 2 t = owns (c : Thread nD τ) (st0_2 t) fullShare (accAt0 V c t.val t.isLt) := by
  unfold Dat.leavesExact; rw [live0_2 t h7, after0_2]

/-- elsewhere as the body found it. -/
theorem leaves0_2_idle (c : Dev nD) (t : Fin cfg0.N) (h7 : ¬t.val % 8 = 7) :
    (dat0 V c).leavesExact 2 t = iprop(∃ d, owns (c : Thread nD τ) (st0_2 t) fullShare ((dat0 V c).before 2 t d)) :=
  Dat.leavesExact_idle (dat0 V c) 2 t (idle0_2 t h7) (noFlush0_2 t h7)

/-! ## The body obligation, at a generic point -/

/-- What the body is called with at point `t`: the invariant, nothing owed, each window's current buffer at what the
    pipeline left there; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point. The inputs' buffers hold their blocks; the last coordinate `t % 8` says which of the three
    triples applies; the invariant lends the scratch — at anything before the very first point, else at what the point
    before left — and takes it back at this point's accumulator; the output's buffer is either untouched (and handed
    back as found) or receives the accumulator (at the points whose block is written back). -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [Phi0_succ, PhiS0_succ, Phi0_castSucc, leaves0_0, leaves0_1]
  have hN : t.val < 128 := lt_of_lt_of_eq t.isLt (show cfg0.N = 128 from N_0)
  by_cases h0 : t.val % 8 = 0
  · -- first point of a run of 8
    have h7 : ¬t.val % 8 = 7 := by omega
    rw [leaves0_2_idle V c t h7, accAt0_first V c t h0]
    by_cases hz : t.val = 0
    · -- the very first point: the scratch comes from the launch, at anything
      rw [PhiS0_zero V c _ _ hz, PhiA0_eq]
      iintro ⟨⟨⟨HS, HR⟩, Hg⟩, Ho, ⟨%d0, H0⟩, ⟨%d1, H1⟩, ⟨%d2, H2⟩⟩
      iapply (kernel0_first c Set.univ (grid0.coords t) _ _ _ _ _ _ _ _ ((isFirst0_iff t).mpr h0)
        (fun h => h7 ((isLast0_iff t).mp h)) (xblk0 V c t) (lblk0 V c t) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexists d2; iexact H2
    · -- a later run's first point: the scratch holds the previous run's sum, which the reset discards
      rw [PhiS0_pos V c _ _ hz]
      iintro ⟨⟨HS, HR, Hg⟩, Ho, ⟨%d0, H0⟩, ⟨%d1, H1⟩, ⟨%d2, H2⟩⟩
      iapply (kernel0_first c Set.univ (grid0.coords t) _ _ _ _ _ _ _ _ ((isFirst0_iff t).mpr h0)
        (fun h => h7 ((isLast0_iff t).mp h)) (xblk0 V c t) (lblk0 V c t) _)
      isplitl [H0]; · iexact H0
      isplitl [H1]; · iexact H1
      isplitl [HS]; · iexists _; iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexists d2; iexact H2
  · have hz : t.val ≠ 0 := fun e => h0 (by rw [e])
    rw [PhiS0_pos V c _ _ hz, accAt0_next V c t h0]
    by_cases h7 : t.val % 8 = 7
    · -- last point of a run of 8: the accumulator is copied out
      rw [leaves0_2_last V c t h7, accAt0_next V c t h0]
      iintro ⟨⟨HS, HR, Hg⟩, Ho, ⟨%d0, H0⟩, ⟨%d1, H1⟩, ⟨%d2, H2⟩⟩
      iapply (kernel0_last c Set.univ (grid0.coords t) _ _ _ _ _ _ _ _ (fun h => h0 ((isFirst0_iff t).mp h))
        ((isLast0_iff t).mpr h7) (xblk0 V c t) (lblk0 V c t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · -- a middle point
      rw [leaves0_2_idle V c t h7]
      iintro ⟨⟨HS, HR, Hg⟩, Ho, ⟨%d0, H0⟩, ⟨%d1, H1⟩, ⟨%d2, H2⟩⟩
      iapply (kernel0_mid c Set.univ (grid0.coords t) _ _ _ _ _ _ _ _ (fun h => h0 ((isFirst0_iff t).mp h))
        (fun h => h7 ((isLast0_iff t).mp h)) (xblk0 V c t) (lblk0 V c t) _ _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexists d2; iexact H2

/-- The pipeline's obligation on its body, at every point. -/
theorem body_obligation0 (c : Dev nD) :
    BodyObligation (dat0 (F := F) V c) (defs₀ (F := F)) Variants.none () Set.univ := fun t => by
  rw [bigSep_W0, bigSep_W0]
  exact sound_body0 V c t

/-! ## Into the region and out of it -/

/-- What the launch hands the region is the invariant before the first point. -/
theorem hin0 (c : Dev nD) : Pipeline.ΦA spec0 c ⊢ (dat0 V c).Φ 0 :=
  Entails.of_eq (show Pipeline.ΦA spec0 c = (dat0 V c).Φ 0 from rfl)

/-- After the last point the invariant gives that back: the scratch's sum is forgotten. -/
theorem hout0 (c : Dev nD) : (dat0 V c).Φ (Fin.last cfg0.N) ⊢ Pipeline.ΦA spec0 c := by
  have hN : cfg0.N = 128 := N_0
  have hz : (Fin.last cfg0.N).val ≠ 0 := by rw [Fin.val_last]; omega
  rw [show (dat0 V c).Φ (Fin.last cfg0.N)
      = PhiS0 V c (Fin.last cfg0.N).val (Nat.le_of_lt_succ (Fin.last cfg0.N).isLt) from rfl,
    PhiS0_pos V c _ _ hz, PhiA0_eq]
  iintro ⟨HS, HR, Hg⟩
  isplitl [HS HR]
  · isplitl [HS]; · iexists _; iexact HS
    iexact HR
  iexact Hg

end Cert.KernelIdeal.Hand

end
-- ==== Proof.R1Body.lean ====
/- Region 1 (the centre / cross-entropy kernel), the body obligation of its pipeline at the proof data of R1Defs.

   The grid is 32 x 8 with the last axis fastest, so point t has reduction coordinate k = t % 8. At k = 0 the body zeroes
   the scratch; at every point it adds onehot(label block, block k of class ids) · (block k of the class means) to it; at
   k = 7 it stores the row-wise cross-entropy of the accumulated rows in the output block. Hence three control cases
   (k = 0, 0 < k < 7, k = 7), each a triple for the kernel function on whole memrefs; the invariant carries the scratch
   at the accumulator of the point before; the output window is idle, and handed back as found, off k = 7.
   Generic in the float family: nothing is said about values. -/
import proofs.«418073_j77309412134_1_alg».proof.Proof.R1Defs
import Idealize.ShloMosaic.Lib.Tactic
import Idealize.ShloMosaic.Lib.Ring
import Idealize.ShloMosaic.Lib.Pipeline.FrameBody
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## Whole-buffer accesses

Every load and store of the body goes through the rectangle at zero offsets of the buffer's own sizes: a load
through it reads the contents, and a store through it leaves its payload. -/

/-- The zero offsets of a rank-2 rectangle, as a constant function. -/
theorem off00 : (![0, 0] : Fin 2 → ℕ) = fun _ => 0 := by
  funext a; fin_cases a <;> rfl

/-! ## The two conditionals, over the grid

The grid is 32 x 8 with the last axis fastest, so point t has reduction coordinate t % 8. -/

/-- The first conditional's test: the reduction coordinate is zero (the accumulator is reset). -/
abbrev isFirst1 (i : grid1.Coords) : Prop :=
  (Scalar.cmpi .ne (Scalar.extui (Scalar.cmpi .eq (BitVec.ofNat 32 (i 1).val) 0#32)) 0#32) = 1#1
/-- The second conditional's test: the reduction coordinate is the last one (the output block is written). -/
abbrev isLast1 (i : grid1.Coords) : Prop := k1_cond2 i = 1#1

theorem isFirst1_iff : ∀ t : Fin cfg1.N, isFirst1 (grid1.coords t) ↔ t.val % 8 = 0 :=
  (by decide +kernel : ∀ t : Fin grid1.N, isFirst1 (grid1.coords t) ↔ t.val % 8 = 0)
theorem isLast1_iff : ∀ t : Fin cfg1.N, isLast1 (grid1.coords t) ↔ t.val % 8 = 7 :=
  (by decide +kernel : ∀ t : Fin grid1.N, isLast1 (grid1.coords t) ↔ t.val % 8 = 7)

/-- The output window is idle exactly off the last reduction step, and is not written back there. -/
theorem idle1_2_of : ∀ t : Fin cfg1.N, ¬ t.val % 8 = 7 → cfg1.idle 2 (grid1.coords t) = true :=
  (by decide +kernel : ∀ t : Fin grid1.N, ¬ t.val % 8 = 7 → idle1 2 (grid1.coords t) = true)
theorem live1_2_of : ∀ t : Fin cfg1.N, t.val % 8 = 7 → cfg1.idle 2 (grid1.coords t) = false :=
  (by decide +kernel : ∀ t : Fin grid1.N, t.val % 8 = 7 → idle1 2 (grid1.coords t) = false)
theorem noflush1_2_of (t : Fin cfg1.N) (h : ¬ t.val % 8 = 7) : (cfg1.win 2).flush t = false :=
  Bool.eq_false_iff.mpr fun hf => h ((flush1_2 t).mp hf)

/-! ## The body on whole memrefs, case by case

In each case the class-mean block xs and the label block xl are read and handed back unchanged. With acc the
accumulator the body starts from (zeros at the first reduction step, else what the scratch holds), the scratch ends at
k1_pay3 i xl acc xs; at the last reduction step the output buffer ends at k1_pay4 xl of that. The output buffer is not
touched in the other two cases and so does not appear in their statements. -/

set_option maxHeartbeats 1000000 in
/-- First reduction step: the scratch, held at anything, is zeroed and then accumulated into. -/
theorem kernel1_first (c : Dev nD) (E : Set ℕ) (i : grid1.Coords)
    (arg2 : Memref sig .tc .vmem S512x4096 .bf16) (harg2 : arg2.IsWhole)
    (arg3 : Memref sig .tc .vmem S256x1 .i32) (harg3 : arg3.IsWhole)
    (arg4 : Memref sig .tc .vmem S256x1 .f32) (harg4 : arg4.IsWhole)
    (arg5 : Memref sig .tc .vmem S256x4096 .f32) (harg5 : arg5.IsWhole)
    (h0 : isFirst1 i) (h7 : ¬ isLast1 i)
    (xs : Vec F S512x4096 .bf16) (xl : Vec F S256x1 .i32) (K : PUnit → sProp 𝕄) :
    iprop(owns (c : Thread nD τ) arg2 fullShare xs ∗ owns (c : Thread nD τ) arg3 fullShare xl
        ∗ (∃ a, owns (c : Thread nD τ) arg5 fullShare a)
        ∗ (iprop(owns (c : Thread nD τ) arg2 fullShare xs ∗ owns (c : Thread nD τ) arg3 fullShare xl
            ∗ owns (c : Thread nD τ) arg5 fullShare (k1_pay3 i xl (k1_pay1 (F := F)) xs)) -∗ K ⟨⟩))
      ⊢ wp frame (wpE (defs₀ (F := F)) Variants.none c none) E
          (cc1__center_ce_kernel i arg2 harg2 arg3 harg3 arg4 harg4 arg5 harg5) K := by
  simp only [cc1__center_ce_kernel_eq_skeleton]; unfold cc1__center_ce_kernel_skel
  unfold owns
  iintro ⟨⟨%f2, %hf2, H2⟩, ⟨%f3, %hf3, H3⟩, ⟨%a, %f5, -, H5⟩, Hk⟩
  subst hf2; subst hf3
  sl_exec (disch := first | exact h0 | exact h7)
  sl_step
  iapply Hk
  sl_unfold_run_names
  isplitl [H2]
  · iexists f2; isplitr; · ipureintro; rfl
    iexact H2
  isplitl [H3]
  · iexists f3; isplitr; · ipureintro; rfl
    iexact H3
  iexists _; isplitr
  swap; · iexact H5
  ipureintro
  rw [View.read_writes_eq_canon _ _ _ (fun y => ⟨_, List.Mem.head _,
      View.mem_set_unit_zero off00 inb_S256x4096_S256x4096_0_0 y⟩),
    View.canon_cons_unit_zero off00, View.readCov_unit_zero _ off00,
    View.readAt_eq_ld, View.readAt_eq_ld, View.ld_unit_zero off00, View.ld_unit_zero off00]

set_option maxHeartbeats 1000000 in
/-- A middle reduction step: the scratch, held at a, is accumulated into. -/
theorem kernel1_mid (c : Dev nD) (E : Set ℕ) (i : grid1.Coords)
    (arg2 : Memref sig .tc .vmem S512x4096 .bf16) (harg2 : arg2.IsWhole)
    (arg3 : Memref sig .tc .vmem S256x1 .i32) (harg3 : arg3.IsWhole)
    (arg4 : Memref sig .tc .vmem S256x1 .f32) (harg4 : arg4.IsWhole)
    (arg5 : Memref sig .tc .vmem S256x4096 .f32) (harg5 : arg5.IsWhole)
    (h0 : ¬ isFirst1 i) (h7 : ¬ isLast1 i)
    (xs : Vec F S512x4096 .bf16) (xl : Vec F S256x1 .i32) (a : Vec F S256x4096 .f32) (K : PUnit → sProp 𝕄) :
    iprop(owns (c : Thread nD τ) arg2 fullShare xs ∗ owns (c : Thread nD τ) arg3 fullShare xl
        ∗ owns (c : Thread nD τ) arg5 fullShare a
        ∗ (iprop(owns (c : Thread nD τ) arg2 fullShare xs ∗ owns (c : Thread nD τ) arg3 fullShare xl
            ∗ owns (c : Thread nD τ) arg5 fullShare (k1_pay3 i xl a xs)) -∗ K ⟨⟩))
      ⊢ wp frame (wpE (defs₀ (F := F)) Variants.none c none) E
          (cc1__center_ce_kernel i arg2 harg2 arg3 harg3 arg4 harg4 arg5 harg5) K := by
  simp only [cc1__center_ce_kernel_eq_skeleton]; unfold cc1__center_ce_kernel_skel
  unfold owns
  iintro ⟨⟨%f2, %hf2, H2⟩, ⟨%f3, %hf3, H3⟩, ⟨%f5, %hf5, H5⟩, Hk⟩
  subst hf2; subst hf3; subst hf5
  sl_exec (disch := first | exact h0 | exact h7)
  sl_step
  iapply Hk
  sl_unfold_run_names
  isplitl [H2]
  · iexists f2; isplitr; · ipureintro; rfl
    iexact H2
  isplitl [H3]
  · iexists f3; isplitr; · ipureintro; rfl
    iexact H3
  iexists _; isplitr
  swap; · iexact H5
  ipureintro
  rw [View.read_writes_eq_canon _ _ _ (fun y => ⟨_, List.Mem.head _,
      View.mem_set_unit_zero off00 inb_S256x4096_S256x4096_0_0 y⟩),
    View.canon_cons_unit_zero off00,
    View.readAt_eq_ld, View.readAt_eq_ld, View.readAt_eq_ld,
    View.ld_unit_zero off00, View.ld_unit_zero off00, View.ld_unit_zero off00]

set_option maxHeartbeats 1000000 in
/-- The last reduction step: the scratch, held at a, is accumulated into, and the output buffer, held at anything,
    receives the cross-entropy column of the accumulated rows. -/
theorem kernel1_last (c : Dev nD) (E : Set ℕ) (i : grid1.Coords)
    (arg2 : Memref sig .tc .vmem S512x4096 .bf16) (harg2 : arg2.IsWhole)
    (arg3 : Memref sig .tc .vmem S256x1 .i32) (harg3 : arg3.IsWhole)
    (arg4 : Memref sig .tc .vmem S256x1 .f32) (harg4 : arg4.IsWhole)
    (arg5 : Memref sig .tc .vmem S256x4096 .f32) (harg5 : arg5.IsWhole)
    (h0 : ¬ isFirst1 i) (h7 : isLast1 i)
    (xs : Vec F S512x4096 .bf16) (xl : Vec F S256x1 .i32) (a : Vec F S256x4096 .f32) (K : PUnit → sProp 𝕄) :
    iprop(owns (c : Thread nD τ) arg2 fullShare xs ∗ owns (c : Thread nD τ) arg3 fullShare xl
        ∗ (∃ d, owns (c : Thread nD τ) arg4 fullShare d) ∗ owns (c : Thread nD τ) arg5 fullShare a
        ∗ (iprop(owns (c : Thread nD τ) arg2 fullShare xs ∗ owns (c : Thread nD τ) arg3 fullShare xl
            ∗ owns (c : Thread nD τ) arg4 fullShare (k1_pay4 xl (k1_pay3 i xl a xs))
            ∗ owns (c : Thread nD τ) arg5 fullShare (k1_pay3 i xl a xs)) -∗ K ⟨⟩))
      ⊢ wp frame (wpE (defs₀ (F := F)) Variants.none c none) E
          (cc1__center_ce_kernel i arg2 harg2 arg3 harg3 arg4 harg4 arg5 harg5) K := by
  simp only [cc1__center_ce_kernel_eq_skeleton]; unfold cc1__center_ce_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := first | exact h0 | exact h7)
  sl_step
  iapply Hk
  sl_unfold_run_names
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.Mem.head _,
        View.mem_set_unit_zero off00 inb_S256x1_S256x1_0_0 y⟩),
      View.canon_cons_unit_zero off00, View.readCov_unit_zero _ off00,
      View.readAt_eq_ld, View.readAt_eq_ld, View.readAt_eq_ld,
      View.ld_unit_zero off00, View.ld_unit_zero off00, View.ld_unit_zero off00]
  iexists _; isplitr
  swap; · iexact H5
  ipureintro
  rw [View.read_writes_eq_canon _ _ _ (fun y => ⟨_, List.Mem.head _,
      View.mem_set_unit_zero off00 inb_S256x4096_S256x4096_0_0 y⟩),
    View.canon_cons_unit_zero off00,
    View.readAt_eq_ld, View.readAt_eq_ld, View.readAt_eq_ld,
    View.ld_unit_zero off00, View.ld_unit_zero off00, View.ld_unit_zero off00]

-- the TensorCore's buffer contents when the region is entered
variable (V : (c : Dev nD) → (b : Ref sig .tc) → Buf (Elt F) ((c : Thread nD τ).loc b))

/-! ## The accumulator, point by point -/

/-- At a first reduction step the accumulator restarts from zeros. -/
theorem accAt1_first (c : Dev nD) (t : Fin cfg1.N) (h : t.val % 8 = 0) :
    accAt1 V c t.val t.isLt = k1_pay3 (grid1.coords t) (lblk1 V c t) (k1_pay1 (F := F)) (sblk1 V c t) := by
  obtain ⟨n, hn⟩ := t
  cases n with
  | zero => rfl
  | succ n =>
    have h' : (n + 1) % 8 = 0 := h
    show k1_pay3 _ _ (if (n + 1) % 8 = 0 then _ else _) _ = _
    rw [if_pos h']

/-- At any other step it continues from what the point before left. -/
theorem accAt1_next (c : Dev nD) (t : Fin cfg1.N) (h : ¬ t.val % 8 = 0) :
    accAt1 V c t.val t.isLt = k1_pay3 (grid1.coords t) (lblk1 V c t)
      (accAt1 V c (t.val - 1) (Nat.lt_of_le_of_lt (Nat.sub_le _ _) t.isLt)) (sblk1 V c t) := by
  obtain ⟨n, hn⟩ := t
  cases n with
  | zero => exact absurd (Nat.zero_mod _) h
  | succ n =>
    have h' : ¬ (n + 1) % 8 = 0 := h
    show k1_pay3 _ _ (if (n + 1) % 8 = 0 then _ else _) _ = _
    rw [if_neg h']; rfl

/-! ## The invariant -/

theorem PhiS1_zero (c : Dev nD) (n : ℕ) (h : n ≤ cfg1.N) (hz : n = 0) : PhiS1 V c n h = Pipeline.ΦA spec1 c := by
  subst hz; rfl

/-- After point n: the scratch at that point's accumulator. -/
theorem PhiS1_succ (c : Dev nD) (n : ℕ) (hn : n < cfg1.N) :
    PhiS1 V c (n + 1) hn = iprop(owns (c : Thread nD τ) scM1 fullShare (accAt1 V c n hn) ∗ restS1 (F := F) c ∗ (∃ r, prngReg c r)) := rfl

/-- Before a point that is not the first: the scratch at what the point before left. -/
theorem PhiS1_pos (c : Dev nD) (n : ℕ) (h : n ≤ cfg1.N) (hz : n ≠ 0) :
    PhiS1 V c n h = iprop(owns (c : Thread nD τ) scM1 fullShare (accAt1 V c (n - 1) (by omega)) ∗ restS1 (F := F) c ∗ (∃ r, prngReg c r)) := by
  cases n with
  | zero => exact absurd rfl hz
  | succ n => rfl

/-- What the launch hands the region, with the scratch split off the core's other scoped buffers: the scoped rest lists
    the seven other buffers first and the scratch last. -/
theorem PhiA1_split (c : Dev nD) :
    (Pipeline.ΦA spec1 c : sProp 𝕄)
      ⊢ iprop((∃ a, owns (c : Thread nD τ) scM1 fullShare a) ∗ restS1 (F := F) c ∗ (∃ r, prngReg c r)) := by
  unfold Pipeline.ΦA restS1; rw [scopedRest1_eq]; simp only [scM1, owns_whole]
  iintro ⟨⟨H1, H2, H3, H4, H5, H6, H7, H8⟩, Hg⟩
  isplitl [H8]; · iexact H8
  isplitr [Hg]
  · isplitl [H1]; · iexact H1
    isplitl [H2]; · iexact H2
    isplitl [H3]; · iexact H3
    isplitl [H4]; · iexact H4
    isplitl [H5]; · iexact H5
    isplitl [H6]; · iexact H6
    iexact H7
  iexact Hg

/-- And put back. -/
theorem PhiA1_join (c : Dev nD) :
    iprop((∃ a, owns (c : Thread nD τ) scM1 fullShare a) ∗ restS1 (F := F) c ∗ (∃ r, prngReg c r))
      ⊢ (Pipeline.ΦA spec1 c : sProp 𝕄) := by
  unfold Pipeline.ΦA restS1; rw [scopedRest1_eq]; simp only [scM1, owns_whole]
  iintro ⟨H8, ⟨H1, H2, H3, H4, H5, H6, H7⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

/-- The invariant at a point's start, restated at t.val. -/
theorem Phi1_castSucc (c : Dev nD) (t : Fin cfg1.N) :
    (dat1 V c).Φ t.castSucc = PhiS1 V c t.val (Nat.le_of_lt t.isLt) := by
  dsimp only [dat1]; simp only [Fin.coe_castSucc]

/-! ## The input windows' buffers

Each input window is uncut and never idle, and the body leaves its block in place: so its current buffer holds its
block at every point, fetched there or not (the label block is fetched only where the row-block coordinate moves). -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The inputs' buffers hold their blocks; the reduction coordinate t % 8 selects the case. The
    invariant hands the body the scratch (at anything before the first point, else at the accumulator of the point
    before) and takes it back at this point's accumulator; off the last reduction step the output buffer goes back as
    found, at the last one it holds the cross-entropy column; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from rfl, after1_0]
  rw [show (dat1 V c).leavesExact 1 t = owns (c : Thread nD τ) (st1_1 t) fullShare ((dat1 V c).after 1 t) from rfl, after1_1]
  rw [Phi1_castSucc V c t]
  by_cases h0 : t.val % 8 = 0
  · -- first reduction step
    have h7 : ¬ t.val % 8 = 7 := by omega
    rw [Dat.leavesExact_idle (dat1 V c) 2 t (idle1_2_of t h7) (noflush1_2_of t h7)]
    rw [accAt1_first V c t h0]
    have hpre : PhiS1 V c t.val (Nat.le_of_lt t.isLt)
        ⊢ iprop((∃ a, owns (c : Thread nD τ) scM1 fullShare a) ∗ restS1 (F := F) c ∗ (∃ r, prngReg c r)) := by
      by_cases hz : t.val = 0
      · rw [PhiS1_zero V c _ _ hz]; exact PhiA1_split c
      · rw [PhiS1_pos V c _ _ hz]
        iintro ⟨HS, Hr, Hg⟩
        isplitl [HS]; · iexists _; iexact HS
        isplitl [Hr]; · iexact Hr
        iexact Hg
    iintro ⟨HΦ, Ho, ⟨%d0, H0⟩, ⟨%d1, H1⟩, ⟨%d2, H2⟩⟩
    ihave HΦ' := hpre $$ HΦ
    icases HΦ' with ⟨HS, Hr, Hg⟩
    iapply (kernel1_first c Set.univ (grid1.coords t) _ _ _ _ _ _ _ _
      ((isFirst1_iff t).mpr h0) (fun h => h7 ((isLast1_iff t).mp h)) (sblk1 V c t) (lblk1 V c t) _)
    isplitl [H0]; · iexact H0
    isplitl [H1]; · iexact H1
    isplitl [HS]; · iexact HS
    iintro ⟨H0, H1, HS⟩
    isplitl [HS Hr Hg]
    · isplitl [HS]; · iexact HS
      isplitl [Hr]; · iexact Hr
      iexact Hg
    isplitl [Ho]; · iexact Ho
    isplitl [H0]; · iexact H0
    isplitl [H1]; · iexact H1
    iexists _; iexact H2
  · have hz : t.val ≠ 0 := fun e => h0 (by rw [e])
    rw [PhiS1_pos V c _ _ hz, accAt1_next V c t h0]
    by_cases h7 : t.val % 8 = 7
    · -- the last reduction step
      rw [show (dat1 V c).leavesExact 2 t = owns (c : Thread nD τ) (st1_2 t) fullShare ((dat1 V c).after 2 t) from by
        unfold Dat.leavesExact; rw [live1_2_of t h7], after1_2]
      unfold ceAt1
      rw [accAt1_next V c t h0]
      iintro ⟨⟨HS, Hr, Hg⟩, Ho, ⟨%d0, H0⟩, ⟨%d1, H1⟩, ⟨%d2, H2⟩⟩
      iapply (kernel1_last c Set.univ (grid1.coords t) _ _ _ _ _ _ _ _
        (fun h => h0 ((isFirst1_iff t).mp h)) ((isLast1_iff t).mpr h7) (sblk1 V c t) (lblk1 V c t) _ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
    · -- a middle reduction step
      rw [Dat.leavesExact_idle (dat1 V c) 2 t (idle1_2_of t h7) (noflush1_2_of t h7)]
      iintro ⟨⟨HS, Hr, Hg⟩, Ho, ⟨%d0, H0⟩, ⟨%d1, H1⟩, ⟨%d2, H2⟩⟩
      iapply (kernel1_mid c Set.univ (grid1.coords t) _ _ _ _ _ _ _ _
        (fun h => h0 ((isFirst1_iff t).mp h)) (fun h => h7 ((isLast1_iff t).mp h)) (sblk1 V c t) (lblk1 V c t) _ _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives it back: the scratch's named contents are forgotten. -/
theorem hout1 (c : Dev nD) : (dat1 V c).Φ (Fin.last cfg1.N) ⊢ Pipeline.ΦA spec1 c := by
  have hz : (Fin.last cfg1.N).val ≠ 0 := by
    rw [Fin.val_last]; have : cfg1.N = 256 := N_1; omega
  rw [show (dat1 V c).Φ (Fin.last cfg1.N) = PhiS1 V c (Fin.last cfg1.N).val (Nat.le_of_lt_succ (Fin.last cfg1.N).isLt) from rfl,
    PhiS1_pos V c _ _ hz]
  iintro ⟨HS, Hr, Hg⟩
  iapply (PhiA1_join c)
  isplitl [HS]; · iexists _; iexact HS
  isplitl [Hr]; · iexact Hr
  iexact Hg

end Cert.KernelIdeal.Hand

end
-- ==== Proof.LibMatmulPlain.lean ====
/-
  A plain matrix product on the extended reals, read at an entry.

  The dimension record of an M×K by K×N product (contract the left operand's axis 1 with the right operand's
  axis 0, no batch axis) is, whatever its well-formedness proof, the library's `DotDims.plain M K N`. At the ideal
  instance such a product into a zero accumulator is, at entry (i, j), the finite sum over q of l[i, q] · r[q, j]; with
  the right operand given as the transpose of an N×K matrix w, the sum over q of l[i, q] · w[j, q].
  The contraction index of the record is re-indexed to `Fin K` through the library's one-axis equivalence, and each
  operand index is identified coordinate by coordinate.
-/
import Idealize.ShloMosaic.PureOps.Ideal.Laws
import Idealize.ShloMosaic.Lib.ValueIdx
import Idealize.ShloMosaic.Lib.ValueLayout

namespace Cert.LibMatmulPlain

open Idealize.ShloMosaic Idealize.ShloMosaic.ValueIdx
open scoped BigOperators

variable {M K N : ℕ}

/-- The left operand's row coordinate is the result's row coordinate. -/
theorem lhs_plain_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contraction index. -/
theorem lhs_plain_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction index. -/
theorem rhs_plain_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_plain_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- Entry (i, j) of l·r, accumulated into zero: the sum over q of l[i, q] · r[q, j]. -/
theorem matmul_plain_apply {φ₁ φ₂ : FTy} (l : FVec Ideal ⟨2, ![M, K]⟩ φ₁) (r : FVec Ideal ⟨2, ![K, N]⟩ φ₂) (i : Fin M) (j : Fin N) :
    matmul (DotDims.plain M K N) none l r (constant ⟨2, ![M, N]⟩ .f32 0x00000000#32) (ix2 i j)
      = ∑ q : Fin K, l (ix2 i q) * r (ix2 q j) := by
  simp only [matmul]
  rw [Ideal.matmul_constant_zero_apply, ← Equiv.sum_comp (contrEquiv1 (DotDims.plain M K N) K rfl rfl).symm]
  refine Finset.sum_congr rfl fun q _ => ?_
  have hq := contrEquiv1_symm_val (DotDims.plain M K N) K rfl rfl q
  have el : (DotDims.plain M K N).lhsIdx (ix2 i j) ((contrEquiv1 (DotDims.plain M K N) K rfl rfl).symm q) = ix2 i q :=
    funext fun a => Fin.ext (by
      match a with
      | ⟨0, _⟩ => exact lhs_plain_0 _ _
      | ⟨1, _⟩ => exact (lhs_plain_1 _ _).trans hq)
  have er : (DotDims.plain M K N).rhsIdx (ix2 i j) ((contrEquiv1 (DotDims.plain M K N) K rfl rfl).symm q) = ix2 q j :=
    funext fun a => Fin.ext (by
      match a with
      | ⟨0, _⟩ => exact (rhs_plain_0 _ _).trans hq
      | ⟨1, _⟩ => exact rhs_plain_1 _ _)
  rw [el, er]

/-- Entry (i, j) of l·wᵀ for an N×K matrix w: the sum over q of l[i, q] · w[j, q]. -/
theorem matmul_plain_transpose_apply {φ₁ φ₂ : FTy} (l : FVec Ideal ⟨2, ![M, K]⟩ φ₁) (w : FVec Ideal ⟨2, ![N, K]⟩ φ₂)
    (h : (⟨2, ![N, K]⟩ : Shape).Transposes [1, 0] ⟨2, ![K, N]⟩) (i : Fin M) (j : Fin N) :
    matmul (DotDims.plain M K N) none l (transpose ⟨2, ![K, N]⟩ [1, 0] w h) (constant ⟨2, ![M, N]⟩ .f32 0x00000000#32) (ix2 i j)
      = ∑ q : Fin K, l (ix2 i q) * w (ix2 j q) := by
  rw [matmul_plain_apply]
  exact Finset.sum_congr rfl fun q _ => by rw [transpose_ix2_apply]

end Cert.LibMatmulPlain
-- ==== Proof.LibKeepdims.lean ====
/-
  A reduced axis kept as a unit axis, read by coordinates: the two layout steps that carry a per-row quantity
  (a row's maximum, a row's sum) back over the row.

  * an [a] vector cast to a column [a, 1] reads, at (i, u), the vector at i (the unit coordinate u is 0);
  * a column [a, 1] broadcast along its unit axis to [a, b] reads, at (i, j), the column at (i, 0).

  Both are the library's general reading lemmas (a cast keeps the row-major position; a broadcast reads 0 on a unit
  axis) instantiated at these small shapes, with every index written by its coordinates.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.R0Value.lean ====
/- Region 0 (the class-sum kernel), its value: what the output array [4096, 4096] holds after the last write-back, as one
   closed function of the arrays the region finds at entry. Entry (c, j) is the sum, over the 8192 rows i whose class id is c,
   of the feature feat i j.

   The road: the update of one grid point read at an entry (the accumulator plus the one-hot block times the feature
   block, a sum over the 1024 rows of the block); the accumulator after each point of a run of 8 points by induction (a
   partial sum over the blocks met so far); each input block read where the point's coordinates say; the run's last point
   holds the whole sum over 8 x 1024 = 8192 rows, which is the output block of the closed function; the 16 output
   blocks cover the array. -/
import proofs.«418073_j77309412134_1_alg».proof.Proof.R0Defs
import proofs.«418073_j77309412134_1_alg».proof.Proof.LibMatmulPlain
import proofs.«418073_j77309412134_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Intervals
import Mathlib.Algebra.BigOperators.Fin

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal.Gen
open scoped BigOperators

/-! ## Words: the class id of a row of the block, and the comparison with a label word -/

/-- The class id the kernel forms for row `p` of row block `m`: the word of `1024 m + p` (no overflow: below 4096). -/
theorem classWord_eq (m p : ℕ) (hm : m < 4) (hp : p < 1024) :
    IntOp.addi (Scalar.muli (BitVec.ofNat 32 m) 1024#32) (BitVec.ofNat 32 p) = BitVec.ofNat 32 (1024 * m + p) := by
  apply BitVec.eq_of_toNat_eq
  show ((BitVec.ofNat 32 m * 1024#32) + BitVec.ofNat 32 p).toNat = _
  rw [BitVec.toNat_add, BitVec.toNat_mul, BitVec.toNat_ofNat, BitVec.toNat_ofNat, BitVec.toNat_ofNat, BitVec.toNat_ofNat]
  omega

/-- The one-hot entry: the comparison of the class word with a label word, widened and converted, is 1 when the label is
    that class and 0 otherwise. -/
theorem onehot_word (n : ℕ) (hn : n < 4096) (w : BitVec 32) :
    (FloatOps.sitofp (F := Ideal) .f32 ((IntOp.cmpi .eq (BitVec.ofNat 32 n) w).setWidth 32) : EReal)
      = if w.toNat = n then 1 else 0 := by
  show (((((IntOp.cmpi .eq (BitVec.ofNat 32 n) w).setWidth 32).toInt : ℤ) : ℝ) : EReal) = _
  by_cases h : w.toNat = n
  · have hw : BitVec.ofNat 32 n = w := by
      apply BitVec.eq_of_toNat_eq
      rw [BitVec.toNat_ofNat, h]; omega
    rw [if_pos h, hw]
    have : (IntOp.cmpi .eq w w).setWidth 32 = 1#32 := by
      show (BitVec.ofBool (w == w)).setWidth 32 = 1#32
      rw [beq_self_eq_true]; rfl
    rw [this]
    show (((1 : ℤ) : ℝ) : EReal) = 1
    simp
  · have hw : ¬ BitVec.ofNat 32 n = w := by
      intro e; apply h; rw [← e, BitVec.toNat_ofNat]; omega
    rw [if_neg h]
    have : (IntOp.cmpi .eq (BitVec.ofNat 32 n) w).setWidth 32 = 0#32 := by
      show (BitVec.ofBool (BitVec.ofNat 32 n == w)).setWidth 32 = 0#32
      rw [beq_eq_false_iff_ne.mpr hw]; rfl
    rw [this]
    show (((0 : ℤ) : ℝ) : EReal) = 0
    simp

/-! ## The update of one grid point, read at an entry -/

/-- The zero the accumulator is reset to. -/
theorem pay1_apply (j : S1024x1024.Idx) : k0_pay1 (F := Ideal) j = 0 := by
  unfold k0_pay1
  simp only [shapeCast_self]
  show Ideal.ofBits .f32 0x00000000#32 = 0
  exact Ideal.ofBits_zero_f32

/-- The matrix product's dimension record is the plain 1024 x 1024 by 1024 x 1024 one. -/
theorem dot_eq_plain : dot_S1024x1024_S1024x1024_S1024x1024_1_0_0_1_n_n = DotDims.plain 1024 1024 1024 := rfl

/-- The update at entry (p, q): the accumulator there plus the sum, over the rows r of the feature block whose label is
    class 1024 m + p (m the point's first coordinate), of the feature block's entry (r, q). -/
theorem pay2_apply (i : grid0.Coords) (l : Vec Ideal S1x1024 .i32) (x : Vec Ideal S1024x1024 .f32)
    (acc : Vec Ideal S1024x1024 .f32) (p q : Fin 1024) :
    k0_pay2 (F := Ideal) i l x acc (ix2 p q)
      = acc (ix2 p q) + ∑ r : Fin 1024, if (l (ix2 (0 : Fin 1) r) : BitVec 32).toNat = 1024 * (i 0).val + p.val then x (ix2 r q) else 0 := by
  unfold k0_pay2
  simp only [shapeCast_self]
  rw [addf_apply, dot_eq_plain]
  refine congrArg (acc (ix2 p q) + ·) ?_
  refine (Cert.LibMatmulPlain.matmul_plain_apply _ _ p q).trans ?_
  refine Finset.sum_congr rfl fun r _ => ?_
  rw [truncf_apply, truncf_apply, sitofp_apply, extui_apply]
  show FloatOps.sitofp (F := Ideal) .f32 ((IntOp.cmpi .eq
      (broadcastTo S1024x1024 (addi (broadcast S1024x1 (Scalar.muli (BitVec.ofNat 32 (i 0).val) 1024#32))
        (iota .tc S1024x1 32 [0] iota_S1024x1_d0_w32)) broadcasts_S1024x1_S1024x1024 (ix2 p r))
      (broadcastTo S1024x1024 l broadcasts_S1x1024_S1024x1024 (ix2 p r))).setWidth 32) * x (ix2 r q) = _
  rw [Cert.LibKeepdims.broadcastTo_a1_ab_apply, broadcastTo_1b_ab_apply]
  show FloatOps.sitofp (F := Ideal) .f32 ((IntOp.cmpi .eq
      (IntOp.addi (Scalar.muli (BitVec.ofNat 32 (i 0).val) 1024#32) (iota .tc S1024x1 32 [0] iota_S1024x1_d0_w32 (ix2 p (0 : Fin 1))))
      (l (ix2 (0 : Fin 1) r))).setWidth 32) * x (ix2 r q) = _
  rw [iota_single_apply]
  show FloatOps.sitofp (F := Ideal) .f32 ((IntOp.cmpi .eq
      (IntOp.addi (Scalar.muli (BitVec.ofNat 32 (i 0).val) 1024#32) (BitVec.ofNat 32 p.val))
      (l (ix2 (0 : Fin 1) r))).setWidth 32) * x (ix2 r q) = _
  have hm : (i 0).val < 4 := (i 0).isLt
  rw [classWord_eq _ _ hm p.isLt, onehot_word _ (by omega)]
  split
  · exact one_mul _
  · exact zero_mul _

/-! ## The grid: coordinates and block indices, decided once over the 128 points -/

/-- Point t = 32 m + 8 n + k has first coordinate m = t / 32; the feature window is at block (k, n), the label window at
    block (0, k), the output window at block (m, n). -/
theorem grid_facts0 : ∀ t : Fin cfg0.N,
    ((grid0.coords t) 0).val = t.val / 32
    ∧ win0_0.index t (0 : Fin 2) = t.val % 8 ∧ win0_0.index t (1 : Fin 2) = t.val / 8 % 4
    ∧ win0_1.index t (0 : Fin 2) = 0 ∧ win0_1.index t (1 : Fin 2) = t.val % 8
    ∧ win0_2.index t (0 : Fin 2) = t.val / 32 ∧ win0_2.index t (1 : Fin 2) = t.val / 8 % 4 :=
  (by decide +kernel : ∀ t : Fin grid0.N, _)

/-! ## The arrays the region finds, over the naturals -/

variable (V : (c : Dev nD) → (b : Ref sig .tc) → Buf (Elt Ideal) ((c : Thread nD τ).loc b))

/-- The feature array and the label row as the region finds them, at their literal types. -/
abbrev feat0 (c : Dev nD) : S8192x4096.Idx → EReal := V c main_arg0
abbrev lab0 (c : Dev nD) : S1x8192.Idx → BitVec 32 := V c main_v0

/-- The feature at row a, column b (zero outside the array), and the class id of row a (zero outside the row). -/
def featN (c : Dev nD) (a b : ℕ) : EReal := if h : a < 8192 ∧ b < 4096 then feat0 V c (ix2 ⟨a, h.1⟩ ⟨b, h.2⟩) else 0
def labN (c : Dev nD) (a : ℕ) : ℕ := if h : a < 8192 then (lab0 V c (ix2 (0 : Fin 1) ⟨a, h⟩)).toNat else 0

/-- The feature block of point t = (m, n, k), entry (r, q): the feature at row 1024 k + r, column 1024 n + q. -/
theorem xblk0_apply (c : Dev nD) (t : Fin cfg0.N) (r q : Fin 1024) :
    xblk0 V c t (ix2 r q) = featN V c (1024 * (t.val % 8) + r.val) (1024 * (t.val / 8 % 4) + q.val) := by
  obtain ⟨-, e0, e1, -, -, -, -⟩ := grid_facts0 t
  have hr := r.isLt
  have hq := q.isLt
  have h8 : t.val % 8 < 8 := Nat.mod_lt _ (by decide)
  have h4 : t.val / 8 % 4 < 4 := Nat.mod_lt _ (by decide)
  unfold featN
  rw [dif_pos ⟨by omega, by omega⟩]
  show iblk0 V c 0 t (ix2 r q) = _
  unfold iblk0
  rw [View.read_apply]
  show V c main_arg0 _ = V c main_arg0 _
  congr 1
  funext a
  apply Fin.ext
  match a with
  | ⟨0, _⟩ => show win0_0.index t (0 : Fin 2) * 1024 + 1 * r.val = 1024 * (t.val % 8) + r.val; rw [e0]; omega
  | ⟨1, _⟩ => show win0_0.index t (1 : Fin 2) * 1024 + 1 * q.val = 1024 * (t.val / 8 % 4) + q.val; rw [e1]; omega

/-- The label block of point t = (m, n, k), entry r: the class id of row 1024 k + r. -/
theorem lblk0_apply (c : Dev nD) (t : Fin cfg0.N) (r : Fin 1024) :
    (lblk0 V c t (ix2 (0 : Fin 1) r) : BitVec 32).toNat = labN V c (1024 * (t.val % 8) + r.val) := by
  obtain ⟨-, -, -, e0, e1, -, -⟩ := grid_facts0 t
  have hr := r.isLt
  have h8 : t.val % 8 < 8 := Nat.mod_lt _ (by decide)
  unfold labN
  rw [dif_pos (by omega)]
  refine congrArg BitVec.toNat ?_
  show iblk0 V c 1 t (ix2 (0 : Fin 1) r) = _
  unfold iblk0
  rw [View.read_apply]
  show V c main_v0 _ = V c main_v0 _
  congr 1
  funext a
  apply Fin.ext
  match a with
  | ⟨0, _⟩ => show win0_1.index t (0 : Fin 2) * 1 + 1 * 0 = 0; rw [e0]
  | ⟨1, _⟩ => show win0_1.index t (1 : Fin 2) * 1024 + 1 * r.val = 1024 * (t.val % 8) + r.val; rw [e1]; omega

/-! ## The accumulator over a run of 8 points -/

/-- One block's contribution to class `cls`, column `col`: the rows 1024 k .. 1024 k + 1023 of that class. -/
def blockSum (c : Dev nD) (cls col k : ℕ) : EReal :=
  ∑ r ∈ Finset.range 1024, if labN V c (1024 * k + r) = cls then featN V c (1024 * k + r) col else 0

/-- The update at point t = (m, n, k) adds block k's contribution to class 1024 m + p, column 1024 n + q. -/
theorem step_sum (c : Dev nD) (t : Fin cfg0.N) (acc : Vec Ideal S1024x1024 .f32) (p q : Fin 1024) :
    k0_pay2 (F := Ideal) (grid0.coords t) (lblk0 V c t) (xblk0 V c t) acc (ix2 p q)
      = acc (ix2 p q) + blockSum V c (1024 * (t.val / 32) + p.val) (1024 * (t.val / 8 % 4) + q.val) (t.val % 8) := by
  rw [pay2_apply]
  obtain ⟨g0, -⟩ := grid_facts0 t
  refine congrArg (acc (ix2 p q) + ·) ?_
  unfold blockSum
  rw [Finset.sum_range]
  refine Finset.sum_congr rfl fun r _ => ?_
  rw [lblk0_apply, xblk0_apply, g0]

/-- The accumulator at the first point of a run: the update of zero. -/
theorem accV0_first (c : Dev nD) (n : ℕ) (hn : n < cfg0.N) (h0 : n % 8 = 0) :
    accAt0 V c n hn = k0_pay2 (grid0.coords ⟨n, hn⟩) (lblk0 V c ⟨n, hn⟩) (xblk0 V c ⟨n, hn⟩) (k0_pay1 (F := Ideal)) := by
  cases n with
  | zero => rw [accAt0]
  | succ n => rw [accAt0, if_pos h0]

/-- The accumulator at a later point of a run: the update of what the point before left. -/
theorem accV0_next (c : Dev nD) (n : ℕ) (hn : n + 1 < cfg0.N) (h0 : (n + 1) % 8 ≠ 0) :
    accAt0 V c (n + 1) hn = k0_pay2 (grid0.coords ⟨n + 1, hn⟩) (lblk0 V c ⟨n + 1, hn⟩) (xblk0 V c ⟨n + 1, hn⟩)
      (accAt0 V c n (Nat.lt_of_succ_lt hn)) := by
  rw [accAt0, if_neg h0]

/-- After point n = 32 m + 8 n' + k the accumulator's entry (p, q) is the partial sum over the blocks 0 .. k. -/
theorem accAt0_apply (c : Dev nD) (n : ℕ) (hn : n < cfg0.N) (p q : Fin 1024) :
    accAt0 V c n hn (ix2 p q)
      = ∑ k ∈ Finset.range (n % 8 + 1), blockSum V c (1024 * (n / 32) + p.val) (1024 * (n / 8 % 4) + q.val) k := by
  induction n with
  | zero =>
    rw [accV0_first V c 0 hn rfl, step_sum, pay1_apply, zero_add]
    show blockSum V c (1024 * (0 / 32) + p.val) (1024 * (0 / 8 % 4) + q.val) (0 % 8) = _
    rw [show 0 % 8 + 1 = 1 from rfl, Finset.sum_range_one]
  | succ n ih =>
    by_cases h0 : (n + 1) % 8 = 0
    · rw [accV0_first V c (n + 1) hn h0, step_sum, pay1_apply, zero_add]
      show blockSum V c (1024 * ((n + 1) / 32) + p.val) (1024 * ((n + 1) / 8 % 4) + q.val) ((n + 1) % 8) = _
      rw [h0, Finset.sum_range_one]
    · rw [accV0_next V c n hn h0, step_sum, ih]
      have e1 : (n + 1) / 32 = n / 32 := by omega
      have e2 : (n + 1) / 8 % 4 = n / 8 % 4 := by omega
      have e3 : (n + 1) % 8 = n % 8 + 1 := by omega
      show _ + blockSum V c (1024 * ((n + 1) / 32) + p.val) (1024 * ((n + 1) / 8 % 4) + q.val) ((n + 1) % 8) = _
      rw [e1, e2, e3, Finset.sum_range_succ _ (n % 8 + 1)]

/-! ## The closed function, and a run's last point -/

/-- 8 blocks of 1024 rows are the 8192 rows. -/
theorem sum_blocks (f : ℕ → EReal) (K : ℕ) :
    ∑ k ∈ Finset.range K, ∑ r ∈ Finset.range 1024, f (1024 * k + r) = ∑ i ∈ Finset.range (1024 * K), f i := by
  induction K with
  | zero => simp
  | succ K ih => rw [Finset.sum_range_succ, ih, Nat.mul_succ, Finset.sum_range_add]

/-- What the output array ends holding: entry (cls, j) is the sum of the features feat i j over the rows i of class cls. -/
def G0 (c : Dev nD) : S4096x4096.Idx → EReal := fun idx =>
  ∑ i : Fin 8192, if (lab0 V c (ix2 (0 : Fin 1) i)).toNat = (idx 0).val then feat0 V c (ix2 i (idx 1)) else 0

/-- The closed function as a sum over the naturals below 8192. -/
theorem G0_eq_range (c : Dev nD) (idx : S4096x4096.Idx) :
    G0 V c idx = ∑ i ∈ Finset.range 8192, if labN V c i = (idx 0).val then featN V c i (idx 1).val else 0 := by
  rw [Finset.sum_range]
  unfold G0
  refine Finset.sum_congr rfl fun i _ => ?_
  unfold labN featN
  rw [dif_pos i.isLt, dif_pos ⟨i.isLt, (idx 1).isLt⟩]
  rfl

/-- WHAT A RUN'S LAST POINT WRITES BACK is its block of the closed function: the accumulator then holds the sum over all
    8 blocks, that is over all 8192 rows, at class 1024 m + p and column 1024 n + q, which is where the output block
    (m, n) sits in the array. -/
theorem flushed0_eq (c : Dev nD) (t : Fin cfg0.N) (hf : (cfg0.win 2).flush t = true) :
    (dat0 V c).flushed 2 t = ((cfg0.win 2).blk t).view.read (Elt Ideal) (G0 V c) := by
  have h7 : t.val % 8 = 7 := (flush0_2 t).mp hf
  obtain ⟨-, -, -, -, -, o0, o1⟩ := grid_facts0 t
  show (cfg0.win 2).cut (grid0.coords t) ((dat0 V c).after 2 t) = _
  rw [after0_2]
  funext j
  obtain ⟨p, q, rfl⟩ : ∃ p q : Fin 1024, j = ix2 p q := ⟨j 0, j 1, eq_ix2 (n0 := 1024) (n1 := 1024) j⟩
  rw [View.read_apply]
  show accAt0 V c t.val t.isLt (ix2 p q) = G0 V c (((cfg0.win 2).blk t).view.emb (ix2 p q))
  rw [accAt0_apply, G0_eq_range, h7]
  have e0 : ((((cfg0.win 2).blk t).view.emb (ix2 p q)) 0).val = 1024 * (t.val / 32) + p.val := by
    show win0_2.index t (0 : Fin 2) * 1024 + 1 * p.val = _
    rw [o0]; omega
  have e1 : ((((cfg0.win 2).blk t).view.emb (ix2 p q)) 1).val = 1024 * (t.val / 8 % 4) + q.val := by
    show win0_2.index t (1 : Fin 2) * 1024 + 1 * q.val = _
    rw [o1]; omega
  rw [e0, e1]
  unfold blockSum
  exact sum_blocks (fun i => if labN V c i = 1024 * (t.val / 32) + p.val then featN V c i (1024 * (t.val / 8 % 4) + q.val) else 0) 8

/-! ## The 16 output blocks cover the array -/

/-- Entry (r, j) of the array is in the block of the last point of run (r / 1024, j / 1024). -/
theorem cover0 (i : S4096x4096.Idx) :
    ∃ t : Fin cfg0.N, (cfg0.win 2).flush t = true ∧ i ∈ ((cfg0.win 2).blk t).view.set := by
  have h0 : (i 0).val < 4096 := (i 0).isLt
  have h1 : (i 1).val < 4096 := (i 1).isLt
  have hN : cfg0.N = 128 := N_0
  obtain ⟨t, tv⟩ : ∃ t : Fin cfg0.N, t.val = 32 * ((i 0).val / 1024) + 8 * ((i 1).val / 1024) + 7 :=
    ⟨⟨32 * ((i 0).val / 1024) + 8 * ((i 1).val / 1024) + 7, by rw [hN]; omega⟩, rfl⟩
  obtain ⟨-, -, -, -, -, o0, o1⟩ := grid_facts0 t
  refine ⟨t, (flush0_2 t).mpr (by rw [tv]; omega), ?_⟩
  show i ∈ ((View.whole main_v2).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    rw [o0, tv]; omega
  | ⟨1, _⟩ =>
    show win0_2.index t (1 : Fin 2) * 1024 ≤ (i 1).val ∧ (i 1).val < win0_2.index t (1 : Fin 2) * 1024 + 1024
    rw [o1, tv]; omega

/-! ## The array after the run -/

/-- THE OUTPUT ARRAY after the last write-back: entry (cls, j) is the sum, over the rows i whose class id is cls, of the
    feature feat i j. -/
theorem arr0_eq (c : Dev nD) :
    ((dat0 V c).arrAt 2 cfg0.N : S4096x4096.Idx → EReal)
      = fun idx => (∑ i : Fin 8192, if ((V c main_v0 : S1x8192.Idx → BitVec 32) (ix2 (0 : Fin 1) i)).toNat = (idx 0).val
          then (V c main_arg0 : S8192x4096.Idx → EReal) (ix2 i (idx 1)) else 0 : EReal) :=
  (dat0 V c).arrAt_eq_of_cover 2 (G0 V c) (flushed0_eq V c) cover0

end Cert.KernelIdeal.Hand

end
-- ==== Proof.Spec.lean ====
/- The mathematics both programs compute, over the extended reals.

   Inputs: a feature matrix  feat : 8192 x 4096  and a class id  lab i  for each of the 8192 rows.
   * sums c j  : the sum of feat i j over the rows i of class c;   cnt c : the number of rows of class c;
   * mean c j  : sums c j / (cnt c, or 1 where the class is empty)      -- the kernel's table of class means
   * center i j: sums (lab i) j / cnt (lab i)                          -- the reference's centre of row i
   * logp row j: (row j - max row) - log (sum_k exp (row k - max row))  -- a row's log-softmax
   * pick row l: the entry of logp row at class l, written as a sum against the indicator of column l
   The kernel returns   ((sum_i (0 - pick (centre_i) (lab i))) / 8192) / 2048   with centre_i read through the one-hot
   product with the table of means; the reference returns   (-((sum_i pick (center i) (lab i)) / 8192)) / 2048 . -/
import Idealize.ShloMosaic.PureOps.Ideal
import Mathlib.Data.EReal.Basic
import Mathlib.Data.EReal.Operations
import Mathlib.Algebra.BigOperators.Fin
import Mathlib.Algebra.BigOperators.Ring.Finset
import Mathlib.Data.Finset.Fold

noncomputable section

namespace Cert.Spec

open Idealize.ShloMosaic

variable (feat : Fin 8192 → Fin 4096 → EReal) (lab : Fin 8192 → ℕ)

/-- The sum of the rows of class `c`, column `j`. -/
def sums (c : ℕ) (j : Fin 4096) : EReal := ∑ i : Fin 8192, if lab i = c then feat i j else 0

/-- The number of rows of class `c`. -/
def cnt (c : ℕ) : EReal := ∑ i : Fin 8192, if lab i = c then (1 : EReal) else 0

/-- The table of class means, an empty class divided by one. -/
def mean (c : ℕ) (j : Fin 4096) : EReal := Ideal.div (sums feat lab c j) (if cnt lab c = 0 then 1 else cnt lab c)

/-- Row `i`'s centre: the mean of the rows of its class. -/
def center (i : Fin 8192) (j : Fin 4096) : EReal := Ideal.div (sums feat lab (lab i) j) (cnt lab (lab i))

/-- Row `i`'s centre as the kernel reads it: the one-hot row of `lab i` against the table of means. -/
def centerK (i : Fin 8192) (j : Fin 4096) : EReal := ∑ c : Fin 4096, (if lab i = c.val then (1 : EReal) else 0) * mean feat lab c.val j

/-- A row's maximum, from -∞. -/
def rowMax (row : Fin 4096 → EReal) : EReal := (Finset.univ : Finset (Fin 4096)).fold max ⊥ row

/-- A row's log-softmax. -/
def logp (row : Fin 4096 → EReal) (j : Fin 4096) : EReal :=
  (row j - rowMax row) - Ideal.log (∑ k : Fin 4096, Ideal.exp (row k - rowMax row))

/-- The log-softmax entry at class `l`, as the sum of the row against the indicator of column `l`. -/
def pick (row : Fin 4096 → EReal) (l : ℕ) : EReal := ∑ j : Fin 4096, if j.val = l then logp row j else 0

/-- The kernel's result. -/
def lossK : EReal :=
  Ideal.div (Ideal.div (∑ i : Fin 8192, (0 - pick (centerK feat lab i) (lab i))) ((8192 : ℝ) : EReal)) ((2048 : ℝ) : EReal)

/-- The reference's result. -/
def lossR : EReal :=
  Ideal.div (-(Ideal.div (∑ i : Fin 8192, pick (center feat lab i) (lab i)) ((8192 : ℝ) : EReal))) ((2048 : ℝ) : EReal)

variable {feat lab}

/-! ### Extended-real facts used below -/

/-- If `a ≤ m` then `a - m` is never `+∞`: at `a = +∞` the bound forces `m = +∞` and `+∞ + -∞ = -∞`;
    at `m = -∞` the bound forces `a = -∞`; elsewhere neither summand of `a + -m` is `+∞`. -/
theorem sub_ne_top_of_le {a m : EReal} (h : a ≤ m) : a - m ≠ ⊤ := by
  rw [sub_eq_add_neg]
  by_cases ha : a = ⊤
  · have hm : m = ⊤ := top_le_iff.mp (ha ▸ h)
    rw [hm, EReal.neg_top, EReal.add_bot]
    exact bot_ne_top
  · by_cases hm : m = ⊥
    · have ha' : a = ⊥ := le_bot_iff.mp (hm ▸ h)
      rw [ha', EReal.bot_add]
      exact bot_ne_top
    · exact EReal.add_ne_top ha (fun h' => hm (EReal.neg_eq_top_iff.mp h'))

/-- The exponential is nonnegative at every extended real. -/
theorem exp_nonneg (x : EReal) : 0 ≤ Ideal.exp x := by
  induction x with
  | bot => rw [Ideal.exp_bot]
  | coe r => rw [Ideal.exp_coe]; exact EReal.coe_nonneg.mpr (Real.exp_nonneg r)
  | top => rw [Ideal.exp_top]; exact le_top

/-- The exponential vanishes only at `-∞`. -/
theorem eq_bot_of_exp_eq_zero {x : EReal} (h : Ideal.exp x = 0) : x = ⊥ := by
  induction x with
  | bot => rfl
  | coe r =>
    rw [Ideal.exp_coe] at h
    exact absurd (EReal.coe_eq_zero.mp h) (Real.exp_ne_zero r)
  | top =>
    rw [Ideal.exp_top] at h
    exact absurd h EReal.top_ne_zero

/-- On the nonnegative extended reals the logarithm is `-∞` only at `0`. -/
theorem eq_zero_of_log_eq_bot {x : EReal} (h0 : 0 ≤ x) (h : Ideal.log x = ⊥) : x = 0 := by
  induction x with
  | bot => exact absurd h0 (not_le.mpr EReal.bot_lt_zero)
  | coe r =>
    rw [Ideal.log_coe] at h
    split_ifs at h with hr
    · have hr0 : (0 : ℝ) ≤ r := EReal.coe_nonneg.mp h0
      rw [le_antisymm hr hr0, EReal.coe_zero]
    · exact absurd h (EReal.coe_ne_bot _)
  | top =>
    rw [Ideal.log_top] at h
    exact absurd h.symm bot_ne_top

/-- A finite sum of extended reals none of which is `+∞` is not `+∞`. -/
theorem sum_ne_top {ι : Type*} (s : Finset ι) (f : ι → EReal) (h : ∀ i ∈ s, f i ≠ ⊤) :
    ∑ i ∈ s, f i ≠ ⊤ := by
  classical
  induction s using Finset.induction_on with
  | empty => rw [Finset.sum_empty]; exact EReal.zero_ne_top
  | insert a s ha ih =>
    rw [Finset.sum_insert ha]
    exact EReal.add_ne_top (h a (Finset.mem_insert_self a s))
      (ih (fun i hi => h i (Finset.mem_insert_of_mem hi)))

/-- Negation passes through a finite sum of extended reals none of which is `+∞`: at each step
    `-(x + y) = -x + -y` holds because neither `x` nor the partial sum `y` is `+∞`. -/
theorem sum_neg_of_ne_top {ι : Type*} (s : Finset ι) (f : ι → EReal) (h : ∀ i ∈ s, f i ≠ ⊤) :
    ∑ i ∈ s, -f i = -(∑ i ∈ s, f i) := by
  classical
  induction s using Finset.induction_on with
  | empty => rw [Finset.sum_empty, Finset.sum_empty, neg_zero]
  | insert a s ha ih =>
    have hs : ∀ i ∈ s, f i ≠ ⊤ := fun i hi => h i (Finset.mem_insert_of_mem hi)
    rw [Finset.sum_insert ha, Finset.sum_insert ha, ih hs,
      EReal.neg_add (Or.inr (sum_ne_top s f hs)) (Or.inl (h a (Finset.mem_insert_self a s))),
      sub_eq_add_neg]

/-- Every entry of a row is at most the row's maximum. -/
theorem le_rowMax (row : Fin 4096 → EReal) (j : Fin 4096) : row j ≤ rowMax row :=
  (Finset.le_fold_max (row j)).mpr (Or.inr ⟨j, Finset.mem_univ j, le_refl _⟩)

/-! ### The five facts -/

/-- The indicator sum picks the entry. -/
theorem pick_eq (row : Fin 4096 → EReal) (l : ℕ) (h : l < 4096) : pick row l = logp row ⟨l, h⟩ := by
  unfold pick
  rw [Finset.sum_eq_single (⟨l, h⟩ : Fin 4096)]
  · rw [if_pos rfl]
  · intro j _ hj
    rw [if_neg]
    intro hjl
    exact hj (Fin.ext hjl)
  · intro hn
    exact absurd (Finset.mem_univ _) hn

/-- A class that has a row is not empty. -/
theorem cnt_ne_zero (i : Fin 8192) : cnt lab (lab i) ≠ 0 := by
  -- the sum of the 0/1 indicators is at least its term at `i`, which is 1
  have h1 : (1 : EReal) ≤ cnt lab (lab i) := by
    have hle := Finset.single_le_sum
      (f := fun i' : Fin 8192 => if lab i' = lab i then (1 : EReal) else 0) (s := Finset.univ)
      (fun k _ => by
        show (0 : EReal) ≤ if lab k = lab i then (1 : EReal) else 0
        split_ifs
        · exact zero_le_one
        · exact le_refl _)
      (Finset.mem_univ i)
    rw [if_pos rfl] at hle
    exact hle
  intro h0
  rw [h0] at h1
  exact absurd h1 (not_le.mpr zero_lt_one)

/-- The one-hot product with the table of means is the centre, when every class id is below 4096. -/
theorem centerK_eq (hlab : ∀ i, lab i < 4096) (i : Fin 8192) : centerK feat lab i = center feat lab i := by
  funext j
  unfold centerK
  -- only the column `c = lab i` of the one-hot row is nonzero
  rw [Finset.sum_eq_single (⟨lab i, hlab i⟩ : Fin 4096)]
  · rw [if_pos rfl, one_mul]
    -- the class of row `i` is not empty, so its mean is divided by its true count
    unfold mean center
    rw [if_neg (cnt_ne_zero i)]
  · intro c _ hc
    rw [if_neg, zero_mul]
    intro hic
    exact hc (Fin.ext hic.symm)
  · intro hn
    exact absurd (Finset.mem_univ _) hn

/-- A log-softmax entry is never +∞ (whatever the row holds). -/
theorem logp_ne_top (row : Fin 4096 → EReal) (j : Fin 4096) : logp row j ≠ ⊤ := by
  unfold logp
  -- the shifted entry `row j - max` is not `+∞`
  have ha : row j - rowMax row ≠ ⊤ := sub_ne_top_of_le (le_rowMax row j)
  -- the normaliser is a sum of nonnegative terms
  have hS0 : 0 ≤ ∑ k : Fin 4096, Ideal.exp (row k - rowMax row) :=
    Finset.sum_nonneg (fun k _ => exp_nonneg _)
  rw [sub_eq_add_neg]
  by_cases hL : Ideal.log (∑ k : Fin 4096, Ideal.exp (row k - rowMax row)) = ⊥
  · -- `log S = -∞` forces `S = 0`, so every term vanishes, so the shifted entry itself is `-∞`
    have hS : ∑ k : Fin 4096, Ideal.exp (row k - rowMax row) = 0 := eq_zero_of_log_eq_bot hS0 hL
    have hall := (Finset.sum_eq_zero_iff_of_nonneg (fun k _ => exp_nonneg (row k - rowMax row))).mp hS
    have hj : row j - rowMax row = ⊥ := eq_bot_of_exp_eq_zero (hall j (Finset.mem_univ j))
    rw [hj, EReal.bot_add]
    exact bot_ne_top
  · -- otherwise neither summand is `+∞`
    exact EReal.add_ne_top ha (fun h' => hL (EReal.neg_eq_top_iff.mp h'))

/-- The two results agree when every class id is below 4096. -/
theorem lossK_eq_lossR (hlab : ∀ i, lab i < 4096) : lossK feat lab = lossR feat lab := by
  unfold lossK lossR
  -- the kernel's centres are the reference's
  have hc : ∀ i, centerK feat lab i = center feat lab i := centerK_eq hlab
  -- each picked entry is a log-softmax entry, hence not `+∞`
  have hne : ∀ i ∈ (Finset.univ : Finset (Fin 8192)), pick (center feat lab i) (lab i) ≠ ⊤ := by
    intro i _
    rw [pick_eq _ _ (hlab i)]
    exact logp_ne_top _ _
  -- the sum of the negated entries is the negated sum
  have hsum : ∑ i : Fin 8192, (0 - pick (centerK feat lab i) (lab i))
      = -(∑ i : Fin 8192, pick (center feat lab i) (lab i)) := by
    rw [← sum_neg_of_ne_top Finset.univ (fun i => pick (center feat lab i) (lab i)) hne]
    refine Finset.sum_congr rfl (fun i _ => ?_)
    rw [hc i, zero_sub]
  -- division by a nonzero real is a product, and the sign moves through the product
  rw [hsum, Ideal.div_coe (by norm_num : (8192 : ℝ) ≠ 0), Ideal.div_coe (by norm_num : (8192 : ℝ) ≠ 0),
    EReal.neg_mul]

end Cert.Spec

end
-- ==== Proof.R1Value.lean ====
/- Region 1 (the centre / cross-entropy kernel), the VALUE of its output array at the ideal instance.

   The grid is 32 x 8, point t = (t / 8, t % 8). Over the eight points of a run the scratch accumulates, block of 512 classes by
   block, the product of the one-hot rows of the labels of rows 256 (t / 8) .. with the class means: after the run its entry (p, j)
   is  sum over the 4096 classes cc of  [label(256 (t / 8) + p) = cc] * mean(cc, j).  At the last point of the run the output
   block receives, row by row,  0 - (the log-softmax of the accumulated row, picked at the row's label): the row maximum from
   minus infinity, the shifted row, its exponentials' sum, the logarithm, and the entry selected where the column number is the label.
   So the output column ends holding that function of the label column and the class-mean array, row by row.

   The steps: each payload read at an entry over explicit coordinates; each window's block read where its index map says;
   the accumulator after every point by induction on the point (reset at the first point of a run); what a write-back point writes
   is its block of the closed function; every row is covered by the last point of its run. -/
import proofs.«418073_j77309412134_1_alg».proof.Proof.R1Defs
import proofs.«418073_j77309412134_1_alg».proof.Proof.Spec
import proofs.«418073_j77309412134_1_alg».proof.Proof.LibMatmulPlain
import proofs.«418073_j77309412134_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen
open scoped BigOperators

namespace V1

/-- A class-id word: 512 k + q, for k below 8 and q below 512, is below 2^32, so the word arithmetic is exact. -/
theorem classWord_toNat (k q : ℕ) (hk : k < 8) (hq : q < 512) :
    (IntOp.addi (Scalar.muli (BitVec.ofNat 32 k) 512#32) (BitVec.ofNat 32 q)).toNat = 512 * k + q := by
  show ((BitVec.ofNat 32 k * 512#32 + BitVec.ofNat 32 q : BitVec 32)).toNat = _
  simp only [BitVec.toNat_add, BitVec.toNat_mul, BitVec.toNat_ofNat]
  omega

/-- A comparison bit, widened and read as a float: one where the words agree, zero elsewhere. -/
theorem indicator_word (x y : BitVec 32) :
    (FloatOps.sitofp (F := Ideal) .f32 ((IntOp.cmpi .eq x y).setWidth 32) : EReal) = if x.toNat = y.toNat then (1 : EReal) else 0 := by
  by_cases h : x = y
  · subst h
    rw [if_pos rfl]
    have e : (IntOp.cmpi .eq x x).setWidth 32 = 1#32 := by simp [IntOp.cmpi]
    rw [e]
    show (((1#32 : BitVec 32).toInt : ℝ) : EReal) = 1
    norm_num
  · rw [if_neg (fun e => h (BitVec.eq_of_toNat_eq e))]
    have hb : (x == y) = false := by simpa using h
    have e : (IntOp.cmpi .eq x y).setWidth 32 = 0#32 := by simp [IntOp.cmpi, hb]
    rw [e]
    show (((0#32 : BitVec 32).toInt : ℝ) : EReal) = 0
    norm_num

/-- The accumulator's update at an entry: the old entry plus the one-hot row of the label against the class-mean block. -/
theorem pay3_apply (i : grid1.Coords) (lab : Vec Ideal S256x1 .i32) (acc : Vec Ideal S256x4096 .f32) (sb : Vec Ideal S512x4096 .bf16)
    (p : Fin 256) (j : Fin 4096) :
    k1_pay3 i lab acc sb (ix2 p j) = acc (ix2 p j) + ∑ q : Fin 512, (if (lab (ix2 p 0)).toNat = 512 * (i 1).val + q.val then (1 : EReal) else 0) * sb (ix2 q j) := by
  unfold k1_pay3 k1_pay2
  simp only [shapeCast_self]
  refine (addf_apply _ _ _).trans (congrArg (acc (ix2 p j) + ·) ?_)
  refine (Cert.LibMatmulPlain.matmul_plain_apply (M := 256) (K := 512) (N := 4096) (φ₁ := .bf16) (φ₂ := .bf16) _ (sb : FVec Ideal ⟨2, ![512, 4096]⟩ .bf16) p j).trans ?_
  refine Finset.sum_congr rfl fun q _ => ?_
  refine congrArg (· * sb (ix2 q j)) ?_
  show FloatOps.sitofp (F := Ideal) .f32 ((IntOp.cmpi .eq (broadcastTo S256x512 lab broadcasts_S256x1_S256x512 (ix2 p q)) (broadcastTo S256x512 _ broadcasts_S1x512_S256x512 (ix2 p q))).setWidth 32) = _
  rw [Cert.LibKeepdims.broadcastTo_a1_ab_apply (a := 256) (b := 512) lab _ p q, broadcastTo_1b_ab_apply (a := 256) (b := 512) _ _ p q]
  show FloatOps.sitofp (F := Ideal) .f32 ((IntOp.cmpi .eq (lab (ix2 p 0)) (IntOp.addi (Scalar.muli (BitVec.ofNat 32 (i 1).val) 512#32) (iota .tc S1x512 32 [1] iota_S1x512_d1_w32 (ix2 0 q)))).setWidth 32) = _
  rw [iota_single_apply, indicator_word, classWord_toNat _ _ (i 1).isLt q.isLt]

/-- The zero block the accumulator is reset to. -/
theorem pay1_apply (idx : S256x4096.Idx) : (k1_pay1 (F := Ideal)) idx = 0 := by
  unfold k1_pay1
  simp only [shapeCast_self]
  exact Ideal.ofBits_zero_f32

/-- The index a reduction along the row inserts: row p, column k. -/
theorem lift_row (p : Fin 256) (k : Fin 4096) : reduces_S256x4096_S256.lift (ix1 p) k = ix2 p k := by
  funext a
  apply Fin.ext
  match a with
  | ⟨0, _⟩ => rfl
  | ⟨1, _⟩ => rfl

/-- The pattern of minus infinity is the bottom of the extended reals. -/
theorem ofBits_neg_inf : Ideal.ofBits .f32 0xFF800000#32 = ⊥ := by simp [Ideal.ofBits, Ideal.ieee]

/-- A row's maximum, from minus infinity. -/
theorem rowMax_apply (x : FVec Ideal S256x4096 .f32) (hφ : FKind.Formats .f32)
    (hacc : (0xFF800000#32 : BitVec 32) = FKind.maximumf.neutral .f32 hφ) (p : Fin 256) :
    multiReduction .maximumf [1] S256 x 0xFF800000#32 reduces_S256x4096_S256 hφ hacc (ix1 p)
      = Cert.Spec.rowMax fun j : Fin 4096 => x (ix2 p j) := by
  refine (Ideal.multiReduction_maximumf_single x 0xFF800000#32 reduces_S256x4096_S256 hφ hacc (ix1 p)).trans ?_
  unfold Cert.Spec.rowMax
  have e : (x ∘ reduces_S256x4096_S256.lift (ix1 p)) = fun j : Fin 4096 => x (ix2 p j) :=
    funext fun k => congrArg x (lift_row p k)
  rw [e]
  exact congrArg (fun b => (Finset.univ : Finset (Fin 4096)).fold max b fun j : Fin 4096 => x (ix2 p j)) ofBits_neg_inf

/-- A row's sum. -/
theorem rowSum_apply (x : FVec Ideal S256x4096 .f32) (hφ : FKind.Formats .f32)
    (hacc : (0x00000000#32 : BitVec 32) = FKind.add.neutral .f32 hφ) (p : Fin 256) :
    multiReduction .add [1] S256 x 0x00000000#32 reduces_S256x4096_S256 hφ hacc (ix1 p) = ∑ k : Fin 4096, x (ix2 p k) := by
  refine (Ideal.multiReduction_add_single x 0x00000000#32 reduces_S256x4096_S256 hφ hacc (ix1 p)).trans ?_
  exact Finset.sum_congr rfl fun k _ => congrArg x (lift_row p k)

/-- A per-row quantity carried back over the row: cast to a column and broadcast along the row, it reads at (p, k) the quantity of row p. -/
theorem overRow_apply {α : Type} (v : (⟨1, ![256]⟩ : Shape).Idx → α) (p : Fin 256) (k : Fin 4096) :
    broadcastTo S256x4096 (shapeCast S256x1 v shapeCasts_S256_S256x1) broadcasts_S256x1_S256x4096 (ix2 p k) = v (ix1 p) :=
  (Cert.LibKeepdims.broadcastTo_a1_ab_apply (a := 256) (b := 4096) _ _ p k).trans
    (Cert.LibKeepdims.shapeCast_a_a1_apply (a := 256) v _ p 0)

/-- The column iota's word at column k equals a label word exactly when k is the label. -/
theorem iota_eq_label (k : Fin 4096) (w : BitVec 32) :
    IntOp.cmpi .eq (BitVec.ofNat 32 k.val) w = 1#1 ↔ k.val = w.toNat := by
  have hk : k.val < 4096 := k.isLt
  have hn : (BitVec.ofNat 32 k.val).toNat = k.val := by
    rw [BitVec.toNat_ofNat]; omega
  constructor
  · intro h
    have hb : (BitVec.ofNat 32 k.val == w) = true := by
      by_contra hne
      have hf : (BitVec.ofNat 32 k.val == w) = false := by simpa using hne
      simp [IntOp.cmpi, hf] at h
    have e : BitVec.ofNat 32 k.val = w := by simpa using hb
    rw [← e, hn]
  · intro h
    have e : BitVec.ofNat 32 k.val = w := BitVec.eq_of_toNat_eq (hn.trans h)
    simp [IntOp.cmpi, e]

/-- The rows shifted by their maxima, as the epilogue spells them. -/
abbrev shiftedRows (acc : FVec Ideal S256x4096 .f32) (hφ : FKind.Formats .f32)
    (hm : (0xFF800000#32 : BitVec 32) = FKind.maximumf.neutral .f32 hφ) : FVec Ideal S256x4096 .f32 :=
  subf acc (broadcastTo S256x4096 (shapeCast S256x1
    (multiReduction .maximumf [1] S256 acc 0xFF800000#32 reduces_S256x4096_S256 hφ hm) shapeCasts_S256_S256x1) broadcasts_S256x1_S256x4096)

theorem shiftedRows_apply (acc : FVec Ideal S256x4096 .f32) (hφ : FKind.Formats .f32)
    (hm : (0xFF800000#32 : BitVec 32) = FKind.maximumf.neutral .f32 hφ) (p : Fin 256) (k : Fin 4096) :
    shiftedRows acc hφ hm (ix2 p k) = acc (ix2 p k) - Cert.Spec.rowMax fun j : Fin 4096 => acc (ix2 p j) :=
  (subf_apply _ _ _).trans (congrArg (acc (ix2 p k) - ·) ((overRow_apply _ p k).trans (rowMax_apply acc hφ hm p)))

/-- The log-softmax of the rows, as the epilogue spells it, read at an entry. -/
theorem logSoftmax_apply (acc : FVec Ideal S256x4096 .f32) (hφ : FKind.Formats .f32)
    (hm : (0xFF800000#32 : BitVec 32) = FKind.maximumf.neutral .f32 hφ)
    (hs : (0x00000000#32 : BitVec 32) = FKind.add.neutral .f32 hφ) (p : Fin 256) (k : Fin 4096) :
    subf (shiftedRows acc hφ hm) (broadcastTo S256x4096 (log (shapeCast S256x1
        (multiReduction .add [1] S256 (exp (shiftedRows acc hφ hm)) 0x00000000#32 reduces_S256x4096_S256 hφ hs)
        shapeCasts_S256_S256x1)) broadcasts_S256x1_S256x4096) (ix2 p k)
      = Cert.Spec.logp (fun j : Fin 4096 => acc (ix2 p j)) k := by
  refine (subf_apply _ _ _).trans ?_
  unfold Cert.Spec.logp
  refine congrArg₂ (· - ·) (shiftedRows_apply acc hφ hm p k) ?_
  refine (Cert.LibKeepdims.broadcastTo_a1_ab_apply (a := 256) (b := 4096) _ _ p k).trans ?_
  show Ideal.log (shapeCast S256x1 _ shapeCasts_S256_S256x1 (ix2 p 0)) = _
  refine congrArg Ideal.log ?_
  refine (Cert.LibKeepdims.shapeCast_a_a1_apply (a := 256) _ _ p 0).trans ?_
  refine (rowSum_apply _ hφ hs p).trans ?_
  refine Finset.sum_congr rfl fun k' _ => ?_
  show Ideal.exp (shiftedRows acc hφ hm (ix2 p k')) = _
  exact congrArg Ideal.exp (shiftedRows_apply acc hφ hm p k')

/-- The epilogue at a row: minus the row's log-softmax entry at the row's label, the entry picked by the indicator of the label's column. -/
theorem pay4_apply (lab : Vec Ideal S256x1 .i32) (acc : Vec Ideal S256x4096 .f32) (p : Fin 256) (u : Fin 1) :
    k1_pay4 lab acc (ix2 p u) = 0 - Cert.Spec.pick (fun j : Fin 4096 => acc (ix2 p j)) ((lab (ix2 p 0)).toNat) := by
  unfold k1_pay4 k1_pay2
  simp only [shapeCast_self]
  refine (subf_apply _ _ _).trans ?_
  refine congrArg₂ (· - ·) Ideal.ofBits_zero_f32 ?_
  refine (Cert.LibKeepdims.shapeCast_a_a1_apply (a := 256) _ _ p u).trans ?_
  refine (rowSum_apply _ _ _ p).trans ?_
  unfold Cert.Spec.pick
  refine Finset.sum_congr rfl fun k _ => ?_
  refine (select_apply _ _ _ _).trans ?_
  have hc : cmpi .eq (iota .tc S256x4096 32 [1] iota_S256x4096_d1_w32) (broadcastTo S256x4096 lab broadcasts_S256x1_S256x4096) (ix2 p k)
      = IntOp.cmpi .eq (BitVec.ofNat 32 k.val) (lab (ix2 p 0)) := by
    show IntOp.cmpi .eq (iota .tc S256x4096 32 [1] iota_S256x4096_d1_w32 (ix2 p k)) (broadcastTo S256x4096 lab broadcasts_S256x1_S256x4096 (ix2 p k)) = _
    rw [iota_single_apply, Cert.LibKeepdims.broadcastTo_a1_ab_apply (a := 256) (b := 4096) lab _ p k]
  rw [hc]
  refine (congrArg₂ (Scalar.select _) (logSoftmax_apply acc _ _ _ p k) Ideal.ofBits_zero_f32).trans ?_
  by_cases h : k.val = (lab (ix2 p 0)).toNat
  · rw [if_pos h, (iota_eq_label k _).mpr h]; rfl
  · rw [if_neg h]
    exact if_neg fun e => h ((iota_eq_label k _).mp e)

variable (V : (c : Dev nD) → (b : Ref sig .tc) → Buf (Elt Ideal) ((c : Thread nD τ).loc b))

/-- The printed index maps over the grid: the class-mean block follows k = t % 8, the label block and the output block follow
    t / 8, and the body's second grid coordinate is k. -/
theorem idx_facts1 : ∀ t : Fin cfg1.N, win1_0.index t (0 : Fin 2) = t.val % 8 ∧ win1_0.index t (1 : Fin 2) = 0
    ∧ win1_1.index t (0 : Fin 2) = t.val / 8 ∧ win1_1.index t (1 : Fin 2) = 0
    ∧ win1_2.index t (0 : Fin 2) = t.val / 8 ∧ win1_2.index t (1 : Fin 2) = 0
    ∧ (grid1.coords t (1 : Fin 2)).val = t.val % 8 :=
  (by decide +kernel : ∀ t : Fin grid1.N, _)

/-- The label block of point t reads the label column at rows 256 (t / 8) + p. -/
theorem lblk1_apply (c : Dev nD) (t : Fin cfg1.N) (p : Fin 256) (u : Fin 1) (r : Fin 8192) (hr : r.val = 256 * (t.val / 8) + p.val) :
    lblk1 V c t (ix2 p u) = (V c main_v1 : S8192x1.Idx → BitVec 32) (ix2 r 0) := by
  obtain ⟨e0, e1, e2, e3, e4, e5, e6⟩ := idx_facts1 t
  show iblk1 V c 1 t (ix2 p u) = _
  unfold iblk1
  rw [View.read_apply]
  show V c main_v1 (((cfg1.win 1).blk t).view.emb (ix2 p u)) = V c main_v1 (ix2 r 0)
  refine congrArg (V c main_v1) (funext fun a => Fin.ext ?_)
  match a with
  | ⟨0, _⟩ => show win1_1.index t (0 : Fin 2) * 256 + 1 * p.val = r.val; omega
  | ⟨1, _⟩ => show win1_1.index t (1 : Fin 2) * 1 + 1 * u.val = 0; omega

/-- The class-mean block of point t reads the class-mean array at rows 512 (t % 8) + q. -/
theorem sblk1_apply (c : Dev nD) (t : Fin cfg1.N) (q : Fin 512) (j : Fin 4096) (r : Fin 4096) (hr : r.val = 512 * (t.val % 8) + q.val) :
    sblk1 V c t (ix2 q j) = (V c main_v13 : S4096x4096.Idx → EReal) (ix2 r j) := by
  obtain ⟨e0, e1, e2, e3, e4, e5, e6⟩ := idx_facts1 t
  show iblk1 V c 0 t (ix2 q j) = _
  unfold iblk1
  rw [View.read_apply]
  show V c main_v13 (((cfg1.win 0).blk t).view.emb (ix2 q j)) = V c main_v13 (ix2 r j)
  refine congrArg (V c main_v13) (funext fun a => Fin.ext ?_)
  match a with
  | ⟨0, _⟩ => show win1_0.index t (0 : Fin 2) * 512 + 1 * q.val = r.val; omega
  | ⟨1, _⟩ => show win1_0.index t (1 : Fin 2) * 4096 + 1 * j.val = j.val; omega

/-- The label of array row r as a natural number (zero beyond the array). -/
def labOf (c : Dev nD) (r : ℕ) : ℕ :=
  if h : r < 8192 then ((V c main_v1 : S8192x1.Idx → BitVec 32) (ix2 ⟨r, h⟩ 0)).toNat else 0

/-- The class-mean array's entry (x, j) (zero beyond the array). -/
def meanOf (c : Dev nD) (x : ℕ) (j : Fin 4096) : EReal :=
  if h : x < 4096 then (V c main_v13 : S4096x4096.Idx → EReal) (ix2 ⟨x, h⟩ j) else 0

/-- The one-hot row of row r's label against column j of the class means, over the classes below m. -/
def partOf (c : Dev nD) (r : ℕ) (j : Fin 4096) (m : ℕ) : EReal :=
  ∑ x ∈ Finset.range m, (if labOf V c r = x then (1 : EReal) else 0) * meanOf V c x j

/-- One more block of 512 classes. -/
theorem partOf_step (c : Dev nD) (r : ℕ) (j : Fin 4096) (k : ℕ) :
    partOf V c r j (512 * k) + ∑ q : Fin 512, (if labOf V c r = 512 * k + q.val then (1 : EReal) else 0) * meanOf V c (512 * k + q.val) j
      = partOf V c r j (512 * (k + 1)) := by
  unfold partOf
  rw [show 512 * (k + 1) = 512 * k + 512 from by omega, Finset.sum_range_add]
  refine congrArg (_ + ·) ?_
  exact (Finset.sum_range fun x => (if labOf V c r = 512 * k + x then (1 : EReal) else 0) * meanOf V c (512 * k + x) j).symm

/-- All 4096 classes: the sum over the class index. -/
theorem partOf_all (c : Dev nD) (r : Fin 8192) (j : Fin 4096) :
    partOf V c r.val j 4096 = ∑ cc : Fin 4096, (if ((V c main_v1 : S8192x1.Idx → BitVec 32) (ix2 r 0)).toNat = cc.val then (1 : EReal) else 0)
      * (V c main_v13 : S4096x4096.Idx → EReal) (ix2 cc j) := by
  unfold partOf
  rw [Finset.sum_range]
  refine Finset.sum_congr rfl fun cc _ => ?_
  unfold labOf meanOf
  rw [dif_pos r.isLt, dif_pos cc.isLt]

/-- The accumulator's update at point t: from the classes below 512 (t % 8) to those below 512 (t % 8 + 1). -/
theorem acc_update (c : Dev nD) (t : Fin cfg1.N) (A : Vec Ideal S256x4096 .f32) (p : Fin 256) (j : Fin 4096)
    (hA : A (ix2 p j) = partOf V c (256 * (t.val / 8) + p.val) j (512 * (t.val % 8))) :
    k1_pay3 (grid1.coords t) (lblk1 V c t) A (sblk1 V c t) (ix2 p j)
      = partOf V c (256 * (t.val / 8) + p.val) j (512 * (t.val % 8 + 1)) := by
  obtain ⟨e0, e1, e2, e3, e4, e5, e6⟩ := idx_facts1 t
  have ht : t.val < 256 := lt_of_lt_of_eq t.isLt N_1
  have hr : 256 * (t.val / 8) + p.val < 8192 := by have := p.isLt; omega
  rw [pay3_apply, hA, ← partOf_step]
  refine congrArg (_ + ·) (Finset.sum_congr rfl fun q _ => ?_)
  have hq : 512 * (t.val % 8) + q.val < 4096 := by have := q.isLt; omega
  rw [lblk1_apply V c t p 0 ⟨_, hr⟩ rfl, sblk1_apply V c t q j ⟨_, hq⟩ rfl, e6]
  unfold labOf meanOf
  rw [dif_pos hr, dif_pos hq]

/-- The accumulator after point n: the one-hot product over the classes below 512 (n % 8 + 1), for the rows of block n / 8 —
    by induction on the point, the reset at the first point of each run of eight. -/
theorem accAt1_eq (c : Dev nD) : ∀ (n : ℕ) (hn : n < cfg1.N) (p : Fin 256) (j : Fin 4096),
    accAt1 V c n hn (ix2 p j) = partOf V c (256 * (n / 8) + p.val) j (512 * (n % 8 + 1)) := by
  intro n
  induction n with
  | zero =>
    intro hn p j
    rw [accAt1]
    refine acc_update V c ⟨0, hn⟩ _ p j ?_
    rw [pay1_apply]
    show (0 : EReal) = partOf V c _ j (512 * 0)
    unfold partOf
    rw [Nat.mul_zero, Finset.range_zero, Finset.sum_empty]
  | succ m ih =>
    intro hn p j
    rw [accAt1]
    refine acc_update V c ⟨m + 1, hn⟩ _ p j ?_
    by_cases h0 : (m + 1) % 8 = 0
    · rw [if_pos h0, pay1_apply]
      show (0 : EReal) = partOf V c _ j (512 * ((m + 1) % 8))
      unfold partOf
      rw [h0, Nat.mul_zero, Finset.range_zero, Finset.sum_empty]
    · rw [if_neg h0, ih (Nat.lt_of_succ_lt hn) p j]
      show partOf V c (256 * (m / 8) + p.val) j (512 * (m % 8 + 1)) = partOf V c (256 * ((m + 1) / 8) + p.val) j (512 * ((m + 1) % 8))
      rw [show (m + 1) / 8 = m / 8 from by omega, show (m + 1) % 8 = m % 8 + 1 from by omega]

/-- What the output column ends holding: at row i, minus the log-softmax entry, at the row's label, of the one-hot row of
    that label against the class means. -/
def ceOf (c : Dev nD) : S8192x1.Idx → EReal := fun idx =>
  0 - Cert.Spec.pick (fun j : Fin 4096 => ∑ cc : Fin 4096,
      (if ((V c main_v1 : S8192x1.Idx → BitVec 32) (ix2 (idx 0) 0)).toNat = cc.val then (1 : EReal) else 0)
        * (V c main_v13 : S4096x4096.Idx → EReal) (ix2 cc j))
    (((V c main_v1 : S8192x1.Idx → BitVec 32) (ix2 (idx 0) 0)).toNat)

/-- What a write-back point (the last of a run of eight) writes is its block of that column. -/
theorem flushed1_eq (c : Dev nD) (t : Fin cfg1.N) (hf : (cfg1.win 2).flush t = true) :
    (dat1 V c).flushed 2 t = ((cfg1.win 2).blk t).view.read (Elt Ideal) (ceOf V c) := by
  have h7 : t.val % 8 = 7 := (flush1_2 t).mp hf
  obtain ⟨e0, e1, e2, e3, e4, e5, e6⟩ := idx_facts1 t
  have ht : t.val < 256 := lt_of_lt_of_eq t.isLt N_1
  show (cfg1.win 2).cut (grid1.coords t) ((dat1 V c).after 2 t) = _
  rw [after1_2]
  funext y
  obtain ⟨p, u, rfl⟩ : ∃ (p : Fin 256) (u : Fin 1), y = ix2 p u := ⟨y 0, y 1, eq_ix2 y⟩
  rw [View.read_apply]
  show ceAt1 V c t (ix2 p u) = ceOf V c (((cfg1.win 2).blk t).view.emb (ix2 p u))
  have hr : 256 * (t.val / 8) + p.val < 8192 := by have := p.isLt; omega
  have hi : (((cfg1.win 2).blk t).view.emb (ix2 p u)) 0 = (⟨256 * (t.val / 8) + p.val, hr⟩ : Fin 8192) :=
    Fin.ext (by show win1_2.index t (0 : Fin 2) * 256 + 1 * p.val = 256 * (t.val / 8) + p.val; omega)
  unfold ceAt1 ceOf
  rw [pay4_apply, hi, lblk1_apply V c t p 0 ⟨_, hr⟩ rfl]
  refine congrArg (fun row => 0 - Cert.Spec.pick row _) (funext fun j => ?_)
  rw [accAt1_eq V c t.val t.isLt p j, h7]
  exact partOf_all V c ⟨_, hr⟩ j

/-- Every row of the column is in the block of the last point of its run. -/
theorem cover1 (i : S8192x1.Idx) : ∃ t : Fin cfg1.N, (cfg1.win 2).flush t = true ∧ i ∈ ((cfg1.win 2).blk t).view.set := by
  have h0 : (i 0).val < 8192 := (i 0).isLt
  have h1 : (i 1).val < 1 := (i 1).isLt
  have hN : cfg1.N = 256 := N_1
  have hlt : 8 * ((i 0).val / 256) + 7 < cfg1.N := by rw [hN]; omega
  obtain ⟨e0, e1, e2, e3, e4, e5, e6⟩ := idx_facts1 ⟨8 * ((i 0).val / 256) + 7, hlt⟩
  refine ⟨⟨8 * ((i 0).val / 256) + 7, hlt⟩, (flush1_2 _).mpr (by show (8 * ((i 0).val / 256) + 7) % 8 = 7; omega), ?_⟩
  show i ∈ ((View.whole main_v14).slice (win1_2.rect ⟨8 * ((i 0).val / 256) + 7, hlt⟩)).set
  rw [View.set_slice_whole, Rect.mem_set_unit]
  intro a
  match a with
  | ⟨0, _⟩ =>
    show win1_2.index ⟨8 * ((i 0).val / 256) + 7, hlt⟩ (0 : Fin 2) * 256 ≤ (i 0).val
      ∧ (i 0).val < win1_2.index ⟨8 * ((i 0).val / 256) + 7, hlt⟩ (0 : Fin 2) * 256 + 256
    have e : (8 * ((i 0).val / 256) + 7) / 8 = (i 0).val / 256 := by omega
    rw [e4]
    show (8 * ((i 0).val / 256) + 7) / 8 * 256 ≤ (i 0).val ∧ (i 0).val < (8 * ((i 0).val / 256) + 7) / 8 * 256 + 256
    rw [e]; omega
  | ⟨1, _⟩ =>
    show win1_2.index ⟨8 * ((i 0).val / 256) + 7, hlt⟩ (1 : Fin 2) * 1 ≤ (i 1).val
      ∧ (i 1).val < win1_2.index ⟨8 * ((i 0).val / 256) + 7, hlt⟩ (1 : Fin 2) * 1 + 1
    rw [e5]; omega

end V1

variable (V : (c : Dev nD) → (b : Ref sig .tc) → Buf (Elt Ideal) ((c : Thread nD τ).loc b))

/-- THE OUTPUT ARRAY of the region after its last write-back, as one function of the arrays the region finds at entry: at row i,
    minus the log-softmax entry, at the row's label, of the one-hot row of that label against the class means. -/
theorem arr1_eq (c : Dev nD) :
    ((dat1 (F := Ideal) V c).arrAt 2 cfg1.N : S8192x1.Idx → EReal)
      = fun idx => 0 - Cert.Spec.pick (fun j : Fin 4096 => ∑ cc : Fin 4096,
          (if ((V c main_v1 : S8192x1.Idx → BitVec 32) (ix2 (idx 0) 0)).toNat = cc.val then (1 : EReal) else 0)
            * (V c main_v13 : S4096x4096.Idx → EReal) (ix2 cc j))
        (((V c main_v1 : S8192x1.Idx → BitVec 32) (ix2 (idx 0) 0)).toNat) :=
  (dat1 V c).arrAt_eq_of_cover 2 (V1.ceOf V c) (V1.flushed1_eq V c) V1.cover1

end Cert.KernelIdeal.Hand

end
-- ==== Proof.Inputs.lean ====
/- The two inputs read as the mathematics reads them: the feature matrix as a function of row and column, the class ids as
   natural numbers (the words' unsigned values). -/
import Idealize.ShloMosaic.PureOps.Ideal
import Idealize.ShloMosaic.Lib.ValueIdx

noncomputable section

namespace Cert.Inputs

open Idealize.ShloMosaic Idealize.ShloMosaic.ValueIdx

/-- The feature matrix, entry (i, j). -/
def featOf (x : FVec Ideal (⟨2, ![8192, 4096]⟩ : Shape) .f32) : Fin 8192 → Fin 4096 → EReal := fun i j => x (ix2 i j)

/-- Row i's class id. -/
def labOf (l : IVec (⟨1, ![8192]⟩ : Shape) 32) : Fin 8192 → ℕ := fun i => (l (ix1 i)).toNat

end Cert.Inputs

end
-- ==== Proof.LibScatterVec.lean ====
/-
  An accumulating float scatter of single entries, read at an entry on the extended reals.

  Updates `[M]` are added into a table `[N]` at the entries a column of index words `[M, 1]` names (dimension numbers:
  no update window axis, inserted window axis 0, the one index component addressing table axis 0, index vector axis 1).
  Entry `n` of the result is the table's entry plus the sum of the updates `e` whose index word, read signed, is `n`;
  a word outside `[0, N)` contributes to no entry.
-/
import Idealize.ShloMosaic.PureOps.Ideal
import Idealize.ShloMosaic.Lib.ValueIdx
import Idealize.ShloMosaic.Lib.ValueIdxRank1

noncomputable section

namespace Cert.LibScatterVec

open Idealize.ShloMosaic Idealize.ShloMosaic.ValueIdx
open scoped BigOperators

/-! ## Scattering single entries into a vector

The table has one axis; it is an inserted window axis addressed by the start index's one component. So the entry an
update lands at is the index word of the update's position, read signed and not clamped, and the window coordinate
vanishes. -/

section Entries

/-- The dimension numbers of an entry scatter, for a table `[N]`, scatter indices `[M, 1]` and updates `[M]`. -/
abbrev vecDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- The table's axis is component 0 of the start index. That component is read at the scatter-indices position
    `(j 0, 0)` — the update's position, and 0 on the index vector's axis —, signed, and not clamped. -/
theorem vec_start0 (j : (⟨1, ![M]⟩ : Shape).Idx) (idx : IVec ⟨2, ![M, 1]⟩ w) :
    (vecDims N M wf).start j idx 0 = (idx (ix2 (j 0) (0 : Fin 1))).toInt := by
  unfold ScatterDims.start
  rw [dif_pos (List.mem_singleton.2 rfl)]
  have hsi : (vecDims N M wf).siIdx j ⟨List.idxOf (0 : Fin 1) (vecDims N M wf).scatterDimsToOperandDims,
      List.idxOf_lt_length_iff.2 (List.mem_singleton.2 rfl)⟩ = ix2 (j 0) (0 : Fin 1) := by
    funext b
    refine Fin.ext ?_
    match b with
    | ⟨0, _⟩ => rfl
    | ⟨1, _⟩ => rfl
  rw [hsi]
  rfl

/-- The table's axis is an inserted window axis: no axis is kept. -/
theorem vec_mem_sKept (a : Fin 1) : a ∈ (vecDims N M wf).sKept ↔ a ∉ [(0 : Fin 1)] := by
  simp [ScatterDims.sKept, Shape.kept, List.mem_filter, List.mem_finRange]

/-- So its window coordinate is zero. -/
theorem vec_window0 (j : (⟨1, ![M]⟩ : Shape).Idx) : (vecDims N M wf).window j 0 = 0 := by
  unfold ScatterDims.window
  exact dif_neg fun h => (vec_mem_sKept wf 0).1 h (List.mem_singleton.2 rfl)

/-- The update at `e` lands at the table's entry `n` exactly when the `e`-th index word, read signed, is `n`. -/
theorem vec_resultIdx_iff (idx : IVec ⟨2, ![M, 1]⟩ w) (e : Fin M) (n : Fin N) :
    (vecDims N M wf).resultIdx? (ix1 e) idx = some (ix1 n) ↔ (idx (ix2 e (0 : Fin 1))).toInt = (n.val : ℤ) := by
  have hs0 : (vecDims N M wf).start (ix1 e) idx 0 + (((vecDims N M wf).window (ix1 e) 0 : ℕ) : ℤ)
      = (idx (ix2 e (0 : Fin 1))).toInt := by
    rw [vec_start0, vec_window0]
    show (idx (ix2 e (0 : Fin 1))).toInt + ((0 : ℕ) : ℤ) = _
    omega
  unfold ScatterDims.resultIdx?
  constructor
  · intro h
    by_cases hin : ∀ a, 0 ≤ (vecDims N M wf).start (ix1 e) idx a + (((vecDims N M wf).window (ix1 e) a : ℕ) : ℤ)
        ∧ (vecDims N M wf).start (ix1 e) idx a + (((vecDims N M wf).window (ix1 e) a : ℕ) : ℤ)
          < (((⟨1, ![N]⟩ : Shape).size a : ℕ) : ℤ)
    · rw [dif_pos hin] at h
      have hf := Option.some.inj h
      have h0 : ((vecDims N M wf).start (ix1 e) idx 0
          + (((vecDims N M wf).window (ix1 e) 0 : ℕ) : ℤ)).toNat = n.val := congrArg (fun f => (f 0).val) hf
      have p0 := (hin 0).1
      rw [hs0] at h0 p0
      omega
    · rw [dif_neg hin] at h
      exact absurd h (by simp)
  · intro hE
    have hin : ∀ a, 0 ≤ (vecDims N M wf).start (ix1 e) idx a + (((vecDims N M wf).window (ix1 e) a : ℕ) : ℤ)
        ∧ (vecDims N M wf).start (ix1 e) idx a + (((vecDims N M wf).window (ix1 e) a : ℕ) : ℤ)
          < (((⟨1, ![N]⟩ : Shape).size a : ℕ) : ℤ) := by
      intro a
      match a with
      | ⟨0, _⟩ =>
        show 0 ≤ (vecDims N M wf).start (ix1 e) idx 0 + (((vecDims N M wf).window (ix1 e) 0 : ℕ) : ℤ)
          ∧ (vecDims N M wf).start (ix1 e) idx 0 + (((vecDims N M wf).window (ix1 e) 0 : ℕ) : ℤ) < ((N : ℕ) : ℤ)
        rw [hs0, hE]
        have := n.isLt
        omega
    rw [dif_pos hin]
    refine congrArg some (funext fun a => Fin.ext ?_)
    match a with
    | ⟨0, _⟩ =>
      show ((vecDims N M wf).start (ix1 e) idx 0 + (((vecDims N M wf).window (ix1 e) 0 : ℕ) : ℤ)).toNat = n.val
      rw [hs0, hE]
      omega

/-- The entry scatter-add with its dimension numbers written out, read at `n`: the filtered sum over the update
    indices is the sum over the update positions of the updates whose word is `n`. -/
theorem vec_apply (x : (⟨1, ![N]⟩ : Shape).Idx → EReal) (idx : IVec ⟨2, ![M, 1]⟩ w)
    (upd : (⟨1, ![M]⟩ : Shape).Idx → EReal) (n : Fin N) :
    Ideal.hostScatterAdd (vecDims N M wf) x idx upd (ix1 n)
      = x (ix1 n) + ∑ e : Fin M, if (idx (ix2 e (0 : Fin 1))).toInt = (n.val : ℤ) then upd (ix1 e) else 0 := by
  unfold Ideal.hostScatterAdd
  refine congrArg (x (ix1 n) + ·) ?_
  rw [Finset.sum_filter, ← Equiv.sum_comp (idxEquiv1 (n := M)).symm]
  refine Finset.sum_congr rfl fun e _ => ?_
  show (if (vecDims N M wf).resultIdx? (ix1 e) idx = some (ix1 n) then upd (ix1 e) else 0) = _
  simp only [vec_resultIdx_iff]

end Entries

/-- A scatter that adds single updates `[M]` into a table `[N]`, one entry per index word (dimension numbers: no
    update window axis, inserted window axis 0, the start index's one component addressing table axis 0, index vector
    axis 1), reads at `n` the table's entry plus the sum of the updates `e` whose index word, read as a signed integer,
    equals `n`; updates whose word lies outside `[0, N)` are dropped. The dimension numbers are given by equations on the
    record's fields; once the fields are replaced by these literals the record is the one of `vec_apply`. -/
theorem scatterAdd_vec_apply {N M w : ℕ} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![M, 1]⟩ w) (upd : (⟨1, ![M]⟩ : Shape).Idx → EReal)
    (n : Fin N) :
    Ideal.hostScatterAdd d x idx upd (ix1 n)
      = x (ix1 n) + ∑ e : Fin M, if (idx (ix2 e (0 : Fin 1))).toInt = (n.val : ℤ) then upd (ix1 e) else 0 := by
  obtain ⟨uw, iw, sd, iv, wf⟩ := d
  simp only at h1 h2 h3 h4
  subst h1 h2 h3 h4
  exact vec_apply wf x idx upd n

end Cert.LibScatterVec

end
-- ==== Proof.KHost.lean ====
/- The host operations of the kernel program's main function, read at an index over the extended reals.

   Before the first kernel region the vector of class ids is cast to a row [1, 8192] and to a column [8192, 1]: both hold
   the id of row i at position i. Between the two regions the class counts are made by adding a one at each row's class
   into a table of zeros; an empty class's count is replaced by one; the table of class sums the first region leaves is
   divided, row by row, by the count: this is the table of class means. After the second region the per-row losses are
   summed, divided by 8192 and by 2048. -/
import proofs.«418073_j77309412134_1_alg».proof.Proof.Gen.KernelIdeal.Regions
import proofs.«418073_j77309412134_1_alg».proof.Proof.Spec
import proofs.«418073_j77309412134_1_alg».proof.Proof.Inputs
import proofs.«418073_j77309412134_1_alg».proof.Proof.LibScatterVec
import proofs.«418073_j77309412134_1_alg».proof.Proof.LibKeepdims
import Idealize.ShloMosaic.Lib.StableHlo.Run
import Idealize.ShloMosaic.PureOps.Ideal.Laws
import Idealize.ShloMosaic.Lib.IdealHost
import Idealize.ShloMosaic.Lib.ValueIdx
import Idealize.ShloMosaic.Lib.ValueIdxRank1
import Idealize.ShloMosaic.Lib.ValueLayout
import Idealize.ShloMosaic.Lib.Pipeline.Value

noncomputable section

namespace Cert.KernelIdeal.Hand

open Idealize.ShloMosaic Idealize.ShloMosaic.TcCoe Idealize.ShloMosaic.ValueIdx
open Cert.KernelIdeal.Gen
open scoped BigOperators

variable (m : (ℓ : Loc nD τ sig) → Buf (Elt Ideal) ℓ) (c : Dev nD)

set_option quotPrecheck false in
local notation "Xin" => (m ((c.tc : Thread nD τ).loc main_arg0) : S8192x4096.Idx → EReal)
set_option quotPrecheck false in
local notation "Lw" => (m ((c.tc : Thread nD τ).loc main_arg1) : S8192.Idx → BitVec 32)
set_option quotPrecheck false in
local notation "feat" => Cert.Inputs.featOf Xin
set_option quotPrecheck false in
local notation "lab" => Cert.Inputs.labOf Lw

/-! ## The constants -/

/-- The pattern 0x46000000 denotes the real 8192 (2 to the 13). -/
theorem ofBits_8192 : Ideal.ofBits .f32 0x46000000#32 = ((8192 : ℝ) : EReal) := by
  simp [Ideal.ofBits, Ideal.ieee, -EReal.coe_mul]; norm_num

/-- The pattern 0x45000000 denotes the real 2048 (2 to the 11). -/
theorem ofBits_2048 : Ideal.ofBits .f32 0x45000000#32 = ((2048 : ℝ) : EReal) := by
  simp [Ideal.ofBits, Ideal.ieee, -EReal.coe_mul]; norm_num

/-! ## What the regions and the launch leave, read off the valuations -/

/-- The feature matrix is still the launched one after the first stretch. -/
theorem V1_arg0 : Gen.V1 m c main_arg0 = m ((c.tc : Thread nD τ).loc main_arg0) :=
  (Gen.V1_of m c main_arg0 (by decide)).trans rfl

/-- The id words are still the launched ones when the second stretch reads them. -/
theorem V2_arg1 (outs : Gen.Outs (F := Ideal)) : Gen.V2 m outs c main_arg1 = m ((c.tc : Thread nD τ).loc main_arg1) :=
  (Gen.V2_of m outs c main_arg1 (by decide)).trans ((Gen.V1_of m c main_arg1 (by decide)).trans rfl)

/-- The table of class sums is what the first region left. -/
theorem V2_v2 (outs : Gen.Outs (F := Ideal)) : Gen.V2 m outs c main_v2 = outs 2 main_v2 c :=
  Function.update_self _ _ _

/-- The per-row losses are what the second region left. -/
theorem V6_v14 (outs : Gen.Outs (F := Ideal)) : Gen.V6 m outs c main_v14 = outs 6 main_v14 c :=
  Function.update_self _ _ _

/-! ## The two casts of the id vector -/

/-- The row [1, 8192] is the cast of the id vector. -/
theorem V1_v0_eq : (Gen.V1 m c main_v0 : S1x8192.Idx → BitVec 32) = shapeCast S1x8192 Lw shapeCasts_S8192_S1x8192 := by
  show StableHlo.after hostOps0 _ (Proc.devRef .tc main_v0) = _
  after_results
  rfl

/-- The row holds row i's id at (0, i). -/
theorem V1_v0 (i : Fin 8192) : (Gen.V1 m c main_v0 : S1x8192.Idx → BitVec 32) (ix2 (0 : Fin 1) i) = Lw (ix1 i) :=
  (congrFun (V1_v0_eq m c) _).trans (shapeCast_a_1a_apply _ _ 0 i)

/-- The column [8192, 1] is the cast of the id vector. -/
theorem V1_v1_eq : (Gen.V1 m c main_v1 : S8192x1.Idx → BitVec 32) = shapeCast S8192x1 Lw shapeCasts_S8192_S8192x1 := by
  show StableHlo.after hostOps0 _ (Proc.devRef .tc main_v1) = _
  after_results
  rfl

/-- No later stretch and no region writes the column: the second region finds row i's id at (i, 0). -/
theorem V5_v1 (outs : Gen.Outs (F := Ideal)) (i : Fin 8192) :
    (Gen.V5 m outs c main_v1 : S8192x1.Idx → BitVec 32) (ix2 i (0 : Fin 1)) = Lw (ix1 i) := by
  have e : Gen.V5 m outs c main_v1 = Gen.V1 m c main_v1 :=
    (Gen.V5_of m outs c main_v1 (by decide)).trans <| (Gen.V4_of m outs c main_v1 (by decide)).trans <|
      (Gen.V3_of m outs c main_v1 (by decide)).trans (Gen.V2_of m outs c main_v1 (by decide))
  exact (congrFun (e.trans (V1_v1_eq m c)) _).trans (Cert.LibKeepdims.shapeCast_a_a1_apply _ _ i 0)

/-! ## The class counts, the safe counts and the table of means, as the program makes them -/

/-- The table of class counts as the program makes it from the id words: a one added at each row's class into zeros. -/
def countsT (l : IVec S8192 32) : FVec Ideal S4096 .f32 :=
  Host.scatterAdd (F := Ideal) scatter_S4096_S8192x1_S8192_n_0_0_1
    (broadcastInDim S4096 ![] bcast_S_S4096 (constant (F := Ideal) S_ .f32 0x00000000#32))
    (broadcastInDim S8192x1 ![0] bcast_S8192_S8192x1_0 l)
    (broadcastInDim S8192 ![] bcast_S_S8192 (constant (F := Ideal) S_ .f32 0x3F800000#32))

/-- The counts with an empty class's count replaced by one. -/
def safeT (l : IVec S8192 32) : FVec Ideal S4096 .f32 :=
  select (cmpf (F := Ideal) .oeq (countsT l) (broadcastInDim S4096 ![] bcast_S_S4096 (constant (F := Ideal) S_ .f32 0x00000000#32)))
    (broadcastInDim S4096 ![] bcast_S_S4096 (constant (F := Ideal) S_ .f32 0x3F800000#32))
    (countsT l)

/-- A table of class sums divided, row by row, by the safe counts (the change of format is the identity on the
    extended reals). -/
def meanT (l : IVec S8192 32) (s : FVec Ideal S4096x4096 .f32) : FVec Ideal S4096x4096 .bf16 :=
  truncf .bf16 (Host.divf s (broadcastInDim S4096x4096 ![0, 1] bcast_S4096x1_S4096x4096_0_1
    (broadcastInDim S4096x1 ![0] bcast_S4096_S4096x1_0 (safeT l)))) bitsLt_bf16_f32

/-- The second region's table operand is the table of means made from what the first region left. -/
theorem V5_v13_eq (outs : Gen.Outs (F := Ideal)) :
    (Gen.V5 m outs c main_v13 : S4096x4096.Idx → EReal) = meanT Lw (outs 2 main_v2 c) := by
  show StableHlo.after hostOps1_2 _ (Proc.devRef .tc main_v13) = _
  after_results
  rw [V2_arg1 m c outs, V2_v2 m c outs]
  rfl

/-- A word below 4096 read signed is its unsigned value. -/
theorem toInt_of_lt_4096 (w : BitVec 32) (h : w.toNat < 4096) : w.toInt = (w.toNat : ℤ) :=
  BitVec.toInt_eq_toNat_of_lt (by omega)

/-- Entry n of the counts is the number of rows of class n: the zero entry plus a one for every row whose id is n. -/
theorem countsT_apply (l : IVec S8192 32) (hl : ∀ i : S8192.Idx, (l i).toNat < 4096) (n : Fin 4096) :
    countsT l (ix1 n) = Cert.Spec.cnt (Cert.Inputs.labOf l) n.val := by
  show Ideal.hostScatterAdd scatter_S4096_S8192x1_S8192_n_0_0_1 _ _ _ (ix1 n) = _
  rw [Cert.LibScatterVec.scatterAdd_vec_apply scatter_S4096_S8192x1_S8192_n_0_0_1 rfl rfl rfl rfl]
  rw [broadcastInDim_scalar_apply, constant_apply, Ideal.ofBits_zero_f32, zero_add]
  unfold Cert.Spec.cnt
  refine Finset.sum_congr rfl fun e _ => ?_
  rw [broadcastInDim_scalar_apply, constant_apply, Ideal.ofBits_one_f32]
  have hidx : broadcastInDim S8192x1 ![0] bcast_S8192_S8192x1_0 l (ix2 e (0 : Fin 1)) = l (ix1 e) :=
    broadcastInDim_apply _ _ _ (ix2 e (0 : Fin 1)) (ix1 e) (fun a => match a with | ⟨0, _⟩ => rfl)
  rw [hidx, toInt_of_lt_4096 _ (hl (ix1 e))]
  show (if ((l (ix1 e)).toNat : ℤ) = (n.val : ℤ) then (1 : EReal) else 0) = if (l (ix1 e)).toNat = n.val then 1 else 0
  simp only [Nat.cast_inj]

/-- A selection on "x equals zero" between a and x itself. -/
theorem select_oeq_zero_self (x a : EReal) : Scalar.select (Ideal.cmp .oeq x 0) a x = if x = 0 then a else x := by
  by_cases h : x = 0
  · simp [Scalar.select, Ideal.cmp, h]
  · simp [Scalar.select, Ideal.cmp, h]

/-- Entry n of the safe counts. -/
theorem safeT_apply (l : IVec S8192 32) (hl : ∀ i : S8192.Idx, (l i).toNat < 4096) (n : Fin 4096) :
    safeT l (ix1 n) = if Cert.Spec.cnt (Cert.Inputs.labOf l) n.val = 0 then 1 else Cert.Spec.cnt (Cert.Inputs.labOf l) n.val := by
  unfold safeT
  rw [select_apply, cmpf_apply, countsT_apply l hl n, broadcastInDim_scalar_apply, constant_apply, Ideal.ofBits_zero_f32,
    broadcastInDim_scalar_apply, constant_apply, Ideal.ofBits_one_f32]
  exact select_oeq_zero_self _ _

/-- Entry (cc, j) of the table of means: the sum there over the safe count of class cc. -/
theorem meanT_apply (l : IVec S8192 32) (hl : ∀ i : S8192.Idx, (l i).toNat < 4096) (s : FVec Ideal S4096x4096 .f32)
    (cc j : Fin 4096) :
    meanT l s (ix2 cc j) = Ideal.div (s (ix2 cc j))
      (if Cert.Spec.cnt (Cert.Inputs.labOf l) cc.val = 0 then 1 else Cert.Spec.cnt (Cert.Inputs.labOf l) cc.val) := by
  unfold meanT
  rw [truncf_apply, hostDivf_apply]
  have hb : broadcastInDim S4096x4096 ![0, 1] bcast_S4096x1_S4096x4096_0_1
      (broadcastInDim S4096x1 ![0] bcast_S4096_S4096x1_0 (safeT l)) (ix2 cc j) = safeT l (ix1 cc) :=
    (broadcastInDim_apply _ _ _ (ix2 cc j) (ix2 cc (0 : Fin 1))
      (fun a => match a with | ⟨0, _⟩ => rfl | ⟨1, _⟩ => rfl)).trans
      (broadcastInDim_apply _ _ _ (ix2 cc (0 : Fin 1)) (ix1 cc) (fun a => match a with | ⟨0, _⟩ => rfl))
  rw [hb, safeT_apply l hl cc]

/-- The second region's table operand is the table of class means, given that the first region left the class sums. -/
theorem V5_v13 (outs : Gen.Outs (F := Ideal)) (hlab : ∀ i : S8192.Idx, (Lw i).toNat < 4096)
    (h2 : (outs 2 main_v2 c : S4096x4096.Idx → EReal) = fun idx => Cert.Spec.sums feat lab (idx 0).val (idx 1))
    (cc j : Fin 4096) :
    (Gen.V5 m outs c main_v13 : S4096x4096.Idx → EReal) (ix2 cc j) = Cert.Spec.mean feat lab cc.val j := by
  refine (congrFun (V5_v13_eq m c outs) (ix2 cc j)).trans ?_
  rw [meanT_apply _ hlab, h2]
  rfl

/-! ## The last stretch: the total of the per-row losses over 8192, over 2048 -/

/-- The program's last stretch applied to a column of per-row losses. -/
def lossT (p : FVec Ideal S8192x1 .f32) : FVec Ideal S_ .f32 :=
  Host.divf (Host.divf
      (Host.reduceAdd p (constant (F := Ideal) S_ .f32 0x00000000#32) reducesTo_S8192x1_S_d0_1 h_S_)
      (constant (F := Ideal) S_ .f32 0x46000000#32))
    (constant (F := Ideal) S_ .f32 0x45000000#32)

/-- The program's result is the last stretch applied to what the second region left. -/
theorem V7_v17_eq (outs : Gen.Outs (F := Ideal)) :
    (Gen.V7 m outs c main_v17 : S_.Idx → EReal) = lossT (outs 6 main_v14 c) := by
  show StableHlo.after hostOps2 _ (Proc.devRef .tc main_v17) = _
  after_results
  rw [V6_v14 m c outs]
  rfl

/-- The last stretch at its one index: the sum of the column's 8192 entries (from zero), over 8192, over 2048. -/
theorem lossT_apply (p : FVec Ideal S8192x1 .f32) (j : S_.Idx) :
    lossT p j = Ideal.div (Ideal.div (∑ i : Fin 8192, p (ix2 i (0 : Fin 1))) ((8192 : ℝ) : EReal)) ((2048 : ℝ) : EReal) := by
  unfold lossT
  rw [hostDivf_apply, hostDivf_apply, hostReduceAdd_apply, constant_apply, constant_apply, constant_apply,
    ofBits_2048, ofBits_8192, Ideal.ofBits_zero_f32,
    Ideal.hostReduceAdd_total reducesTo_S8192x1_S_d0_1 (fun b => b.elim0), zero_add, sum_idx2]
  simp only [Fin.sum_univ_one]

/-- The program's result is the kernel's loss, given that the second region left each row's negated picked entry. -/
theorem V7_v17 (outs : Gen.Outs (F := Ideal))
    (h6 : (outs 6 main_v14 c : S8192x1.Idx → EReal)
      = fun idx => 0 - Cert.Spec.pick (Cert.Spec.centerK feat lab (idx 0)) (lab (idx 0))) :
    (Gen.V7 m outs c main_v17 : S_.Idx → EReal) = fun _ => Cert.Spec.lossK feat lab := by
  funext j
  refine (congrFun (V7_v17_eq m c outs) j).trans ?_
  rw [lossT_apply, h6]
  rfl

end Cert.KernelIdeal.Hand

end
-- ==== Proof.KValue.lean ====
/- The kernel program's result at the ideal instance, as the mathematics states it: region 0 leaves the class sums, the host
   lines between the regions make the table of class means, region 1 leaves each row's negated log-softmax entry at its class
   (the centre read through the one-hot product with the table), and the last host lines average and scale. -/
import proofs.«418073_j77309412134_1_alg».proof.Proof.Run
import proofs.«418073_j77309412134_1_alg».proof.Proof.R0Value
import proofs.«418073_j77309412134_1_alg».proof.Proof.R1Value
import proofs.«418073_j77309412134_1_alg».proof.Proof.KHost
import proofs.«418073_j77309412134_1_alg».proof.Proof.Spec
import proofs.«418073_j77309412134_1_alg».proof.Proof.Inputs

set_option maxRecDepth 16384

noncomputable section

namespace Cert.KernelIdeal.Hand

open Idealize.ShloMosaic Idealize.ShloMosaic.TcCoe Idealize.ShloMosaic.ValueIdx Idealize.SL.Sem
open Cert.KernelIdeal.Gen

variable (m : (ℓ : Loc nD τ sig) → Buf (Elt Ideal) ℓ) (c : Dev nD)

/-- The feature matrix and the class ids as the launch memory holds them. -/
abbrev featK : Fin 8192 → Fin 4096 → EReal := Cert.Inputs.featOf (m ((c.tc : Thread nD τ).loc main_arg0))
abbrev labK : Fin 8192 → ℕ := Cert.Inputs.labOf (m ((c.tc : Thread nD τ).loc main_arg1))

/-- Region 0 leaves the class sums. -/
theorem o2_eq : (o2 m c : S4096x4096.Idx → EReal) = fun idx => Cert.Spec.sums (featK m c) (labK m c) (idx 0).val (idx 1) := by
  unfold o2
  rw [arr0_eq (E1 m) c]
  funext idx
  unfold Cert.Spec.sums
  refine Finset.sum_congr rfl fun i _ => ?_
  rw [show (E1 m c main_v0 : S1x8192.Idx → BitVec 32) (ix2 (0 : Fin 1) i) = m ((c.tc : Thread nD τ).loc main_arg1) (ix1 i) from V1_v0 m c i,
    show (E1 m c main_arg0 : S8192x4096.Idx → EReal) = m ((c.tc : Thread nD τ).loc main_arg0) from V1_arg0 m c]
  rfl

/-- Region 1 leaves, row by row, zero minus the log-softmax entry of the row's centre at the row's class. -/
theorem o6_eq (hlab : ∀ i : S8192.Idx, ((m ((c.tc : Thread nD τ).loc main_arg1)) i).toNat < 4096) :
    (o6 m c : S8192x1.Idx → EReal) = fun idx => 0 - Cert.Spec.pick (Cert.Spec.centerK (featK m c) (labK m c) (idx 0)) (labK m c (idx 0)) := by
  have h2 : (outs2 m 2 main_v2 c : S4096x4096.Idx → EReal)
      = fun idx => Cert.Spec.sums (featK m c) (labK m c) (idx 0).val (idx 1) := by
    rw [outs2_2]; exact o2_eq m c
  refine (arr1_eq (E5 m) c).trans (funext fun (idx : S8192x1.Idx) => ?_)
  have hl : ((E5 m c main_v1 : S8192x1.Idx → BitVec 32) (ix2 (idx 0) (0 : Fin 1))).toNat = labK m c (idx 0) :=
    congrArg BitVec.toNat (V5_v1 m c (outs2 m) (idx 0))
  have hrow : (fun j : Fin 4096 => ∑ cc : Fin 4096,
        (if ((E5 m c main_v1 : S8192x1.Idx → BitVec 32) (ix2 (idx 0) (0 : Fin 1))).toNat = cc.val then (1 : EReal) else 0)
          * (E5 m c main_v13 : S4096x4096.Idx → EReal) (ix2 cc j))
      = Cert.Spec.centerK (featK m c) (labK m c) (idx 0) := by
    funext j
    unfold Cert.Spec.centerK
    refine Finset.sum_congr rfl fun cc _ => ?_
    rw [hl]
    exact congrArg (fun x : EReal => (if labK m c (idx 0) = cc.val then (1 : EReal) else 0) * x) (V5_v13 m c (outs2 m) hlab h2 cc j)
  beta_reduce
  rw [hrow, hl]

/-- The kernel's result. -/
theorem kernel_value (hlab : ∀ i : S8192.Idx, ((m ((c.tc : Thread nD τ).loc main_arg1)) i).toNat < 4096) :
    V7 m (outsH m) c main_v17 = fun _ => Cert.Spec.lossK (featK m c) (labK m c) :=
  V7_v17 m c (outsH m) ((outsH_6 m c).trans (o6_eq m c hlab))

end Cert.KernelIdeal.Hand

end
-- ==== Proof.PreFacts.lean ====
/-
  The class-id range, read out of the input precondition.

  The precondition is the conjunction of three "for all" statements, each a reduction by "and" of
  an elementwise comparison: every feature is finite, every label is at least 0 as a signed word,
  every label is below 4096 as a signed word. From the last two: a 32-bit word `w` with
  `0 ≤ w.toInt` has its top bit clear, so its signed and unsigned readings agree, and then
  `w.toInt < 4096` is `w.toNat < 4096`.
-/
import proofs.«418073_j77309412134_1_alg».proof.Pre_finite_inputs
import proofs.«418073_j77309412134_1_alg».proof.Proof.Gen.Pre_finite_inputs
import Idealize.ShloMosaic.Lib.ReduceAll
import Idealize.ShloMosaic.Lib.StableHlo.Predicate
import Idealize.ShloMosaic.Lib.ValueIdx

namespace Cert.PreFacts

open Idealize.ShloMosaic

/-- The scalar shape has exactly one index: there is no axis to disagree on. -/
instance subsingleton_scalar_idx : Subsingleton Cert.Pre_finite_inputs.S_.Idx :=
  ⟨fun _ _ => funext fun d => d.elim0⟩

/-- A word that tests `≥ 0` and `< 4096` as a SIGNED word is below 4096 as a natural number:
    non-negativity clears the top bit, so both readings are the same number. -/
theorem word_lt_of_signed_range {w : BitVec 32}
    (h0 : IntOp.cmpi .sge w 0#32 = 1#1) (h1 : IntOp.cmpi .slt w 4096#32 = 1#1) : w.toNat < 4096 := by
  rw [IntOp.cmpi_sge, show (0#32 : BitVec 32).toInt = 0 from by decide] at h0
  rw [IntOp.cmpi_slt, show (4096#32 : BitVec 32).toInt = 4096 from by decide] at h1
  have htop : 2 * w.toNat < 2 ^ 32 := BitVec.toInt_pos_iff.1 h0
  rw [BitVec.toInt_eq_toNat_of_lt htop] at h1
  omega

variable [Cert.Pre_finite_inputs.Facts]

/-- The two label conjuncts of the precondition at one position: the label there is `≥ 0` and `< 4096`, signed. -/
theorem lab_cmp {F : FTy → Type} [FloatOps F] (x : FVec F Cert.Pre_finite_inputs.S8192x4096 .f32)
    (l : IVec Cert.Pre_finite_inputs.S8192 32)
    (h : Cert.Pre_finite_inputs.fn (F := F) x l = fun _ => 1#1) (i : Cert.Pre_finite_inputs.S8192.Idx) :
    IntOp.cmpi .sge (l i) 0#32 = 1#1 ∧ IntOp.cmpi .slt (l i) 4096#32 = 1#1 := by
  have e := congrFun h ValueIdx.ix0
  dsimp only [Cert.Pre_finite_inputs.fn] at e
  -- the outer "and": (finite ∧ nonneg) ∧ below
  obtain ⟨e12, e3⟩ := IntOp.andi_eq_one.1 e
  obtain ⟨_, e2⟩ := IntOp.andi_eq_one.1 e12
  -- each "for all" gives its comparison at position i; the compared constant is a broadcast scalar
  have g2 := Host.reduce_andi_all _ _ _ _ _ e2 i
  have g3 := Host.reduce_andi_all _ _ _ _ _ e3 i
  exact ⟨g2, g3⟩

/-- Every class id is below 4096 as a natural number. -/
theorem lab_lt {F : FTy → Type} [FloatOps F] (x : FVec F Cert.Pre_finite_inputs.S8192x4096 .f32)
    (l : IVec Cert.Pre_finite_inputs.S8192 32)
    (h : Cert.Pre_finite_inputs.fn (F := F) x l = fun _ => 1#1) (i : Cert.Pre_finite_inputs.S8192.Idx) :
    (l i).toNat < 4096 :=
  let ⟨h0, h1⟩ := lab_cmp x l h i
  word_lt_of_signed_range h0 h1

/-- The signed reading of a class id is its natural-number value, and lies in [0, 4096). -/
theorem lab_toInt {F : FTy → Type} [FloatOps F] (x : FVec F Cert.Pre_finite_inputs.S8192x4096 .f32)
    (l : IVec Cert.Pre_finite_inputs.S8192 32)
    (h : Cert.Pre_finite_inputs.fn (F := F) x l = fun _ => 1#1) (i : Cert.Pre_finite_inputs.S8192.Idx) :
    (l i).toInt = ((l i).toNat : Int) ∧ 0 ≤ (l i).toInt ∧ (l i).toInt < 4096 := by
  have hlt := lab_lt x l h i
  have e : (l i).toInt = ((l i).toNat : Int) := BitVec.toInt_eq_toNat_of_lt (by omega)
  refine ⟨e, ?_, ?_⟩ <;> rw [e] <;> omega

end Cert.PreFacts
-- ==== Proof.RefValueRun.lean ====
/- The reference's run, read stretch by stretch.

   The reference's 77 operations are cut into nine consecutive stretches. For each stretch: if the device's buffers hold, at
   the few buffers later operations still read, the stages (one named value per operation, each a function of the two
   arguments), then after the stretch the buffers it wrote hold their stages and the buffers it only read are unchanged.
   Each fact is a computation on at most a dozen operations. Chained from the launch contents, the buffer of the result
   holds the last stage; that stage is the composed term the run names, so the run holds with its original statement. -/
import proofs.«418073_j77309412134_1_alg».proof.Proof.RefReadP
import Idealize.ShloMosaic.Lib.StableHlo.Run

noncomputable section

namespace Cert.RefValueRun

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- Contents moved to a buffer's own type and back are the contents. -/
theorem ofBuf_toBuf {sig : RefSig} {T : BufTy} {Val : EltTy → Type} (x : TRef sig T) (v : T.Contents Val) :
    x.ofBuf (x.toBuf v) = v := by
  unfold TRef.ofBuf TRef.toBuf
  rw [cast_cast, cast_eq]

/-- Operations 1 to 10 of the reference. -/
abbrev opsA : List (HloOp τ sig (Elt F)) :=
  [ nullary main_cst (constant S_ .f32 0x00000000#32),
    unary main_cst main_v0 (broadcastInDim S4096x4096 ![] bcast_S_S4096x4096 : (⟨S_, .f32⟩ : BufTy).Contents (Elt F) → (⟨S4096x4096, .f32⟩ : BufTy).Contents (Elt F)),
    unary main_arg1 main_v1 (broadcastInDim S8192x1 ![0] bcast_S8192_S8192x1_0 : (⟨S8192, .i32⟩ : BufTy).Contents (Elt F) → (⟨S8192x1, .i32⟩ : BufTy).Contents (Elt F)),
    ternary main_v0 main_v1 main_arg0 main_v2 ((fun x i u => Host.scatterAdd scatter_S4096x4096_S8192x1_S8192x4096_1_0_0_1 x i u) : (⟨S4096x4096, .f32⟩ : BufTy).Contents (Elt F) → (⟨S8192x1, .i32⟩ : BufTy).Contents (Elt F) → (⟨S8192x4096, .f32⟩ : BufTy).Contents (Elt F) → (⟨S4096x4096, .f32⟩ : BufTy).Contents (Elt F)),
    nullary main_cst_0 (constant S_ .f32 0x3F800000#32),
    unary main_cst_0 main_v3 (broadcastInDim S8192 ![] bcast_S_S8192 : (⟨S_, .f32⟩ : BufTy).Contents (Elt F) → (⟨S8192, .f32⟩ : BufTy).Contents (Elt F)),
    nullary main_cst_1 (constant S_ .f32 0x00000000#32),
    unary main_cst_1 main_v4 (broadcastInDim S4096 ![] bcast_S_S4096 : (⟨S_, .f32⟩ : BufTy).Contents (Elt F) → (⟨S4096, .f32⟩ : BufTy).Contents (Elt F)),
    unary main_arg1 main_v5 (broadcastInDim S8192x1 ![0] bcast_S8192_S8192x1_0 : (⟨S8192, .i32⟩ : BufTy).Contents (Elt F) → (⟨S8192x1, .i32⟩ : BufTy).Contents (Elt F)),
    ternary main_v4 main_v5 main_v3 main_v6 ((fun x i u => Host.scatterAdd scatter_S4096_S8192x1_S8192_n_0_0_1 x i u) : (⟨S4096, .f32⟩ : BufTy).Contents (Elt F) → (⟨S8192x1, .i32⟩ : BufTy).Contents (Elt F) → (⟨S8192, .f32⟩ : BufTy).Contents (Elt F) → (⟨S4096, .f32⟩ : BufTy).Contents (Elt F)) ]

/-- Operations 11 to 19 of the reference. -/
abbrev opsB : List (HloOp τ sig (Elt F)) :=
  [ nullary main_c (constantI S_ 32 0#32),
    unary main_c main_v7 (broadcastInDim S8192 ![] bcast_S_S8192 : (⟨S_, .i32⟩ : BufTy).Contents (Elt F) → (⟨S8192, .i32⟩ : BufTy).Contents (Elt F)),
    binary main_arg1 main_v7 main_v8 (cmpi .slt : (⟨S8192, .i32⟩ : BufTy).Contents (Elt F) → (⟨S8192, .i32⟩ : BufTy).Contents (Elt F) → (⟨S8192, .i1⟩ : BufTy).Contents (Elt F)),
    nullary main_c_2 (constantI S_ 32 4096#32),
    unary main_c_2 main_v9 (broadcastInDim S8192 ![] bcast_S_S8192 : (⟨S_, .i32⟩ : BufTy).Contents (Elt F) → (⟨S8192, .i32⟩ : BufTy).Contents (Elt F)),
    binary main_arg1 main_v9 main_v10 (addi : (⟨S8192, .i32⟩ : BufTy).Contents (Elt F) → (⟨S8192, .i32⟩ : BufTy).Contents (Elt F) → (⟨S8192, .i32⟩ : BufTy).Contents (Elt F)),
    ternary main_v8 main_v10 main_arg1 main_v11 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v11 main_v12 (broadcastInDim S8192x1 ![0] bcast_S8192_S8192x1_0 : (⟨S8192, .i32⟩ : BufTy).Contents (Elt F) → (⟨S8192x1, .i32⟩ : BufTy).Contents (Elt F)),
    binary main_v2 main_v12 main_v13 ((fun x i => Host.gather gather_S4096x4096_S8192x1_S8192x4096_1_0_n_n_0_1_14096 x i) : (⟨S4096x4096, .f32⟩ : BufTy).Contents (Elt F) → (⟨S8192x1, .i32⟩ : BufTy).Contents (Elt F) → (⟨S8192x4096, .f32⟩ : BufTy).Contents (Elt F)) ]

/-- Operations 20 to 31 of the reference. -/
abbrev opsC : List (HloOp τ sig (Elt F)) :=
  [ nullary main_c_3 (constantI S_ 32 0#32),
    unary main_c_3 main_v14 (broadcastInDim S8192 ![] bcast_S_S8192 : (⟨S_, .i32⟩ : BufTy).Contents (Elt F) → (⟨S8192, .i32⟩ : BufTy).Contents (Elt F)),
    binary main_arg1 main_v14 main_v15 (cmpi .slt : (⟨S8192, .i32⟩ : BufTy).Contents (Elt F) → (⟨S8192, .i32⟩ : BufTy).Contents (Elt F) → (⟨S8192, .i1⟩ : BufTy).Contents (Elt F)),
    nullary main_c_4 (constantI S_ 32 4096#32),
    unary main_c_4 main_v16 (broadcastInDim S8192 ![] bcast_S_S8192 : (⟨S_, .i32⟩ : BufTy).Contents (Elt F) → (⟨S8192, .i32⟩ : BufTy).Contents (Elt F)),
    binary main_arg1 main_v16 main_v17 (addi : (⟨S8192, .i32⟩ : BufTy).Contents (Elt F) → (⟨S8192, .i32⟩ : BufTy).Contents (Elt F) → (⟨S8192, .i32⟩ : BufTy).Contents (Elt F)),
    ternary main_v15 main_v17 main_arg1 main_v18 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v18 main_v19 (broadcastInDim S8192x1 ![0] bcast_S8192_S8192x1_0 : (⟨S8192, .i32⟩ : BufTy).Contents (Elt F) → (⟨S8192x1, .i32⟩ : BufTy).Contents (Elt F)),
    binary main_v6 main_v19 main_v20 ((fun x i => Host.gather gather_S4096_S8192x1_S8192_n_0_n_n_0_1_1 x i) : (⟨S4096, .f32⟩ : BufTy).Contents (Elt F) → (⟨S8192x1, .i32⟩ : BufTy).Contents (Elt F) → (⟨S8192, .f32⟩ : BufTy).Contents (Elt F)),
    unary main_v20 main_v21 (broadcastInDim S8192x1 ![0] bcast_S8192_S8192x1_0 : (⟨S8192, .f32⟩ : BufTy).Contents (Elt F) → (⟨S8192x1, .f32⟩ : BufTy).Contents (Elt F)),
    unary main_v21 main_v22 (broadcastInDim S8192x4096 ![0, 1] bcast_S8192x1_S8192x4096_0_1 : (⟨S8192x1, .f32⟩ : BufTy).Contents (Elt F) → (⟨S8192x4096, .f32⟩ : BufTy).Contents (Elt F)),
    binary main_v13 main_v22 main_v23 (Host.divf : (⟨S8192x4096, .f32⟩ : BufTy).Contents (Elt F) → (⟨S8192x4096, .f32⟩ : BufTy).Contents (Elt F) → (⟨S8192x4096, .f32⟩ : BufTy).Contents (Elt F)) ]

/-- Operations 32 to 39 of the reference. -/
abbrev opsD : List (HloOp τ sig (Elt F)) :=
  [ TRef.nullary (TRef.of (T := ⟨S_, .f32⟩) main_call0_cst) (constant S_ .f32 0xFF800000#32),
    TRef.binary (TRef.of (T := ⟨S8192x4096, .f32⟩) main_v23) (TRef.of (T := ⟨S_, .f32⟩) main_call0_cst) (TRef.of (T := ⟨S8192, .f32⟩) main_call0_v0) (fun x v => Host.reduce FloatOps.maximumf x v reducesTo_S8192x4096_S8192_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S8192, .f32⟩) main_call0_v1) (broadcastInDim S8192 ![] bcast_S_S8192),
    TRef.binary (TRef.of (T := ⟨S8192, .f32⟩) main_call0_v1) (TRef.of (T := ⟨S8192, .f32⟩) main_call0_v0) (TRef.of (T := ⟨S8192, .f32⟩) main_call0_v2) maximumf,
    TRef.unary (TRef.of (T := ⟨S8192, .f32⟩) main_call0_v2) (TRef.of (T := ⟨S8192x1, .f32⟩) main_call0_v3) (broadcastInDim S8192x1 ![0] bcast_S8192_S8192x1_0),
    TRef.unary (TRef.of (T := ⟨S8192x1, .f32⟩) main_call0_v3) (TRef.of (T := ⟨S8192x4096, .f32⟩) main_call0_v4) (broadcastInDim S8192x4096 ![0, 1] bcast_S8192x1_S8192x4096_0_1),
    TRef.binary (TRef.of (T := ⟨S8192x4096, .f32⟩) main_v23) (TRef.of (T := ⟨S8192x4096, .f32⟩) main_call0_v4) (TRef.of (T := ⟨S8192x4096, .f32⟩) main_call0_v5) subf ]

/-- Operations 40 to 46 of the reference. -/
abbrev opsE : List (HloOp τ sig (Elt F)) :=
  [ TRef.unary (TRef.of (T := ⟨S8192x4096, .f32⟩) main_call0_v5) (TRef.of (T := ⟨S8192x4096, .f32⟩) main_call0_v6) Host.exp,
    TRef.nullary (TRef.of (T := ⟨S_, .f32⟩) main_call0_cst_1) (constant S_ .f32 0x00000000#32),
    TRef.binary (TRef.of (T := ⟨S8192x4096, .f32⟩) main_call0_v6) (TRef.of (T := ⟨S_, .f32⟩) main_call0_cst_1) (TRef.of (T := ⟨S8192, .f32⟩) main_call0_v7) (fun x v => Host.reduceAdd x v reducesTo_S8192x4096_S8192_d1 h_S_),
    TRef.unary (TRef.of (T := ⟨S8192, .f32⟩) main_call0_v7) (TRef.of (T := ⟨S8192x1, .f32⟩) main_call0_v8) (broadcastInDim S8192x1 ![0] bcast_S8192_S8192x1_0),
    TRef.unary (TRef.of (T := ⟨S8192x1, .f32⟩) main_call0_v8) (TRef.of (T := ⟨S8192x1, .f32⟩) main_call0_v9) Host.log,
    TRef.unary (TRef.of (T := ⟨S8192x1, .f32⟩) main_call0_v9) (TRef.of (T := ⟨S8192x4096, .f32⟩) main_call0_v10) (broadcastInDim S8192x4096 ![0, 1] bcast_S8192x1_S8192x4096_0_1),
    TRef.binary (TRef.of (T := ⟨S8192x4096, .f32⟩) main_call0_v5) (TRef.of (T := ⟨S8192x4096, .f32⟩) main_call0_v10) (TRef.of (T := ⟨S8192x4096, .f32⟩) main_v24) subf ]

/-- Operations 47 to 55 of the reference. -/
abbrev opsF : List (HloOp τ sig (Elt F)) :=
  [ unary main_arg1 main_v25 (broadcastInDim S8192x1 ![0] bcast_S8192_S8192x1_0 : (⟨S8192, .i32⟩ : BufTy).Contents (Elt F) → (⟨S8192x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S8192x1, .i32⟩) main_call1_v0) (broadcastInDim S8192x1 ![] bcast_S_S8192x1),
    TRef.binary (TRef.of (T := ⟨S8192x1, .i32⟩) main_v25) (TRef.of (T := ⟨S8192x1, .i32⟩) main_call1_v0) (TRef.of (T := ⟨S8192x1, .i1⟩) main_call1_v1) (cmpi .slt),
    TRef.nullary (TRef.of (T := ⟨S_, .i32⟩) main_call1_c_0) (constantI S_ 32 4096#32),
    TRef.unary (TRef.of (T := ⟨S_, .i32⟩) main_call1_c_0) (TRef.of (T := ⟨S8192x1, .i32⟩) main_call1_v2) (broadcastInDim S8192x1 ![] bcast_S_S8192x1),
    TRef.binary (TRef.of (T := ⟨S8192x1, .i32⟩) main_v25) (TRef.of (T := ⟨S8192x1, .i32⟩) main_call1_v2) (TRef.of (T := ⟨S8192x1, .i32⟩) main_call1_v3) addi,
    TRef.ternary (TRef.of (T := ⟨S8192x1, .i1⟩) main_call1_v1) (TRef.of (T := ⟨S8192x1, .i32⟩) main_call1_v3) (TRef.of (T := ⟨S8192x1, .i32⟩) main_v25) (TRef.of (T := ⟨S8192x1, .i32⟩) main_call1_v4) select,
    TRef.reshape (TRef.of (T := ⟨S8192x1, .i32⟩) main_call1_v4) (TRef.of (T := ⟨S8192x1x1, .i32⟩) main_call1_v5) rfl shapeCasts_S8192x1_S8192x1x1 ]

/-- Operations 56 to 65 of the reference. -/
abbrev opsG : List (HloOp τ sig (Elt F)) :=
  [ TRef.nullary (TRef.of (T := ⟨S1, .i32⟩) main_call1_c_1) (constantI S1 32 4095#32),
    TRef.nullary (TRef.of (T := ⟨S_, .i32⟩) main_call1_c_2) (constantI S_ 32 0#32),
    TRef.unary (TRef.of (T := ⟨S_, .i32⟩) main_call1_c_2) (TRef.of (T := ⟨S8192x1x1, .i32⟩) main_call1_v6) (broadcastInDim S8192x1x1 ![] bcast_S_S8192x1x1),
    TRef.binary (TRef.of (T := ⟨S8192x1x1, .i32⟩) main_call1_v5) (TRef.of (T := ⟨S8192x1x1, .i32⟩) main_call1_v6) (TRef.of (T := ⟨S8192x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S8192x1x1, .i32⟩) main_call1_v9) (broadcastInDim S8192x1x1 ![0, 1, 2] bcast_S1x1x1_S8192x1x1_0_1_2),
    TRef.binary (TRef.of (T := ⟨S8192x1x1, .i32⟩) main_call1_v5) (TRef.of (T := ⟨S8192x1x1, .i32⟩) main_call1_v9) (TRef.of (T := ⟨S8192x1x1, .i1⟩) main_call1_v10) (cmpi .sle),
    TRef.binary (TRef.of (T := ⟨S8192x1x1, .i1⟩) main_call1_v7) (TRef.of (T := ⟨S8192x1x1, .i1⟩) main_call1_v10) (TRef.of (T := ⟨S8192x1x1, .i1⟩) main_call1_v11) andi,
    TRef.nullary (TRef.of (T := ⟨S_, .i1⟩) main_call1_c_3) (constantI S_ 1 1#1),
    TRef.binary (TRef.of (T := ⟨S8192x1x1, .i1⟩) main_call1_v11) (TRef.of (T := ⟨S_, .i1⟩) main_call1_c_3) (TRef.of (T := ⟨S8192x1, .i1⟩) main_call1_v12) (fun x v => Host.reduce IntOp.andi x v reducesTo_S8192x1x1_S8192x1_d2 h_S_) ]

/-- Operations 66 to 69 of the reference. -/
abbrev opsH : List (HloOp τ sig (Elt F)) :=
  [ TRef.binary (TRef.of (T := ⟨S8192x4096, .f32⟩) main_v24) (TRef.of (T := ⟨S8192x1x1, .i32⟩) main_call1_v5) (TRef.of (T := ⟨S8192x1, .f32⟩) main_call1_v13) (fun x i => Host.gather gather_S8192x4096_S8192x1x1_S8192x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S8192x1, .f32⟩) main_call1_v14) (broadcastInDim S8192x1 ![] bcast_S_S8192x1),
    TRef.ternary (TRef.of (T := ⟨S8192x1, .i1⟩) main_call1_v12) (TRef.of (T := ⟨S8192x1, .f32⟩) main_call1_v13) (TRef.of (T := ⟨S8192x1, .f32⟩) main_call1_v14) (TRef.of (T := ⟨S8192x1, .f32⟩) main_v26) select ]

/-- Operations 70 to 77 of the reference. -/
abbrev opsI : List (HloOp τ sig (Elt F)) :=
  [ reshape main_v26 main_v27 rfl shapeCasts_S8192x1_S8192,
    nullary main_cst_5 (constant S_ .f32 0x00000000#32),
    binary main_v27 main_cst_5 main_v28 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_6 (constant S_ .f32 0x46000000#32),
    binary main_v28 main_cst_6 main_v29 (Host.divf : (⟨S_, .f32⟩ : BufTy).Contents (Elt F) → (⟨S_, .f32⟩ : BufTy).Contents (Elt F) → (⟨S_, .f32⟩ : BufTy).Contents (Elt F)),
    unary main_v29 main_v30 (Host.negf : (⟨S_, .f32⟩ : BufTy).Contents (Elt F) → (⟨S_, .f32⟩ : BufTy).Contents (Elt F)),
    nullary main_cst_7 (constant S_ .f32 0x45000000#32),
    binary main_v30 main_cst_7 main_v31 (Host.divf : (⟨S_, .f32⟩ : BufTy).Contents (Elt F) → (⟨S_, .f32⟩ : BufTy).Contents (Elt F) → (⟨S_, .f32⟩ : BufTy).Contents (Elt F)) ]

/-- The reference's operation list is the nine stretches in order. -/
theorem ops_split : (ops : List (HloOp τ sig (Elt F))) = opsA ++ (opsB ++ (opsC ++ (opsD ++ (opsE ++ (opsF ++ (opsG ++ (opsH ++ opsI))))))) := rfl

/-- Running two lists one after the other is running their concatenation. -/
theorem after_app (l₁ l₂ : List (HloOp τ sig (Elt F))) (W : Valuation τ sig (Elt F)) :
    after (l₁ ++ l₂) W = after l₂ (after l₁ W) := by
  induction l₁ generalizing W with
  | nil => rfl
  | cons op l ih => simp only [List.cons_append, after_cons, ih]

/-- Stretch A: from contents that hold the earlier stages, the stretch leaves its own stages (and keeps what later stretches read). -/
theorem stepA (W : Valuation τ sig (Elt F)) (x0 : (⟨S8192x4096, .f32⟩ : BufTy).Contents (Elt F)) (x1 : (⟨S8192, .i32⟩ : BufTy).Contents (Elt F))
    (h0 : W (Proc.devRef .tc main_arg0) = x0)
    (h1 : W (Proc.devRef .tc main_arg1) = x1) :
    after opsA W (Proc.devRef .tc main_v2) = val_main_v2 x0 x1
      ∧ after opsA W (Proc.devRef .tc main_v6) = val_main_v6 x1
      ∧ after opsA W (Proc.devRef .tc main_arg1) = x1 := by
  refine ⟨?_, ?_, ?_⟩
  · after_results_simp
    try simp only [h0, h1]
    try simp only [ofBuf_toBuf]
    simp only [val_main_cst, val_main_v0, val_main_v1, val_main_v2, val_main_cst_0, val_main_v3, val_main_cst_1, val_main_v4, val_main_v5, val_main_v6]
    try rfl
  · after_results_simp
    try simp only [h0, h1]
    try simp only [ofBuf_toBuf]
    simp only [val_main_cst, val_main_v0, val_main_v1, val_main_v2, val_main_cst_0, val_main_v3, val_main_cst_1, val_main_v4, val_main_v5, val_main_v6]
    try rfl
  · after_results_simp
    exact h1

/-- Stretch B: from contents that hold the earlier stages, the stretch leaves its own stages (and keeps what later stretches read). -/
theorem stepB (W : Valuation τ sig (Elt F)) (x0 : (⟨S8192x4096, .f32⟩ : BufTy).Contents (Elt F)) (x1 : (⟨S8192, .i32⟩ : BufTy).Contents (Elt F))
    (h0 : W (Proc.devRef .tc main_v2) = val_main_v2 x0 x1)
    (h1 : W (Proc.devRef .tc main_v6) = val_main_v6 x1)
    (h2 : W (Proc.devRef .tc main_arg1) = x1) :
    after opsB W (Proc.devRef .tc main_v13) = val_main_v13 x0 x1
      ∧ after opsB W (Proc.devRef .tc main_v6) = val_main_v6 x1
      ∧ after opsB W (Proc.devRef .tc main_arg1) = x1 := by
  refine ⟨?_, ?_, ?_⟩
  · after_results_simp
    try simp only [h0, h1, h2]
    try simp only [ofBuf_toBuf]
    simp only [val_main_c, val_main_v7, val_main_v8, val_main_c_2, val_main_v9, val_main_v10, val_main_v11, val_main_v12, val_main_v13]
    try rfl
  · after_results_simp
    exact h1
  · after_results_simp
    exact h2

/-- Stretch C: from contents that hold the earlier stages, the stretch leaves its own stages (and keeps what later stretches read). -/
theorem stepC (W : Valuation τ sig (Elt F)) (x0 : (⟨S8192x4096, .f32⟩ : BufTy).Contents (Elt F)) (x1 : (⟨S8192, .i32⟩ : BufTy).Contents (Elt F))
    (h0 : W (Proc.devRef .tc main_v13) = val_main_v13 x0 x1)
    (h1 : W (Proc.devRef .tc main_v6) = val_main_v6 x1)
    (h2 : W (Proc.devRef .tc main_arg1) = x1) :
    after opsC W (Proc.devRef .tc main_v23) = val_main_v23 x0 x1
      ∧ after opsC W (Proc.devRef .tc main_arg1) = x1 := by
  refine ⟨?_, ?_⟩
  · after_results_simp
    try simp only [h0, h1, h2]
    try simp only [ofBuf_toBuf]
    simp only [val_main_c_3, val_main_v14, val_main_v15, val_main_c_4, val_main_v16, val_main_v17, val_main_v18, val_main_v19, val_main_v20, val_main_v21, val_main_v22, val_main_v23]
    try rfl
  · after_results_simp
    exact h2

/-- Stretch D: from contents that hold the earlier stages, the stretch leaves its own stages (and keeps what later stretches read). -/
theorem stepD (W : Valuation τ sig (Elt F)) (x0 : (⟨S8192x4096, .f32⟩ : BufTy).Contents (Elt F)) (x1 : (⟨S8192, .i32⟩ : BufTy).Contents (Elt F))
    (h0 : W (Proc.devRef .tc main_v23) = val_main_v23 x0 x1)
    (h1 : W (Proc.devRef .tc main_arg1) = x1) :
    after opsD W (Proc.devRef .tc main_call0_v5) = val_main_call0_v5 x0 x1
      ∧ after opsD W (Proc.devRef .tc main_arg1) = x1 := by
  refine ⟨?_, ?_⟩
  · after_results_simp
    try simp only [h0, h1]
    try simp only [ofBuf_toBuf]
    simp only [val_main_call0_cst, val_main_call0_v0, val_main_call0_cst_0, val_main_call0_v1, val_main_call0_v2, val_main_call0_v3, val_main_call0_v4, val_main_call0_v5]
    try rfl
  · after_results_simp
    exact h1

/-- Stretch E: from contents that hold the earlier stages, the stretch leaves its own stages (and keeps what later stretches read). -/
theorem stepE (W : Valuation τ sig (Elt F)) (x0 : (⟨S8192x4096, .f32⟩ : BufTy).Contents (Elt F)) (x1 : (⟨S8192, .i32⟩ : BufTy).Contents (Elt F))
    (h0 : W (Proc.devRef .tc main_call0_v5) = val_main_call0_v5 x0 x1)
    (h1 : W (Proc.devRef .tc main_arg1) = x1) :
    after opsE W (Proc.devRef .tc main_v24) = val_main_v24 x0 x1
      ∧ after opsE W (Proc.devRef .tc main_arg1) = x1 := by
  refine ⟨?_, ?_⟩
  · after_results_simp
    try simp only [h0, h1]
    try simp only [ofBuf_toBuf]
    simp only [val_main_call0_v6, val_main_call0_cst_1, val_main_call0_v7, val_main_call0_v8, val_main_call0_v9, val_main_call0_v10, val_main_v24]
    try rfl
  · after_results_simp
    exact h1

/-- Stretch F: from contents that hold the earlier stages, the stretch leaves its own stages (and keeps what later stretches read). -/
theorem stepF (W : Valuation τ sig (Elt F)) (x0 : (⟨S8192x4096, .f32⟩ : BufTy).Contents (Elt F)) (x1 : (⟨S8192, .i32⟩ : BufTy).Contents (Elt F))
    (h0 : W (Proc.devRef .tc main_v24) = val_main_v24 x0 x1)
    (h1 : W (Proc.devRef .tc main_arg1) = x1) :
    after opsF W (Proc.devRef .tc main_v24) = val_main_v24 x0 x1
      ∧ after opsF W (Proc.devRef .tc main_call1_v5) = val_main_call1_v5 x1 := by
  refine ⟨?_, ?_⟩
  · after_results_simp
    exact h0
  · after_results_simp
    try simp only [h0, h1]
    try simp only [ofBuf_toBuf]
    simp only [val_main_v25, val_main_call1_c, val_main_call1_v0, val_main_call1_v1, val_main_call1_c_0, val_main_call1_v2, val_main_call1_v3, val_main_call1_v4, val_main_call1_v5]
    try rfl

/-- Stretch G: from contents that hold the earlier stages, the stretch leaves its own stages (and keeps what later stretches read). -/
theorem stepG (W : Valuation τ sig (Elt F)) (x0 : (⟨S8192x4096, .f32⟩ : BufTy).Contents (Elt F)) (x1 : (⟨S8192, .i32⟩ : BufTy).Contents (Elt F))
    (h0 : W (Proc.devRef .tc main_v24) = val_main_v24 x0 x1)
    (h1 : W (Proc.devRef .tc main_call1_v5) = val_main_call1_v5 x1) :
    after opsG W (Proc.devRef .tc main_v24) = val_main_v24 x0 x1
      ∧ after opsG W (Proc.devRef .tc main_call1_v5) = val_main_call1_v5 x1
      ∧ after opsG W (Proc.devRef .tc main_call1_v12) = val_main_call1_v12 x1 := by
  refine ⟨?_, ?_, ?_⟩
  · after_results_simp
    exact h0
  · after_results_simp
    exact h1
  · after_results_simp
    try simp only [h0, h1]
    try simp only [ofBuf_toBuf]
    simp only [val_main_call1_c_1, val_main_call1_c_2, val_main_call1_v6, val_main_call1_v7, val_main_call1_v8, val_main_call1_v9, val_main_call1_v10, val_main_call1_v11, val_main_call1_c_3, val_main_call1_v12]
    try rfl

/-- Stretch H: from contents that hold the earlier stages, the stretch leaves its own stages (and keeps what later stretches read). -/
theorem stepH (W : Valuation τ sig (Elt F)) (x0 : (⟨S8192x4096, .f32⟩ : BufTy).Contents (Elt F)) (x1 : (⟨S8192, .i32⟩ : BufTy).Contents (Elt F))
    (h0 : W (Proc.devRef .tc main_v24) = val_main_v24 x0 x1)
    (h1 : W (Proc.devRef .tc main_call1_v5) = val_main_call1_v5 x1)
    (h2 : W (Proc.devRef .tc main_call1_v12) = val_main_call1_v12 x1) :
    after opsH W (Proc.devRef .tc main_v26) = val_main_v26 x0 x1 := by
  after_results_simp
  try simp only [h0, h1, h2]
  try simp only [ofBuf_toBuf]
  simp only [val_main_call1_v13, val_main_call1_cst, val_main_call1_v14, val_main_v26]
  try rfl

/-- Stretch I: from contents that hold the earlier stages, the stretch leaves its own stages (and keeps what later stretches read). -/
theorem stepI (W : Valuation τ sig (Elt F)) (x0 : (⟨S8192x4096, .f32⟩ : BufTy).Contents (Elt F)) (x1 : (⟨S8192, .i32⟩ : BufTy).Contents (Elt F))
    (h0 : W (Proc.devRef .tc main_v26) = val_main_v26 x0 x1) :
    after opsI W (Proc.devRef .tc main_v31) = val_main_v31 x0 x1 := by
  after_results_simp
  try simp only [h0]
  try simp only [ofBuf_toBuf]
  simp only [val_main_v27, val_main_cst_5, val_main_v28, val_main_cst_6, val_main_v29, val_main_v30, val_main_cst_7, val_main_v31]
  try rfl

/-- After all 77 operations, from any contents, the result's buffer holds the last stage of the two arguments' contents. -/
theorem after_main_v31 (V : Valuation τ sig (Elt F)) :
    after (ops (F := F)) V (Proc.devRef .tc main_v31)
      = val_main_v31 (F := F) (V (Proc.devRef .tc main_arg0)) (V (Proc.devRef .tc main_arg1)) := by
  rw [ops_split]
  simp only [after_app]
  have hA := stepA V (V (Proc.devRef .tc main_arg0)) (V (Proc.devRef .tc main_arg1)) rfl rfl
  have hB := stepB (after opsA V) _ _ hA.1 hA.2.1 hA.2.2
  have hC := stepC (after opsB (after opsA V)) _ _ hB.1 hB.2.1 hB.2.2
  have hD := stepD (after opsC (after opsB (after opsA V))) _ _ hC.1 hC.2
  have hE := stepE (after opsD (after opsC (after opsB (after opsA V)))) _ _ hD.1 hD.2
  have hF := stepF (after opsE (after opsD (after opsC (after opsB (after opsA V))))) _ _ hE.1 hE.2
  have hG := stepG (after opsF (after opsE (after opsD (after opsC (after opsB (after opsA V)))))) _ _ hF.1 hF.2
  have hH := stepH (after opsG (after opsF (after opsE (after opsD (after opsC (after opsB (after opsA V))))))) _ _ hG.1 hG.2.1 hG.2.2
  exact stepI (after opsH (after opsG (after opsF (after opsE (after opsD (after opsC (after opsB (after opsA V)))))))) _ _ hH

/-- On every device, for any float values, from any memory with zero counters: every weakly fair execution of the
    reference terminates with the result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31) = res_main_v31 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).1.trans (after_main_v31 (launchContents m c))).trans (val_main_v31_eq m c).symm, (h c).2⟩)
    (Cert.ReferenceIdeal.ValueP.run m ρ)

end Cert.RefValueRun

end
-- ==== Proof.LibScatterRows.lean ====
/-
  An accumulating float scatter of whole rows, read at an entry on the extended reals.

  Updates `[M, C]` are added into a table `[N, C]` at the rows a column of index words `[M, 1]` names (dimension numbers:
  update window axis 1, inserted window axis 0, the one index component addressing table axis 0, index vector axis 1).
  Entry `(n, k)` of the result is the table's entry plus the sum of the updates' entries `(e, k)` over the rows `e` whose
  index word, read signed, is `n`; a word outside `[0, N)` contributes to no entry.
-/
import Idealize.ShloMosaic.PureOps.Ideal
import Idealize.ShloMosaic.Lib.ValueIdx

noncomputable section

namespace Cert.LibScatterRows

open Idealize.ShloMosaic Idealize.ShloMosaic.ValueIdx
open scoped BigOperators

/-! ## Scattering whole rows into a table

The operand index an update index lands at is, on each operand axis, a start (a component of the start index, read
signed and not clamped) plus a window coordinate. For the dimension numbers of a row scatter the two summands are
computed one by one below: on axis 0 the start is the index word of the update's row and the window coordinate vanishes
(the axis is an inserted window axis); on axis 1 the start vanishes (the axis is not addressed by the start index) and
the window coordinate is the update's column. -/

section Rows

/-- The dimension numbers of a row scatter, for a table `[N, C]`, scatter indices `[M, 1]` and updates `[M, C]`. -/
abbrev rowsDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N M C w : Nat} (wf : ScatterDims.WF ⟨2, ![N, C]⟩ ⟨2, ![M, 1]⟩ ⟨2, ![M, C]⟩ [1] [0] [0] 1)

/-- Axis 1 of the table is not addressed by the start index: the window starts at column zero. -/
theorem rows_start1 (j : (⟨2, ![M, C]⟩ : Shape).Idx) (idx : IVec ⟨2, ![M, 1]⟩ w) :
    (rowsDims N M C wf).start j idx 1 = 0 := by
  unfold ScatterDims.start
  exact dif_neg (show (1 : Fin 2) ∉ [0] by decide)

/-- Axis 0 of the table is component 0 of the start index. That component is read at the scatter-indices position
    `(j 0, 0)` — the update's row, and 0 on the index vector's axis —, signed, and not clamped. -/
theorem rows_start0 (j : (⟨2, ![M, C]⟩ : Shape).Idx) (idx : IVec ⟨2, ![M, 1]⟩ w) :
    (rowsDims N M C wf).start j idx 0 = (idx (ix2 (j 0) (0 : Fin 1))).toInt := by
  unfold ScatterDims.start
  rw [dif_pos (List.mem_singleton.2 rfl)]
  have hsi : (rowsDims N M C wf).siIdx j ⟨List.idxOf (0 : Fin 2) (rowsDims N M C wf).scatterDimsToOperandDims,
      List.idxOf_lt_length_iff.2 (List.mem_singleton.2 rfl)⟩ = ix2 (j 0) (0 : Fin 1) := by
    funext b
    refine Fin.ext ?_
    match b with
    | ⟨0, _⟩ => rfl
    | ⟨1, _⟩ => rfl
  rw [hsi]
  rfl

/-- The kept axes of the table are the ones that are not the inserted window axis 0. -/
theorem rows_mem_sKept (a : Fin 2) : a ∈ (rowsDims N M C wf).sKept ↔ a ∉ [(0 : Fin 2)] := by
  simp [ScatterDims.sKept, Shape.kept, List.mem_filter, List.mem_finRange]

/-- Axis 0 of the table is an inserted window axis: it is not among the kept axes, so its window coordinate is zero. -/
theorem rows_window0 (j : (⟨2, ![M, C]⟩ : Shape).Idx) : (rowsDims N M C wf).window j 0 = 0 := by
  unfold ScatterDims.window
  exact dif_neg fun h => (rows_mem_sKept wf 0).1 h (List.mem_singleton.2 rfl)

/-- Axis 1 is the only kept axis of the table, in position 0, and the update window axis in that position is the
    updates' axis 1: the window coordinate is the update's column. -/
theorem rows_window1 (j : (⟨2, ![M, C]⟩ : Shape).Idx) : (rowsDims N M C wf).window j 1 = (j 1).val := by
  unfold ScatterDims.window
  rw [dif_pos ((rows_mem_sKept wf 1).2 (by decide))]
  rfl

/-- The update at `(e, k')` lands at the table's entry `(n, k)` exactly when the `e`-th index word, read signed, is
    `n` and the columns agree. (The landing index is start plus window coordinate on each axis, and is dropped when
    that leaves the table: on axis 0 it is the index word, on axis 1 the update's column, which is always inside.) -/
theorem rows_resultIdx_iff (idx : IVec ⟨2, ![M, 1]⟩ w) (e : Fin M) (k' : Fin C) (n : Fin N) (k : Fin C) :
    (rowsDims N M C wf).resultIdx? (ix2 e k') idx = some (ix2 n k)
      ↔ (idx (ix2 e (0 : Fin 1))).toInt = (n.val : ℤ) ∧ k' = k := by
  have hs0 : (rowsDims N M C wf).start (ix2 e k') idx 0 + (((rowsDims N M C wf).window (ix2 e k') 0 : ℕ) : ℤ)
      = (idx (ix2 e (0 : Fin 1))).toInt := by
    rw [rows_start0, rows_window0]
    show (idx (ix2 e (0 : Fin 1))).toInt + ((0 : ℕ) : ℤ) = _
    omega
  have hs1 : (rowsDims N M C wf).start (ix2 e k') idx 1 + (((rowsDims N M C wf).window (ix2 e k') 1 : ℕ) : ℤ)
      = (k'.val : ℤ) := by
    rw [rows_start1, rows_window1]
    show (0 : ℤ) + ((k'.val : ℕ) : ℤ) = _
    omega
  unfold ScatterDims.resultIdx?
  constructor
  · intro h
    by_cases hin : ∀ a, 0 ≤ (rowsDims N M C wf).start (ix2 e k') idx a + (((rowsDims N M C wf).window (ix2 e k') a : ℕ) : ℤ)
        ∧ (rowsDims N M C wf).start (ix2 e k') idx a + (((rowsDims N M C wf).window (ix2 e k') a : ℕ) : ℤ)
          < (((⟨2, ![N, C]⟩ : Shape).size a : ℕ) : ℤ)
    · rw [dif_pos hin] at h
      have hf := Option.some.inj h
      have h0 : ((rowsDims N M C wf).start (ix2 e k') idx 0
          + (((rowsDims N M C wf).window (ix2 e k') 0 : ℕ) : ℤ)).toNat = n.val := congrArg (fun f => (f 0).val) hf
      have h1 : ((rowsDims N M C wf).start (ix2 e k') idx 1
          + (((rowsDims N M C wf).window (ix2 e k') 1 : ℕ) : ℤ)).toNat = k.val := congrArg (fun f => (f 1).val) hf
      have p0 := (hin 0).1
      rw [hs0] at h0 p0
      rw [hs1] at h1
      exact ⟨by omega, Fin.ext (by omega)⟩
    · rw [dif_neg hin] at h
      exact absurd h (by simp)
  · rintro ⟨hE, hk⟩
    subst hk
    have hin : ∀ a, 0 ≤ (rowsDims N M C wf).start (ix2 e k') idx a + (((rowsDims N M C wf).window (ix2 e k') a : ℕ) : ℤ)
        ∧ (rowsDims N M C wf).start (ix2 e k') idx a + (((rowsDims N M C wf).window (ix2 e k') a : ℕ) : ℤ)
          < (((⟨2, ![N, C]⟩ : Shape).size a : ℕ) : ℤ) := by
      intro a
      match a with
      | ⟨0, _⟩ =>
        show 0 ≤ (rowsDims N M C wf).start (ix2 e k') idx 0 + (((rowsDims N M C wf).window (ix2 e k') 0 : ℕ) : ℤ)
          ∧ (rowsDims N M C wf).start (ix2 e k') idx 0 + (((rowsDims N M C wf).window (ix2 e k') 0 : ℕ) : ℤ) < ((N : ℕ) : ℤ)
        rw [hs0, hE]
        have := n.isLt
        omega
      | ⟨1, _⟩ =>
        show 0 ≤ (rowsDims N M C wf).start (ix2 e k') idx 1 + (((rowsDims N M C wf).window (ix2 e k') 1 : ℕ) : ℤ)
          ∧ (rowsDims N M C wf).start (ix2 e k') idx 1 + (((rowsDims N M C wf).window (ix2 e k') 1 : ℕ) : ℤ) < ((C : ℕ) : ℤ)
        rw [hs1]
        have := k'.isLt
        omega
    rw [dif_pos hin]
    refine congrArg some (funext fun a => Fin.ext ?_)
    match a with
    | ⟨0, _⟩ =>
      show ((rowsDims N M C wf).start (ix2 e k') idx 0 + (((rowsDims N M C wf).window (ix2 e k') 0 : ℕ) : ℤ)).toNat = n.val
      rw [hs0, hE]
      omega
    | ⟨1, _⟩ =>
      show ((rowsDims N M C wf).start (ix2 e k') idx 1 + (((rowsDims N M C wf).window (ix2 e k') 1 : ℕ) : ℤ)).toNat = k'.val
      rw [hs1]
      omega

/-- The row scatter-add with its dimension numbers written out, read at `(n, k)`: the filtered sum over the update
    indices is split into rows and columns, and in each row only the column `k` can land at `(n, k)`. -/
theorem rows_apply (x : (⟨2, ![N, C]⟩ : Shape).Idx → EReal) (idx : IVec ⟨2, ![M, 1]⟩ w)
    (upd : (⟨2, ![M, C]⟩ : Shape).Idx → EReal) (n : Fin N) (k : Fin C) :
    Ideal.hostScatterAdd (rowsDims N M C wf) x idx upd (ix2 n k)
      = x (ix2 n k) + ∑ e : Fin M, if (idx (ix2 e (0 : Fin 1))).toInt = (n.val : ℤ) then upd (ix2 e k) else 0 := by
  unfold Ideal.hostScatterAdd
  refine congrArg (x (ix2 n k) + ·) ?_
  rw [Finset.sum_filter, sum_idx2]
  refine Finset.sum_congr rfl fun e _ => ?_
  simp only [rows_resultIdx_iff]
  by_cases hE : (idx (ix2 e (0 : Fin 1))).toInt = (n.val : ℤ)
  · simp only [hE, true_and, if_true]
    rw [Finset.sum_ite_eq' Finset.univ k (fun k' => upd (ix2 e k'))]
    simp
  · simp only [hE, false_and, if_false]
    exact Finset.sum_const_zero

end Rows

/-- A scatter that adds whole rows of updates `[M, C]` into an `N × C` table, one row per index word (dimension
    numbers: update window axis 1, inserted window axis 0, the start index's one component addressing table axis 0,
    index vector axis 1), reads at `(n, k)` the table's entry plus the sum of the updates' entries `(e, k)` over the
    rows `e` whose index word, read as a signed integer, equals `n`; rows whose word lies outside `[0, N)` are dropped.
    The dimension numbers are given by equations on the record's fields; once the fields are replaced by these literals
    the record is the one of `rows_apply`. -/
theorem scatterAdd_rows_apply {N M C w : ℕ} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1)
    (x : (⟨2, ![N, C]⟩ : Shape).Idx → EReal) (idx : IVec ⟨2, ![M, 1]⟩ w) (upd : (⟨2, ![M, C]⟩ : Shape).Idx → EReal)
    (n : Fin N) (k : Fin C) :
    Ideal.hostScatterAdd d x idx upd (ix2 n k)
      = x (ix2 n k) + ∑ e : Fin M, if (idx (ix2 e (0 : Fin 1))).toInt = (n.val : ℤ) then upd (ix2 e k) else 0 := by
  obtain ⟨uw, iw, sd, iv, wf⟩ := d
  simp only at h1 h2 h3 h4
  subst h1 h2 h3 h4
  exact rows_apply wf x idx upd n k

end Cert.LibScatterRows

end
-- ==== Proof.LibGatherRows.lean ====
import Idealize.ShloMosaic.PureOps
import Idealize.ShloMosaic.Lib.ValueIdx
noncomputable section

namespace Cert.LibGatherRows
open Idealize.ShloMosaic Idealize.ShloMosaic.ValueIdx

/-! ## Gathering whole rows of a table

A table `x : [N, C]` is gathered by a column of index words `idx : [M, 1]`: the dimension numbers collapse the
table's axis 0 and let the one component of each start index address it, keep the table's axis 1 whole as the
result's offset axis 1, and have no batching axes. Result element `(r, k)` is then the table at `(row, k)`, where
`row` is the `r`-th index word read as a signed integer and clamped into `[0, N − 1]`.

The operand index of a gather is, on each operand axis, a clamped start plus a batching coordinate plus an offset
coordinate. For these dimension numbers the three summands are computed one by one below: on axis 0 the start is the
clamped index word and the other two vanish (the axis is collapsed); on axis 1 the start and the batching coordinate
vanish (the axis is not addressed by the start index) and the offset coordinate is the result's column. -/

section Rows
variable {α : Type}

/-- The dimension numbers of a row gather, for a table `[N, C]`, start indices `[M, 1]` and a result `[M, C]`. -/
abbrev rowsDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N M C w : Nat}
  (wf : GatherDims.WF ⟨2, ![N, C]⟩ ⟨2, ![M, 1]⟩ ⟨2, ![M, C]⟩ [1] [0] [] [0] [] 1 ![1, C])

/-- There are no batching axes, so the batching coordinate is zero on both table axes. -/
theorem rows_batch (j : (⟨2, ![M, C]⟩ : Shape).Idx) (a : Fin 2) : (rowsDims N M C wf).batchCoord j a = 0 :=
  GatherDims.batchCoord_eq_zero _ _ _ List.not_mem_nil

/-- Axis 0 of the table is collapsed: it is not among the kept axes, so its offset coordinate is zero. -/
theorem rows_off0 (j : (⟨2, ![M, C]⟩ : Shape).Idx) : (rowsDims N M C wf).offCoord j 0 = 0 :=
  GatherDims.offCoord_eq_zero _ _ _ fun h => ((GatherDims.mem_sKept _ _).1 h).1 (List.mem_singleton.2 rfl)

/-- Axis 1 of the table is not addressed by the start index, so the slice starts at column zero. -/
theorem rows_start1 (j : (⟨2, ![M, C]⟩ : Shape).Idx) (idx : IVec ⟨2, ![M, 1]⟩ w) :
    (rowsDims N M C wf).start j idx 1 = 0 := by
  unfold GatherDims.start
  exact dif_neg (show (1 : Fin 2) ∉ [0] by decide)

/-- Axis 1 is the only kept axis of the table, in position 0, and the result's offset axis in that position is its
    axis 1: the offset coordinate is the result's column. -/
theorem rows_off1 (j : (⟨2, ![M, C]⟩ : Shape).Idx) : (rowsDims N M C wf).offCoord j 1 = (j 1).val := by
  unfold GatherDims.offCoord
  rw [dif_pos ((GatherDims.mem_sKept _ _).2 ⟨show (1 : Fin 2) ∉ [0] by decide, List.not_mem_nil⟩)]
  rfl

/-- Axis 0 is component 0 of the start index. That component is read at the start-indices position
    `(j 0, 0)` — the result's batch coordinate, and 0 on the index vector's axis —, signed, and clamped to
    `N − 1` (the table's extent less the slice size 1). -/
theorem rows_start0 (j : (⟨2, ![M, C]⟩ : Shape).Idx) (idx : IVec ⟨2, ![M, 1]⟩ w) :
    (rowsDims N M C wf).start j idx 0 = min (idx (ix2 (j 0) (0 : Fin 1))).toInt.toNat (N - 1) := by
  unfold GatherDims.start
  rw [dif_pos (List.mem_singleton.2 rfl)]
  have hsi : (rowsDims N M C wf).siIdx j ⟨List.idxOf (0 : Fin 2) (rowsDims N M C wf).startIndexMap,
      List.idxOf_lt_length_iff.2 (List.mem_singleton.2 rfl)⟩ = ix2 (j 0) (0 : Fin 1) := by
    funext b
    refine Fin.ext ?_
    match b with
    | ⟨0, _⟩ => rfl
    | ⟨1, _⟩ => rfl
  rw [hsi]
  rfl

/-- The row gather with its dimension numbers written out, read at `(r, k)`. -/
theorem rows_apply (hN : 0 < N) (x : (⟨2, ![N, C]⟩ : Shape).Idx → α) (idx : IVec ⟨2, ![M, 1]⟩ w)
    (r : Fin M) (k : Fin C) :
    Host.gather (rowsDims N M C wf) x idx (ix2 r k)
      = x (ix2 (⟨min (idx (ix2 r (0 : Fin 1))).toInt.toNat (N - 1), by omega⟩ : Fin N) k) := by
  unfold Host.gather
  refine congrArg x (funext fun a => Fin.ext ?_)
  match a with
  | ⟨0, _⟩ =>
    show (rowsDims N M C wf).start (ix2 r k) idx 0 + (rowsDims N M C wf).batchCoord (ix2 r k) 0
      + (rowsDims N M C wf).offCoord (ix2 r k) 0 = _
    rw [rows_start0, rows_batch, rows_off0]
    rfl
  | ⟨1, _⟩ =>
    show (rowsDims N M C wf).start (ix2 r k) idx 1 + (rowsDims N M C wf).batchCoord (ix2 r k) 1
      + (rowsDims N M C wf).offCoord (ix2 r k) 1 = _
    rw [rows_start1, rows_batch, rows_off1]
    show 0 + 0 + k.val = k.val
    omega

end Rows

/-- A gather that takes whole rows of an `N × C` table, one row per index word (dimension numbers: offset axis 1,
    collapsed axis 0, start index map `[0]`, index vector axis 1, slice sizes `[1, C]`, no batching axes), reads at
    `(r, k)` the table at `(row, k)`, where `row` is the `r`-th index word read as a signed integer and clamped into
    `[0, N − 1]`. The dimension numbers are given by equations on the record's fields; once the fields are replaced by
    these literals the record is the one of `rows_apply`. -/
theorem gather_rows_apply {N M C w : Nat} {α : Type} (d : GatherDims ⟨2, ![N, C]⟩ ⟨2, ![M, 1]⟩ ⟨2, ![M, C]⟩)
    (h1 : d.offsetDims = [1]) (h2 : d.collapsedSliceDims = [0]) (h3 : d.operandBatchingDims = []) (h4 : d.startIndicesBatchingDims = [])
    (h5 : d.startIndexMap = [0]) (h6 : d.indexVectorDim = 1) (h7 : d.sliceSizes = ![1, C]) (hN : 0 < N)
    (x : (⟨2, ![N, C]⟩ : Shape).Idx → α) (idx : IVec ⟨2, ![M, 1]⟩ w) (r : Fin M) (k : Fin C) :
    Host.gather d x idx (ix2 r k)
      = x (ix2 (⟨min (idx (ix2 r (0 : Fin 1))).toInt.toNat (N - 1), by omega⟩ : Fin N) k) := by
  obtain ⟨od, cd, ob, sb, sm, iv, ss, wf⟩ := d
  simp only at h1 h2 h3 h4 h5 h6 h7
  subst h1 h2 h3 h4 h5 h6 h7
  exact rows_apply wf hN x idx r k

/-- When the `r`-th index word, read signed, already lies in `[0, N)`, the clamp does nothing: the row is the word
    itself. -/
theorem gather_rows_apply_of_inRange {N M C w : Nat} {α : Type} (d : GatherDims ⟨2, ![N, C]⟩ ⟨2, ![M, 1]⟩ ⟨2, ![M, C]⟩)
    (h1 : d.offsetDims = [1]) (h2 : d.collapsedSliceDims = [0]) (h3 : d.operandBatchingDims = []) (h4 : d.startIndicesBatchingDims = [])
    (h5 : d.startIndexMap = [0]) (h6 : d.indexVectorDim = 1) (h7 : d.sliceSizes = ![1, C])
    (x : (⟨2, ![N, C]⟩ : Shape).Idx → α) (idx : IVec ⟨2, ![M, 1]⟩ w) (r : Fin M) (k : Fin C)
    (h0 : 0 ≤ (idx (ix2 r (0 : Fin 1))).toInt) (hlt : (idx (ix2 r (0 : Fin 1))).toInt < N) :
    Host.gather d x idx (ix2 r k)
      = x (ix2 (⟨(idx (ix2 r (0 : Fin 1))).toInt.toNat, by omega⟩ : Fin N) k) := by
  have hN : 0 < N := by omega
  rw [gather_rows_apply d h1 h2 h3 h4 h5 h6 h7 hN x idx r k]
  have hm : min (idx (ix2 r (0 : Fin 1))).toInt.toNat (N - 1) = (idx (ix2 r (0 : Fin 1))).toInt.toNat :=
    Nat.min_eq_left (by omega)
  exact congrArg x (congrArg (fun a => ix2 a k) (Fin.ext hm))
end Cert.LibGatherRows
end
-- ==== Proof.LibGatherVec.lean ====
import Idealize.ShloMosaic.PureOps
import Idealize.ShloMosaic.Lib.ValueIdx
noncomputable section

namespace Cert.LibGatherVec
open Idealize.ShloMosaic Idealize.ShloMosaic.ValueIdx

/-! ## Gathering entries of a one-axis table

A table `x : [N]` is gathered by a column of index words `idx : [M, 1]`: the dimension numbers collapse the
table's only axis and let the one component of each start index address it; the result has no offset axis and
there are no batching axes. Result element `r` is then the table at `row`, where `row` is the `r`-th index
word read as a signed integer and clamped into `[0, N − 1]`.

The operand index of a gather is, on each operand axis, a clamped start plus a batching coordinate plus an offset
coordinate. For these dimension numbers the three summands on the table's axis are computed one by one below: the
start is the clamped index word and the other two vanish (the axis is collapsed, and no axis is a batching one). -/

section Vec
variable {α : Type}

/-- The dimension numbers of an entry gather, for a table `[N]`, start indices `[M, 1]` and a result `[M]`. -/
abbrev vecDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

variable {N M w : Nat}
  (wf : GatherDims.WF ⟨1, ![N]⟩ ⟨2, ![M, 1]⟩ ⟨1, ![M]⟩ [] [0] [] [0] [] 1 ![1])

/-- There are no batching axes, so the batching coordinate is zero on the table's axis. -/
theorem vec_batch (j : (⟨1, ![M]⟩ : Shape).Idx) (a : Fin 1) : (vecDims N M wf).batchCoord j a = 0 :=
  GatherDims.batchCoord_eq_zero _ _ _ List.not_mem_nil

/-- The table's axis is collapsed: it is not among the kept axes, so its offset coordinate is zero. -/
theorem vec_off0 (j : (⟨1, ![M]⟩ : Shape).Idx) : (vecDims N M wf).offCoord j 0 = 0 :=
  GatherDims.offCoord_eq_zero _ _ _ fun h => ((GatherDims.mem_sKept _ _).1 h).1 (List.mem_singleton.2 rfl)

/-- The table's axis is component 0 of the start index. That component is read at the start-indices position
    `(j 0, 0)` — the result's only coordinate, and 0 on the index vector's axis —, signed, and clamped to
    `N − 1` (the table's extent less the slice size 1). -/
theorem vec_start0 (j : (⟨1, ![M]⟩ : Shape).Idx) (idx : IVec ⟨2, ![M, 1]⟩ w) :
    (vecDims N M wf).start j idx 0 = min (idx (ix2 (j 0) (0 : Fin 1))).toInt.toNat (N - 1) := by
  unfold GatherDims.start
  rw [dif_pos (List.mem_singleton.2 rfl)]
  have hsi : (vecDims N M wf).siIdx j ⟨List.idxOf (0 : Fin 1) (vecDims N M wf).startIndexMap,
      List.idxOf_lt_length_iff.2 (List.mem_singleton.2 rfl)⟩ = ix2 (j 0) (0 : Fin 1) := by
    funext b
    refine Fin.ext ?_
    match b with
    | ⟨0, _⟩ => rfl
    | ⟨1, _⟩ => rfl
  rw [hsi]
  rfl

/-- The entry gather with its dimension numbers written out, read at `r`. -/
theorem vec_apply (hN : 0 < N) (x : (⟨1, ![N]⟩ : Shape).Idx → α) (idx : IVec ⟨2, ![M, 1]⟩ w) (r : Fin M) :
    Host.gather (vecDims N M wf) x idx (ix1 r)
      = x (ix1 (⟨min (idx (ix2 r (0 : Fin 1))).toInt.toNat (N - 1), by omega⟩ : Fin N)) := by
  unfold Host.gather
  refine congrArg x (funext fun a => Fin.ext ?_)
  match a with
  | ⟨0, _⟩ =>
    show (vecDims N M wf).start (ix1 r) idx 0 + (vecDims N M wf).batchCoord (ix1 r) 0
      + (vecDims N M wf).offCoord (ix1 r) 0 = _
    rw [vec_start0, vec_batch, vec_off0]
    rfl

end Vec

/-- A gather that takes single entries of a one-axis table of `N` entries, one entry per index word (dimension
    numbers: no offset axis, collapsed axis 0, start index map `[0]`, index vector axis 1, slice sizes `[1]`, no
    batching axes), reads at `r` the table at `row`, where `row` is the `r`-th index word read as a signed integer
    and clamped into `[0, N − 1]`. The dimension numbers are given by equations on the record's fields; once the
    fields are replaced by these literals the record is the one of `vec_apply`. -/
theorem gather_vec_apply {N M w : Nat} {α : Type} (d : GatherDims ⟨1, ![N]⟩ ⟨2, ![M, 1]⟩ ⟨1, ![M]⟩)
    (h1 : d.offsetDims = []) (h2 : d.collapsedSliceDims = [0]) (h3 : d.operandBatchingDims = []) (h4 : d.startIndicesBatchingDims = [])
    (h5 : d.startIndexMap = [0]) (h6 : d.indexVectorDim = 1) (h7 : d.sliceSizes = ![1]) (hN : 0 < N)
    (x : (⟨1, ![N]⟩ : Shape).Idx → α) (idx : IVec ⟨2, ![M, 1]⟩ w) (r : Fin M) :
    Host.gather d x idx (ix1 r)
      = x (ix1 (⟨min (idx (ix2 r (0 : Fin 1))).toInt.toNat (N - 1), by omega⟩ : Fin N)) := by
  obtain ⟨od, cd, ob, sb, sm, iv, ss, wf⟩ := d
  simp only at h1 h2 h3 h4 h5 h6 h7
  subst h1 h2 h3 h4 h5 h6 h7
  exact vec_apply wf hN x idx r

/-- When the `r`-th index word, read signed, already lies in `[0, N)`, the clamp does nothing: the entry is the
    word itself. -/
theorem gather_vec_apply_of_inRange {N M w : Nat} {α : Type} (d : GatherDims ⟨1, ![N]⟩ ⟨2, ![M, 1]⟩ ⟨1, ![M]⟩)
    (h1 : d.offsetDims = []) (h2 : d.collapsedSliceDims = [0]) (h3 : d.operandBatchingDims = []) (h4 : d.startIndicesBatchingDims = [])
    (h5 : d.startIndexMap = [0]) (h6 : d.indexVectorDim = 1) (h7 : d.sliceSizes = ![1])
    (x : (⟨1, ![N]⟩ : Shape).Idx → α) (idx : IVec ⟨2, ![M, 1]⟩ w) (r : Fin M)
    (h0 : 0 ≤ (idx (ix2 r (0 : Fin 1))).toInt) (hlt : (idx (ix2 r (0 : Fin 1))).toInt < N) :
    Host.gather d x idx (ix1 r)
      = x (ix1 (⟨(idx (ix2 r (0 : Fin 1))).toInt.toNat, by omega⟩ : Fin N)) := by
  have hN : 0 < N := by omega
  rw [gather_vec_apply d h1 h2 h3 h4 h5 h6 h7 hN x idx r]
  have hm : min (idx (ix2 r (0 : Fin 1))).toInt.toNat (N - 1) = (idx (ix2 r (0 : Fin 1))).toInt.toNat :=
    Nat.min_eq_left (by omega)
  exact congrArg x (congrArg (fun a => ix1 a) (Fin.ext hm))
end Cert.LibGatherVec
end
-- ==== Proof.RefValueA.lean ====
/-
  The reference's centre, read at an entry.

  The reference first adds every row of the feature matrix into the row of a 4096 x 4096 table that the row's class id
  names, and a one into the entry of a length-4096 vector that the class id names: the table holds the class sums, the
  vector the class counts. It then reads, for every row i, the table's row and the vector's entry at i's class id (an
  index below zero would be moved up by 4096 first; a class id is never below zero, so nothing moves), and divides the
  one by the other. Under the hypothesis that every class id, read unsigned, is below 4096, entry (i, j) of the result
  is the quotient of the class sum  sums (lab i) j  by the class count  cnt (lab i) : the centre of row i.
-/
import proofs.«418073_j77309412134_1_alg».proof.Proof.RefReadP
import proofs.«418073_j77309412134_1_alg».proof.Proof.Spec
import proofs.«418073_j77309412134_1_alg».proof.Proof.Inputs
import proofs.«418073_j77309412134_1_alg».proof.Proof.LibScatterRows
import proofs.«418073_j77309412134_1_alg».proof.Proof.LibScatterVec
import proofs.«418073_j77309412134_1_alg».proof.Proof.LibGatherRows
import proofs.«418073_j77309412134_1_alg».proof.Proof.LibGatherVec
import Idealize.ShloMosaic.PureOps.Ideal.Laws
import Idealize.ShloMosaic.Lib.IdealHost
import Idealize.ShloMosaic.Lib.ValueIdx

noncomputable section

namespace Cert.RefValueA

open Cert.ReferenceIdeal Cert.ReferenceIdeal.Gen Cert.ReferenceIdeal.ReadP Idealize.ShloMosaic Idealize.ShloMosaic.ValueIdx
open scoped BigOperators

/-! ## Words below 4096 -/

/-- A 32-bit word whose unsigned value is below 4096 has its sign bit clear: read signed it is the same number. -/
theorem toInt_of_lt {w : BitVec 32} (h : w.toNat < 4096) : w.toInt = (w.toNat : ℤ) :=
  BitVec.toInt_eq_toNat_of_lt (by omega)

/-- Such a word is not below zero as a signed number, so the test "below zero" gives the bit 0. -/
theorem slt_zero_of_lt {w : BitVec 32} (h : w.toNat < 4096) : IntOp.cmpi .slt w 0#32 = 0#1 := by
  have h0 : w.slt 0#32 = false := by
    rw [BitVec.slt_eq_decide, toInt_of_lt h]
    exact decide_eq_false (by simp)
  show BitVec.ofBool (w.slt 0#32) = 0#1
  rw [h0]
  rfl

/-! ## Index bookkeeping: a column index (e, 0) read back as the position e, and (i, j) read as (i, 0) -/

theorem idx_v1_ix2 (e : Fin 8192) (z : Fin 1) : idx_main_v1 (ix2 e z) = ix1 e := by
  funext a; match a with | ⟨0, _⟩ => rfl
theorem idx_v5_ix2 (e : Fin 8192) (z : Fin 1) : idx_main_v5 (ix2 e z) = ix1 e := by
  funext a; match a with | ⟨0, _⟩ => rfl
theorem idx_v12_ix2 (e : Fin 8192) (z : Fin 1) : idx_main_v12 (ix2 e z) = ix1 e := by
  funext a; match a with | ⟨0, _⟩ => rfl
theorem idx_v19_ix2 (e : Fin 8192) (z : Fin 1) : idx_main_v19 (ix2 e z) = ix1 e := by
  funext a; match a with | ⟨0, _⟩ => rfl
theorem idx_v21_ix2 (e : Fin 8192) (z : Fin 1) : idx_main_v21 (ix2 e z) = ix1 e := by
  funext a; match a with | ⟨0, _⟩ => rfl
theorem idx_v22_ix2 (i : Fin 8192) (j : Fin 4096) : idx_main_v22 (ix2 i j) = ix2 i (0 : Fin 1) := by
  funext a; match a with | ⟨0, _⟩ => rfl | ⟨1, _⟩ => rfl

section
variable (x0 : (⟨S8192x4096, .f32⟩ : BufTy).Contents (Elt Ideal)) (x1 : (⟨S8192, .i32⟩ : BufTy).Contents (Elt Ideal))
  (hlab : ∀ i : S8192.Idx, (x1 i).toNat < 4096)
include hlab

/-! ## The index wrap does nothing -/

/-- The first wrap: a class id is not below zero, so the select keeps it. -/
theorem wrap11 (i : S8192.Idx) : val_main_v11 (F := Ideal) x1 i = x1 i := by
  rw [val_main_v11_apply, val_main_v8_apply, val_main_v7_apply, val_main_c_apply, slt_zero_of_lt (hlab i), select_zero]

/-- The second wrap, the same. -/
theorem wrap18 (i : S8192.Idx) : val_main_v18 (F := Ideal) x1 i = x1 i := by
  rw [val_main_v18_apply, val_main_v15_apply, val_main_v14_apply, val_main_c_3_apply, slt_zero_of_lt (hlab i), select_zero]

/-! ## The two tables -/

/-- The table of class sums: entry (n, k) is the sum of the feature rows of class n at column k. The table starts
    at zero; row e lands in row n exactly when its class id, read signed, is n, and for a word below 4096 the
    signed and the unsigned readings agree. -/
theorem v2_apply (n k : Fin 4096) :
    val_main_v2 (F := Ideal) x0 x1 (ix2 n k)
      = Cert.Spec.sums (Cert.Inputs.featOf x0) (Cert.Inputs.labOf x1) n.val k := by
  unfold val_main_v2
  simp only [Host.scatterAdd, Ideal.hostScatterAdd_def]
  rw [Cert.LibScatterRows.scatterAdd_rows_apply _ rfl rfl rfl rfl]
  rw [val_main_v0_apply, val_main_cst_apply, Ideal.ofBits_def, Ideal.ofBits_zero_f32, zero_add]
  unfold Cert.Spec.sums
  refine Finset.sum_congr rfl fun e _ => ?_
  rw [val_main_v1_apply, idx_v1_ix2, toInt_of_lt (hlab (ix1 e))]
  exact if_congr Nat.cast_inj rfl rfl

/-- The vector of class counts: entry n is the number of rows of class n, a sum of ones. -/
theorem v6_apply (n : Fin 4096) :
    val_main_v6 (F := Ideal) x1 (ix1 n) = Cert.Spec.cnt (Cert.Inputs.labOf x1) n.val := by
  unfold val_main_v6
  simp only [Host.scatterAdd, Ideal.hostScatterAdd_def]
  rw [Cert.LibScatterVec.scatterAdd_vec_apply _ rfl rfl rfl rfl]
  rw [val_main_v4_apply, val_main_cst_1_apply, Ideal.ofBits_def, Ideal.ofBits_zero_f32, zero_add]
  unfold Cert.Spec.cnt
  refine Finset.sum_congr rfl fun e _ => ?_
  rw [val_main_v5_apply, idx_v5_ix2, toInt_of_lt (hlab (ix1 e)), val_main_v3_apply, val_main_cst_0_apply,
    Ideal.ofBits_def, Ideal.ofBits_one_f32]
  exact if_congr Nat.cast_inj rfl rfl

/-! ## The two reads -/

/-- Row r of the gathered table is the table's row at r's class id: the index word is the class id itself (the wrap
    does nothing), it lies in [0, 4096), so the gather's clamp does nothing either. -/
theorem v13_apply (r : Fin 8192) (k : Fin 4096) :
    val_main_v13 (F := Ideal) x0 x1 (ix2 r k)
      = Cert.Spec.sums (Cert.Inputs.featOf x0) (Cert.Inputs.labOf x1) (Cert.Inputs.labOf x1 r) k := by
  have hr : (x1 (ix1 r)).toNat < 4096 := hlab (ix1 r)
  have hI : (val_main_v12 (F := Ideal) x1 (ix2 r (0 : Fin 1))).toInt = ((x1 (ix1 r)).toNat : ℤ) := by
    rw [val_main_v12_apply, idx_v12_ix2, wrap11 x1 hlab, toInt_of_lt hr]
  unfold val_main_v13
  rw [Cert.LibGatherRows.gather_rows_apply_of_inRange _ rfl rfl rfl rfl rfl rfl rfl _ _ r k
    (by rw [hI]; omega) (by rw [hI]; omega)]
  rw [v2_apply x0 x1 hlab]
  show Cert.Spec.sums _ _ (val_main_v12 (F := Ideal) x1 (ix2 r (0 : Fin 1))).toInt.toNat k = _
  rw [hI, Int.toNat_natCast]
  rfl

/-- Entry r of the gathered counts is the count of r's class. -/
theorem v20_apply (r : Fin 8192) :
    val_main_v20 (F := Ideal) x1 (ix1 r) = Cert.Spec.cnt (Cert.Inputs.labOf x1) (Cert.Inputs.labOf x1 r) := by
  have hr : (x1 (ix1 r)).toNat < 4096 := hlab (ix1 r)
  have hI : (val_main_v19 (F := Ideal) x1 (ix2 r (0 : Fin 1))).toInt = ((x1 (ix1 r)).toNat : ℤ) := by
    rw [val_main_v19_apply, idx_v19_ix2, wrap18 x1 hlab, toInt_of_lt hr]
  unfold val_main_v20
  rw [Cert.LibGatherVec.gather_vec_apply_of_inRange _ rfl rfl rfl rfl rfl rfl rfl _ _ r
    (by rw [hI]; omega) (by rw [hI]; omega)]
  rw [v6_apply x1 hlab]
  show Cert.Spec.cnt _ (val_main_v19 (F := Ideal) x1 (ix2 r (0 : Fin 1))).toInt.toNat = _
  rw [hI, Int.toNat_natCast]
  rfl

/-! ## The centre -/

/-- Entry (i, j) of the reference's quotient is the centre of row i at column j: the class sum of i's class at
    j divided by that class's count (the count is a column, broadcast along the row). -/
theorem center_apply (i : Fin 8192) (j : Fin 4096) :
    val_main_v23 (F := Ideal) x0 x1 (ix2 i j)
      = Cert.Spec.center (Cert.Inputs.featOf x0) (Cert.Inputs.labOf x1) i j := by
  rw [val_main_v23_apply, Ideal.hostDivf_def, v13_apply x0 x1 hlab, val_main_v22_apply, idx_v22_ix2,
    val_main_v21_apply, idx_v21_ix2, v20_apply x1 hlab]
  rfl

end

end Cert.RefValueA

end
-- ==== Proof.RefValueB.lean ====
/- The log-softmax stage of the reference, read at one entry.

   Write  row k  for the entry (i, k) of the array the log-softmax is applied to (kept as an opaque array here).
   The called function computes, row by row:
     m   = the row's maximum, folded from -∞, and joined once more with -∞ (which changes nothing);
     s k = row k - m;   e k = exp (s k);   S = 0 + Σ_k e k;   L = log S;   result k = s k - L.
   So the result's entry (i, j) is  (row j - m) - log (Σ_k exp (row k - m)),  the row's log-softmax at j. -/
import proofs.«418073_j77309412134_1_alg».proof.Proof.RefReadP
import proofs.«418073_j77309412134_1_alg».proof.Proof.Spec
import Idealize.ShloMosaic.PureOps.Ideal.Laws
import Idealize.ShloMosaic.PureOps.Reduce
import Idealize.ShloMosaic.Lib.ValueIdx
import Idealize.ShloMosaic.Lib.IdealHost

noncomputable section

namespace Cert.RefValueB

open Cert.ReferenceIdeal Cert.ReferenceIdeal.Gen Cert.ReferenceIdeal.ReadP Idealize.ShloMosaic Idealize.ShloMosaic.ValueIdx

/-- The bit pattern of -∞ reads as the bottom of the extended reals. -/
theorem ofBits_neg_inf_f32 : Ideal.ofBits .f32 0xFF800000#32 = (⊥ : EReal) := by
  simp [Ideal.ofBits, Ideal.ieee]

variable (x0 : (⟨S8192x4096, .f32⟩ : BufTy).Contents (Elt Ideal)) (x1 : (⟨S8192, .i32⟩ : BufTy).Contents (Elt Ideal))

/-- Row i of the array the log-softmax is applied to. -/
def row (i : Fin 8192) : Fin 4096 → EReal := fun k => val_main_v23 (F := Ideal) x0 x1 (ix2 i k)

/-- The reduction along the columns, from -∞, is the row's maximum: a one-axis reduction by a commutative and
    associative operation is the fold over that axis's coordinates, and the index over (i) with k inserted on the
    reduced axis is (i, k). -/
theorem call0_v0_apply (i : Fin 8192) :
    val_main_call0_v0 (F := Ideal) x0 x1 (ix1 i) = Cert.Spec.rowMax (row x0 x1 i) := by
  have hR : S8192x4096.Reduces [1] S8192 := by decide
  unfold val_main_call0_v0 row Cert.Spec.rowMax
  generalize val_main_v23 (F := Ideal) x0 x1 = y
  rw [Host.reduce_eq_fold_single (FloatOps.maximumf (F := Ideal) (φ := .f32)) y _ reducesTo_S8192x4096_S8192_d1
    hR h_S_ (ix1 i)]
  show (Finset.univ : Finset (Fin 4096)).fold max (Ideal.ofBits .f32 0xFF800000#32) (fun k => y (hR.lift (ix1 i) k))
    = (Finset.univ : Finset (Fin 4096)).fold max ⊥ (fun k => y (ix2 i k))
  rw [ofBits_neg_inf_f32]
  congr 1
  funext k
  congr 1
  funext c
  match c with
  | ⟨0, _⟩ => exact Fin.ext rfl
  | ⟨1, _⟩ => exact Fin.ext rfl

/-- The other operand of the second maximum is -∞ at every row. -/
theorem call0_v1_apply (i : Fin 8192) : val_main_call0_v1 (F := Ideal) (ix1 i) = (⊥ : EReal) := by
  rw [val_main_call0_v1_apply, val_main_call0_cst_0_apply]
  exact ofBits_neg_inf_f32

/-- Joining -∞ with the row's maximum changes nothing. -/
theorem call0_v2_apply (i : Fin 8192) :
    val_main_call0_v2 (F := Ideal) x0 x1 (ix1 i) = Cert.Spec.rowMax (row x0 x1 i) := by
  rw [val_main_call0_v2_apply, call0_v1_apply, call0_v0_apply, Ideal.maximumf_def]
  exact max_eq_right bot_le

/-- The maxima as a column. -/
theorem call0_v3_apply (i : Fin 8192) :
    val_main_call0_v3 (F := Ideal) x0 x1 (ix2 i (0 : Fin 1)) = Cert.Spec.rowMax (row x0 x1 i) := by
  have hi : idx_main_call0_v3 (ix2 i (0 : Fin 1)) = ix1 i := by
    funext a
    match a with
    | ⟨0, _⟩ => rfl
  rw [val_main_call0_v3_apply, hi, call0_v2_apply]

/-- The column of maxima carried back over each row. -/
theorem call0_v4_apply (i : Fin 8192) (j : Fin 4096) :
    val_main_call0_v4 (F := Ideal) x0 x1 (ix2 i j) = Cert.Spec.rowMax (row x0 x1 i) := by
  have hi : idx_main_call0_v4 (ix2 i j) = ix2 i (0 : Fin 1) := by
    funext a
    match a with
    | ⟨0, _⟩ => rfl
    | ⟨1, _⟩ => rfl
  rw [val_main_call0_v4_apply, hi, call0_v3_apply]

/-- The shifted entry: the entry minus its row's maximum. -/
theorem call0_v5_apply (i : Fin 8192) (j : Fin 4096) :
    val_main_call0_v5 (F := Ideal) x0 x1 (ix2 i j) = row x0 x1 i j - Cert.Spec.rowMax (row x0 x1 i) := by
  rw [val_main_call0_v5_apply, call0_v4_apply, Ideal.subf_def]
  rfl

/-- Its exponential. -/
theorem call0_v6_apply (i : Fin 8192) (j : Fin 4096) :
    val_main_call0_v6 (F := Ideal) x0 x1 (ix2 i j)
      = Ideal.exp (row x0 x1 i j - Cert.Spec.rowMax (row x0 x1 i)) := by
  rw [val_main_call0_v6_apply, call0_v5_apply, Ideal.hostUnary_exp_def]

/-- The row's sum of exponentials: the reduction starts from zero, which adds nothing. -/
theorem call0_v7_apply (i : Fin 8192) :
    val_main_call0_v7 (F := Ideal) x0 x1 (ix1 i)
      = ∑ k : Fin 4096, Ideal.exp (row x0 x1 i k - Cert.Spec.rowMax (row x0 x1 i)) := by
  rw [val_main_call0_v7_apply, val_main_call0_cst_1_apply, Ideal.ofBits_def, Ideal.ofBits_zero_f32, zero_add]
  refine Finset.sum_congr rfl fun k _ => ?_
  have hk : idx_main_call0_v7 (ix1 i) k = ix2 i k := by
    funext a
    match a with
    | ⟨0, _⟩ => rfl
    | ⟨1, _⟩ => rfl
  rw [hk, call0_v6_apply]

/-- The sums as a column. -/
theorem call0_v8_apply (i : Fin 8192) :
    val_main_call0_v8 (F := Ideal) x0 x1 (ix2 i (0 : Fin 1))
      = ∑ k : Fin 4096, Ideal.exp (row x0 x1 i k - Cert.Spec.rowMax (row x0 x1 i)) := by
  have hi : idx_main_call0_v8 (ix2 i (0 : Fin 1)) = ix1 i := by
    funext a
    match a with
    | ⟨0, _⟩ => rfl
  rw [val_main_call0_v8_apply, hi, call0_v7_apply]

/-- The logarithm of the row's sum. -/
theorem call0_v9_apply (i : Fin 8192) :
    val_main_call0_v9 (F := Ideal) x0 x1 (ix2 i (0 : Fin 1))
      = Ideal.log (∑ k : Fin 4096, Ideal.exp (row x0 x1 i k - Cert.Spec.rowMax (row x0 x1 i))) := by
  rw [val_main_call0_v9_apply, call0_v8_apply, Ideal.hostUnary_log_def]

/-- The column of logarithms carried back over each row. -/
theorem call0_v10_apply (i : Fin 8192) (j : Fin 4096) :
    val_main_call0_v10 (F := Ideal) x0 x1 (ix2 i j)
      = Ideal.log (∑ k : Fin 4096, Ideal.exp (row x0 x1 i k - Cert.Spec.rowMax (row x0 x1 i))) := by
  have hi : idx_main_call0_v10 (ix2 i j) = ix2 i (0 : Fin 1) := by
    funext a
    match a with
    | ⟨0, _⟩ => rfl
    | ⟨1, _⟩ => rfl
  rw [val_main_call0_v10_apply, hi, call0_v9_apply]

/-- The result of the log-softmax at (i, j) is the log-softmax of row i at j. -/
theorem logsoftmax_apply (i : Fin 8192) (j : Fin 4096) :
    val_main_v24 (F := Ideal) x0 x1 (ix2 i j)
      = Cert.Spec.logp (fun k => val_main_v23 (F := Ideal) x0 x1 (ix2 i k)) j := by
  rw [val_main_v24_apply, call0_v5_apply, call0_v10_apply, Ideal.subf_def]
  rfl

end Cert.RefValueB

end
-- ==== Proof.LibTakeAlongRow.lean ====
/-
  A row-wise take: `stablehlo.gather` of a rank-2 operand `x : [N, C]` at one start index per row.

  What `take_along_axis(x, idx, axis = 1)` with one picked column per row lowers to: the start indices are
  `idx : [N, 1, 1]`, the result is `[N, 1]`, and the dimension numbers are offset_dims `[]`, collapsed_slice_dims `[1]`,
  operand_batching_dims `[0]`, start_indices_batching_dims `[0]`, start_index_map `[1]`, index_vector_dim `2`,
  slice_sizes `[1, 1]`. Axis 0 is a batching axis: result row `b` reads operand row `b`. Axis 1 is the gathered
  axis: the column is the start index `idx[b, 0, 0]`, read as a signed integer and clamped into `[0, C − 1]`
  (StableHLO clamps every start index so that the slice fits). So

      result[b, 0] = x[b, clamp(idx[b, 0, 0])].

  Stated for any number of rows `N`, any number of columns `C` and any width of the index words.
-/
import Idealize.ShloMosaic.Lib.ValueIdx

noncomputable section

namespace Idealize.ShloMosaic.ValueIdx

open Idealize.ShloMosaic

section TakeAlongRow
variable {α : Type}

/-- The dimension numbers of the row-wise take, for an operand `[N, C]`, start indices `[N, 1, 1]` and result
    `[N, 1]`; their conditions `wf` are decided on a program's literal shapes. -/
abbrev takeRowDims (N C : Nat)
    (wf : GatherDims.WF ⟨2, ![N, C]⟩ ⟨3, ![N, 1, 1]⟩ ⟨2, ![N, 1]⟩ [] [1] [0] [1] [0] 2 ![1, 1]) :
    GatherDims ⟨2, ![N, C]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- The start-indices index `[b, 0, 0]` of result index `(b, 0)`. -/
abbrev takeRowIdx {N : Nat} (y : (⟨2, ![N, 1]⟩ : Shape).Idx) : (⟨3, ![N, 1, 1]⟩ : Shape).Idx :=
  fun a => match a with | ⟨0, _⟩ => ⟨(y 0).val, idx2_lt0 y⟩ | ⟨1, _⟩ => ⟨0, Nat.one_pos⟩ | ⟨2, _⟩ => ⟨0, Nat.one_pos⟩

/-- THE ROW-WISE TAKE READ AT `(b, 0)`: the operand at row `b` and at the column `idx[b, 0, 0]`, read signed and
    clamped into `[0, C − 1]`. -/
theorem gather_takeRow_apply {N C w : Nat} (hC : 0 < C)
    (wf : GatherDims.WF ⟨2, ![N, C]⟩ ⟨3, ![N, 1, 1]⟩ ⟨2, ![N, 1]⟩ [] [1] [0] [1] [0] 2 ![1, 1])
    (x : (⟨2, ![N, C]⟩ : Shape).Idx → α) (idx : IVec ⟨3, ![N, 1, 1]⟩ w) (y : (⟨2, ![N, 1]⟩ : Shape).Idx) :
    Host.gather (takeRowDims N C wf) x idx y
      = x (ix2 (⟨(y 0).val, idx2_lt0 y⟩ : Fin N) (⟨min (idx (takeRowIdx y)).toInt.toNat (C - 1), by omega⟩ : Fin C)) := by
  unfold Host.gather
  congr 1
  funext a
  refine Fin.ext ?_
  show (takeRowDims N C wf).start y idx a + (takeRowDims N C wf).batchCoord y a + (takeRowDims N C wf).offCoord y a = _
  match a with
  | ⟨0, _⟩ =>
    -- the batching axis: no start index, no offset; the row is the result's own row
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨0, _⟩ : Fin 2) ∈ (takeRowDims N C wf).operandBatchingDims from List.mem_singleton.mpr rfl)]
    rfl
  | ⟨1, _⟩ =>
    -- the gathered axis: collapsed (no offset), not batching; the column is the clamped start index
    rw [GatherDims.batchCoord_eq_zero _ _ _ (fun h => Nat.one_ne_zero (congrArg Fin.val (List.mem_singleton.mp h))),
      GatherDims.offCoord_eq_zero _ _ _ (fun h => ((GatherDims.mem_sKept _ _).mp h).1 (List.mem_singleton.mpr rfl))]
    simp only [Nat.add_zero]
    unfold GatherDims.start
    rw [dif_pos (show (⟨1, _⟩ : Fin 2) ∈ (takeRowDims N C wf).startIndexMap from List.mem_singleton.mpr rfl)]
    have hsi : (takeRowDims N C wf).siIdx y ⟨List.idxOf (⟨1, by decide⟩ : Fin 2) (takeRowDims N C wf).startIndexMap,
        List.idxOf_lt_length_iff.2 (List.mem_singleton.mpr rfl)⟩ = takeRowIdx y := by
      funext b; refine Fin.ext ?_
      match b with
      | ⟨0, _⟩ => rfl
      | ⟨1, _⟩ =>
        -- the start indices' middle axis has extent one: the result's second coordinate, itself below one, is zero
        show (y 1).val = 0
        have := idx2_lt1 y
        omega
      | ⟨2, _⟩ => rfl
    rw [hsi]
    rfl

end TakeAlongRow

end Idealize.ShloMosaic.ValueIdx

end
-- ==== Proof.RefValue.lean ====
/- The reference's result, on the extended reals.

   After the centres and their row-wise log-softmax (the two stage modules), the reference picks from row i of the
   log-softmax the entry at column  lab i : it moves an index below zero up by 4096 (a class id is never below zero, so
   nothing moves), tests that the index lies in [0, 4095] (it does, every class id being below 4096, so the not-a-number
   filler is never selected), and gathers one entry per row. The picked entries are then summed over the 8192 rows, the sum
   is divided by 8192, negated, and divided by 2048. Read stage by stage this is
       (-((sum_i logp (center i) (lab i)) / 8192)) / 2048 ,
   the specification's  lossR . -/
import proofs.«418073_j77309412134_1_alg».proof.Proof.RefReadP
import proofs.«418073_j77309412134_1_alg».proof.Proof.RefValueA
import proofs.«418073_j77309412134_1_alg».proof.Proof.RefValueB
import proofs.«418073_j77309412134_1_alg».proof.Proof.Spec
import proofs.«418073_j77309412134_1_alg».proof.Proof.Inputs
import proofs.«418073_j77309412134_1_alg».proof.Proof.LibTakeAlongRow
import Idealize.ShloMosaic.PureOps.Ideal.Laws
import Idealize.ShloMosaic.PureOps.Reduce
import Idealize.ShloMosaic.Lib.ValueIdx
import Idealize.ShloMosaic.Lib.ValueIdxRank1
import Idealize.ShloMosaic.Lib.StableHlo.Predicate

noncomputable section

namespace Cert.RefValue

open Cert.ReferenceIdeal Cert.ReferenceIdeal.Gen Cert.ReferenceIdeal.ReadP Idealize.ShloMosaic Idealize.ShloMosaic.ValueIdx
open scoped BigOperators

/-! ## The two divisors -/

/-- The word 0x46000000 denotes the real 8192 (sign 0, exponent 140 - 127 = 13, mantissa 0). -/
theorem ofBits_8192 : Ideal.ofBits .f32 0x46000000#32 = ((8192 : ℝ) : EReal) := by
  simp [Ideal.ofBits, Ideal.ieee, -EReal.coe_mul]; norm_num

/-- The word 0x45000000 denotes the real 2048 (sign 0, exponent 138 - 127 = 11, mantissa 0). -/
theorem ofBits_2048 : Ideal.ofBits .f32 0x45000000#32 = ((2048 : ℝ) : EReal) := by
  simp [Ideal.ofBits, Ideal.ieee, -EReal.coe_mul]; norm_num

/-! ## Indices by coordinates -/

theorem idx_v25_ix2 (e : Fin 8192) (z : Fin 1) : idx_main_v25 (ix2 e z) = ix1 e := by
  funext a; match a with | ⟨0, _⟩ => rfl

/-- A column position cast to the three-axis index shape keeps its row. -/
theorem idx_call1_v5_ix3 (e : Fin 8192) (z z' : Fin 1) : idx_main_call1_v5 (ix3 e z z') = ix2 e (0 : Fin 1) := by
  funext a
  match a with
  | ⟨0, _⟩ =>
    refine Fin.ext ?_
    show ((e.val * 1 + z.val) * 1 + z'.val) / 1 = e.val
    have := z.isLt; have := z'.isLt; omega
  | ⟨1, _⟩ => rfl

theorem idx_v27_ix1 (e : Fin 8192) : idx_main_v27 (ix1 e) = ix2 e (0 : Fin 1) := by
  funext a
  match a with
  | ⟨0, _⟩ => exact Fin.ext (Nat.div_one _)
  | ⟨1, _⟩ => rfl

/-- The start-indices position of row e is (e, 0, 0). -/
theorem takeRowIdx_ix2 (e : Fin 8192) (z : Fin 1) :
    takeRowIdx (ix2 e z) = ix3 e (0 : Fin 1) (0 : Fin 1) := by
  funext a
  match a with
  | ⟨0, _⟩ => rfl
  | ⟨1, _⟩ => rfl
  | ⟨2, _⟩ => rfl

/-- An "and" over any set of ones, from one, is one. -/
theorem fold_andi_one {ι : Type} (S : Finset ι) (f : ι → BitVec 1) (hf : ∀ i, f i = 1#1) :
    S.fold IntOp.andi 1#1 f = 1#1 := by
  induction S using Finset.cons_induction with
  | empty => rfl
  | cons a S ha ih => rw [Finset.fold_cons, ih, hf]; rfl

variable (x0 : (⟨S8192x4096, .f32⟩ : BufTy).Contents (Elt Ideal)) (x1 : (⟨S8192, .i32⟩ : BufTy).Contents (Elt Ideal))

/-! ## The picked column -/

/-- The class ids as a column. -/
theorem v25_apply (e : Fin 8192) (z : Fin 1) : val_main_v25 (F := Ideal) x1 (ix2 e z) = x1 (ix1 e) := by
  rw [val_main_v25_apply, idx_v25_ix2]

variable (hlab : ∀ i : S8192.Idx, (x1 i).toNat < 4096)
include hlab

/-- A class id is not below zero, so the move up by 4096 is not taken. -/
theorem call1_v4_apply (e : Fin 8192) (z : Fin 1) : val_main_call1_v4 (F := Ideal) x1 (ix2 e z) = x1 (ix1 e) := by
  rw [val_main_call1_v4_apply, val_main_call1_v1_apply, val_main_call1_v0_apply, val_main_call1_c_apply, v25_apply,
    Cert.RefValueA.slt_zero_of_lt (hlab (ix1 e)), select_zero]

/-- The same column with a third unit axis. -/
theorem call1_v5_apply (e : Fin 8192) (z z' : Fin 1) : val_main_call1_v5 (F := Ideal) x1 (ix3 e z z') = x1 (ix1 e) := by
  rw [val_main_call1_v5_apply, idx_call1_v5_ix3, call1_v4_apply x1 hlab]

/-- Every index passes the range test 0 ≤ index ≤ 4095. -/
theorem call1_v11_apply (i : S8192x1x1.Idx) : val_main_call1_v11 (F := Ideal) x1 i = 1#1 := by
  obtain ⟨e, z, z', rfl⟩ : ∃ (e : Fin 8192) (z z' : Fin 1), i = ix3 e z z' := ⟨i 0, i 1, i 2, eq_ix3 i⟩
  rw [val_main_call1_v11_apply, val_main_call1_v7_apply, val_main_call1_v10_apply, call1_v5_apply x1 hlab,
    val_main_call1_v6_apply, val_main_call1_c_2_apply, val_main_call1_v9_apply, val_main_call1_v8_apply,
    val_main_call1_c_1_apply]
  have h := hlab (ix1 e)
  have hge : IntOp.cmpi .sge (x1 (ix1 e)) 0#32 = 1#1 :=
    (StableHlo.Predicate.sge_iff_toNat (by omega) (by decide)).mpr (Nat.zero_le _)
  have hle : IntOp.cmpi .sle (x1 (ix1 e)) 4095#32 = 1#1 :=
    (StableHlo.Predicate.sle_iff_toNat (by omega) (by decide)).mpr (by
      show (x1 (ix1 e)).toNat ≤ 4095
      omega)
  rw [hge, hle]
  rfl

/-- So the test, folded over the unit axis, is true on every row. -/
theorem call1_v12_apply (j : S8192x1.Idx) : val_main_call1_v12 (F := Ideal) x1 j = 1#1 := by
  unfold val_main_call1_v12
  rw [Host.reduce_eq_fold, val_main_call1_c_3_apply]
  exact fold_andi_one _ _ (call1_v11_apply x1 hlab)

/-- The gather reads row e of the log-softmax at the column the class id names. -/
theorem call1_v13_apply (e : Fin 8192) (z : Fin 1) :
    val_main_call1_v13 (F := Ideal) x0 x1 (ix2 e z)
      = val_main_v24 (F := Ideal) x0 x1 (ix2 e ⟨(x1 (ix1 e)).toNat, hlab (ix1 e)⟩) := by
  unfold val_main_call1_v13
  have hd : gather_S8192x4096_S8192x1x1_S8192x1_n_1_0_0_1_2_11
      = takeRowDims 8192 4096 gather_S8192x4096_S8192x1x1_S8192x1_n_1_0_0_1_2_11_wf := rfl
  have hw : val_main_call1_v5 (F := Ideal) x1 (takeRowIdx (ix2 e z)) = x1 (ix1 e) := by
    rw [takeRowIdx_ix2, call1_v5_apply x1 hlab]
  have hcol : min (val_main_call1_v5 (F := Ideal) x1 (takeRowIdx (ix2 e z))).toInt.toNat (4096 - 1) = (x1 (ix1 e)).toNat := by
    rw [hw, Cert.RefValueA.toInt_of_lt (hlab (ix1 e)), Int.toNat_natCast]
    have := hlab (ix1 e)
    omega
  rw [hd, gather_takeRow_apply (by decide)]
  congr 1
  funext a
  match a with
  | ⟨0, _⟩ => rfl
  | ⟨1, _⟩ => exact Fin.ext hcol

/-- The filler is never selected: the picked column is the gathered one. -/
theorem v26_apply (e : Fin 8192) (z : Fin 1) :
    val_main_v26 (F := Ideal) x0 x1 (ix2 e z)
      = val_main_v24 (F := Ideal) x0 x1 (ix2 e ⟨(x1 (ix1 e)).toNat, hlab (ix1 e)⟩) := by
  rw [val_main_v26_apply, call1_v12_apply x1 hlab, select_one, call1_v13_apply x0 x1 hlab]

/-- Entry e of the picked vector is the specification's pick of row e's centre at its class id. -/
theorem v27_apply (e : Fin 8192) :
    val_main_v27 (F := Ideal) x0 x1 (ix1 e)
      = Cert.Spec.pick (Cert.Spec.center (Cert.Inputs.featOf x0) (Cert.Inputs.labOf x1) e) (Cert.Inputs.labOf x1 e) := by
  have hrow : (fun k => val_main_v23 (F := Ideal) x0 x1 (ix2 e k))
      = Cert.Spec.center (Cert.Inputs.featOf x0) (Cert.Inputs.labOf x1) e :=
    funext fun k => Cert.RefValueA.center_apply x0 x1 hlab e k
  rw [val_main_v27_apply, idx_v27_ix1, v26_apply x0 x1 hlab, Cert.RefValueB.logsoftmax_apply, hrow,
    Cert.Spec.pick_eq (Cert.Spec.center (Cert.Inputs.featOf x0) (Cert.Inputs.labOf x1) e) (Cert.Inputs.labOf x1 e) (hlab (ix1 e))]
  rfl

/-! ## The mean and the two quotients -/

/-- The sum over the rows. -/
theorem v28_apply (i : S_.Idx) :
    val_main_v28 (F := Ideal) x0 x1 i
      = ∑ e : Fin 8192, Cert.Spec.pick (Cert.Spec.center (Cert.Inputs.featOf x0) (Cert.Inputs.labOf x1) e) (Cert.Inputs.labOf x1 e) := by
  rw [val_main_v28_apply, val_main_cst_5_apply]
  show Ideal.ofBits .f32 0x00000000#32 + _ = _
  rw [Ideal.ofBits_zero_f32, zero_add, ← Equiv.sum_comp (idxEquiv1 (n := 8192)).symm]
  exact Finset.sum_congr rfl fun e _ => v27_apply x0 x1 hlab e

/-- The reference's result, at its one index. -/
theorem v31_apply (i : S_.Idx) :
    val_main_v31 (F := Ideal) x0 x1 i = Cert.Spec.lossR (Cert.Inputs.featOf x0) (Cert.Inputs.labOf x1) := by
  rw [val_main_v31_apply, val_main_v30_apply, val_main_v29_apply, v28_apply x0 x1 hlab, val_main_cst_6_apply,
    val_main_cst_7_apply]
  show Ideal.div (-(Ideal.div _ (Ideal.ofBits .f32 0x46000000#32))) (Ideal.ofBits .f32 0x45000000#32) = _
  rw [ofBits_8192, ofBits_2048]
  rfl

omit hlab

end Cert.RefValue

namespace Cert.RefValue

open Cert.ReferenceIdeal Cert.ReferenceIdeal.Gen Cert.ReferenceIdeal.ReadP Idealize.ShloMosaic Idealize.ShloMosaic.TcCoe Idealize.SL.Sem

/-- THE REFERENCE'S RESULT: when every class id, read unsigned, is below 4096, the composed term the reference's run leaves
    in its result buffer is the specification's  lossR  of the two arguments, at its one index. -/
theorem result_eq (m : (ℓ : Loc Cert.ReferenceIdeal.nD Cert.ReferenceIdeal.τ Cert.ReferenceIdeal.sig) → Buf (Elt Ideal) ℓ)
    (c : Dev Cert.ReferenceIdeal.nD)
    (hlab : ∀ i : Cert.ReferenceIdeal.S8192.Idx, ((m ((c.tc : Thread _ _).loc Cert.ReferenceIdeal.main_arg1)) i).toNat < 4096) :
    Cert.ReferenceIdeal.ValueP.res_main_v31 (F := Ideal) m c
      = fun _ => Cert.Spec.lossR (Cert.Inputs.featOf (m ((c.tc : Thread _ _).loc Cert.ReferenceIdeal.main_arg0)))
          (Cert.Inputs.labOf (m ((c.tc : Thread _ _).loc Cert.ReferenceIdeal.main_arg1))) := by
  rw [val_main_v31_eq]
  funext i
  exact v31_apply _ _ hlab i

end Cert.RefValue

end
-- ==== Proof.lean ====
/- The certificate of the class-centre cross-entropy kernel against its reference, over the extended reals.

   Both programs compute, for features feat (8192 x 4096) and class ids lab (one per row, each below 4096 by the
   precondition), the mean over the rows of  -log_softmax(centre_i)[lab i]  divided by 2048, where centre_i is the mean of the
   rows of row i's class. The kernel forms the class sums by a one-hot matrix product accumulated over eight row blocks, divides
   by the class counts, reads each row's centre back by a second one-hot product accumulated over eight class blocks, and takes
   the row's log-softmax entry as a masked row sum; the reference scatters, gathers, and takes the entry along the row. The two
   agree because a one-hot product is a selection (0 · x = 0 and 1 · x = x for every extended real), a class that owns a row is
   not empty, and a log-softmax entry is never +∞, so the sign moves through the sum over the rows.

   The frames of the kernel program (word-level and idealized) come from the two regions' body obligations, with the scratch
   accumulator carried in the region invariant; the reference's frame is its run with the result dropped. -/
import proofs.«418073_j77309412134_1_alg».proof.Defs
import proofs.«418073_j77309412134_1_alg».proof.Proof.Gen.Kernel
import proofs.«418073_j77309412134_1_alg».proof.Proof.Gen.Kernel.Skeleton
import proofs.«418073_j77309412134_1_alg».proof.Proof.Gen.Kernel.Launch
import proofs.«418073_j77309412134_1_alg».proof.Proof.Gen.Kernel.Regions
import proofs.«418073_j77309412134_1_alg».proof.Proof.Gen.Kernel.Points
import proofs.«418073_j77309412134_1_alg».proof.Proof.Gen.KernelIdeal
import proofs.«418073_j77309412134_1_alg».proof.Proof.Gen.KernelIdeal.Skeleton
import proofs.«418073_j77309412134_1_alg».proof.Proof.Gen.KernelIdeal.Launch
import proofs.«418073_j77309412134_1_alg».proof.Proof.Gen.KernelIdeal.Regions
import proofs.«418073_j77309412134_1_alg».proof.Proof.Gen.KernelIdeal.Points
import proofs.«418073_j77309412134_1_alg».proof.Proof.Gen.ReferenceIdeal
import proofs.«418073_j77309412134_1_alg».proof.Proof.Gen.Pre_finite_inputs
import proofs.«418073_j77309412134_1_alg».proof.Proof.BRun
import proofs.«418073_j77309412134_1_alg».proof.Proof.BR0Body
import proofs.«418073_j77309412134_1_alg».proof.Proof.BR1Body
import proofs.«418073_j77309412134_1_alg».proof.Proof.Run
import proofs.«418073_j77309412134_1_alg».proof.Proof.R0Body
import proofs.«418073_j77309412134_1_alg».proof.Proof.R1Body
import proofs.«418073_j77309412134_1_alg».proof.Proof.KValue
import proofs.«418073_j77309412134_1_alg».proof.Proof.PreFacts
import proofs.«418073_j77309412134_1_alg».proof.Proof.Spec
import proofs.«418073_j77309412134_1_alg».proof.Proof.Inputs
import proofs.«418073_j77309412134_1_alg».proof.Proof.RefValueRun
import proofs.«418073_j77309412134_1_alg».proof.Proof.RefValue
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

/-- The two regions' frame facts of the word-level kernel program. -/
theorem regionsBits : Cert.Kernel.Hand.RegionFacts Bits :=
  ⟨fun V c => Cert.Kernel.Hand.body_obligation0 V c, fun V c => Cert.Kernel.Hand.hin0 V c, fun V c => Cert.Kernel.Hand.hout0 V c,
   fun V c => Cert.Kernel.Hand.body_obligation1 V c, fun V c => Cert.Kernel.Hand.hin1 V c, fun V c => Cert.Kernel.Hand.hout1 V c⟩

/-- The same of the idealized kernel program. -/
theorem regionsIdeal : Cert.KernelIdeal.Hand.RegionFacts Ideal :=
  ⟨fun V c => Cert.KernelIdeal.Hand.body_obligation0 V c, fun V c => Cert.KernelIdeal.Hand.hin0 V c, fun V c => Cert.KernelIdeal.Hand.hout0 V c,
   fun V c => Cert.KernelIdeal.Hand.body_obligation1 V c, fun V c => Cert.KernelIdeal.Hand.hin1 V c, fun V c => Cert.KernelIdeal.Hand.hout1 V c⟩

theorem frame_k : Cert.frame_Kernel := fun m ρ _ => Cert.Kernel.Hand.frame_all m ρ regionsBits

theorem frame_ki : Cert.frame_KernelIdeal := fun m ρ _ => Cert.KernelIdeal.Hand.frame_all m ρ regionsIdeal

/-- The reference has no kernel: its frame is its run with the result dropped. -/
theorem frame_ri : Cert.frame_ReferenceIdeal := fun m ρ _ =>
  (θ_run Cert.ReferenceIdeal.defs _ _).mono (fun _ h c => (h c).2) (Cert.RefValueRun.run (F := Ideal) m ρ)

/-- Both programs end at one value of the inputs: the kernel at its own spelling of the loss, the reference at the other, and
    the two spellings agree once every class id is below 4096, which the precondition says. -/
theorem algebraic : Cert.algebraic_KernelIdeal_ReferenceIdeal := by
  intro m ρ m' ρ' hpre hagree
  have hlab : ∀ (c : Dev Cert.KernelIdeal.nD) (i : Cert.KernelIdeal.S8192.Idx),
      ((m ((c.tc : Thread Cert.KernelIdeal.nD Cert.KernelIdeal.τ).loc Cert.KernelIdeal.main_arg1)) i).toNat < 4096 :=
    fun c i => Cert.PreFacts.lab_lt _ _ (hpre c) i
  refine ⟨fun c => fun _ => Cert.Spec.lossK (Cert.KernelIdeal.Hand.featK m c) (Cert.KernelIdeal.Hand.labK m c), ?_, ?_⟩
  · exact (θ_run Cert.KernelIdeal.defs _ _).mono
      (fun r h c => ⟨(h c).1.trans (Cert.KernelIdeal.Hand.kernel_value m c (hlab c)), (h c).2⟩)
      (Cert.KernelIdeal.Hand.run_value m ρ regionsIdeal)
  · refine (θ_run Cert.ReferenceIdeal.defs _ _).mono (fun r h c => ⟨(h c).1.trans ?_, (h c).2⟩)
      (Cert.RefValueRun.run (F := Ideal) m' ρ')
    have hl' : ∀ i : Cert.ReferenceIdeal.S8192.Idx,
        ((m' ((c.tc : Thread Cert.ReferenceIdeal.nD Cert.ReferenceIdeal.τ).loc Cert.ReferenceIdeal.main_arg1)) i).toNat < 4096 := by
      intro i; rw [(hagree c).2]; exact hlab c i
    rw [Cert.RefValue.result_eq m' c hl', (hagree c).1, (hagree c).2]
    funext _
    exact (Cert.Spec.lossK_eq_lossR (fun i => hlab c (Idealize.ShloMosaic.ValueIdx.ix1 i))).symm

theorem claim : Cert.Claim :=
  ⟨Cert.Kernel.Gen.facts, Cert.KernelIdeal.Gen.facts, Cert.ReferenceIdeal.Gen.facts, Cert.Pre_finite_inputs.Gen.facts,
   frame_k, frame_ki, frame_ri, trivial, algebraic⟩

end Cert.Proof

end
